-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144x6 : Shape := ⟨2, ![262144, 6]⟩
abbrev S2097152x42 : Shape := ⟨2, ![2097152, 42]⟩
abbrev S2097152 : Shape := ⟨1, ![2097152]⟩
abbrev S128x128 : Shape := ⟨2, ![128, 128]⟩
abbrev S128 : Shape := ⟨1, ![128]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x64 : Shape := ⟨2, ![128, 64]⟩
abbrev S64x128 : Shape := ⟨2, ![64, 128]⟩
abbrev S1x2x128x128 : Shape := ⟨4, ![1, 2, 128, 128]⟩
abbrev S1x2x128 : Shape := ⟨3, ![1, 2, 128]⟩
abbrev S2x2x128x128 : Shape := ⟨4, ![2, 2, 128, 128]⟩
abbrev S2x2x128 : Shape := ⟨3, ![2, 2, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144x6 : S_.BroadcastsInDim S262144x6 (![] : Fin 0 → Fin S262144x6.rank)
  reducesTo_S262144x6_S_d0_1 : S262144x6.ReducesTo [0, 1] S_
  bcast_S_S2097152x42 : S_.BroadcastsInDim S2097152x42 (![] : Fin 0 → Fin S2097152x42.rank)
  reducesTo_S2097152x42_S_d0_1 : S2097152x42.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S6x8 : S_.BroadcastsInDim S6x8 (![] : Fin 0 → Fin S6x8.rank)
  reducesTo_S6x8_S_d0_1 : S6x8.ReducesTo [0, 1] S_
  bcast_S_S8x128 : S_.BroadcastsInDim S8x128 (![] : Fin 0 → Fin S8x128.rank)
  reducesTo_S8x128_S_d0_1 : S8x128.ReducesTo [0, 1] S_
  bcast_S_S42x8 : S_.BroadcastsInDim S42x8 (![] : Fin 0 → Fin S42x8.rank)
  reducesTo_S42x8_S_d0_1 : S42x8.ReducesTo [0, 1] S_
  bcast_S_S8x64 : S_.BroadcastsInDim S8x64 (![] : Fin 0 → Fin S8x64.rank)
  reducesTo_S8x64_S_d0_1 : S8x64.ReducesTo [0, 1] S_
  bcast_S_S128x64 : S_.BroadcastsInDim S128x64 (![] : Fin 0 → Fin S128x64.rank)
  reducesTo_S128x64_S_d0_1 : S128x64.ReducesTo [0, 1] S_
  bcast_S_S64x128 : S_.BroadcastsInDim S64x128 (![] : Fin 0 → Fin S64x128.rank)
  reducesTo_S64x128_S_d0_1 : S64x128.ReducesTo [0, 1] S_
  bcast_S_S1x2x128x128 : S_.BroadcastsInDim S1x2x128x128 (![] : Fin 0 → Fin S1x2x128x128.rank)
  reducesTo_S1x2x128x128_S_d0_1_2_3 : S1x2x128x128.ReducesTo [0, 1, 2, 3] S_
  bcast_S_S1x2x128 : S_.BroadcastsInDim S1x2x128 (![] : Fin 0 → Fin S1x2x128.rank)
  reducesTo_S1x2x128_S_d0_1_2 : S1x2x128.ReducesTo [0, 1, 2] S_
  bcast_S_S2x2x128x128 : S_.BroadcastsInDim S2x2x128x128 (![] : Fin 0 → Fin S2x2x128x128.rank)
  reducesTo_S2x2x128x128_S_d0_1_2_3 : S2x2x128x128.ReducesTo [0, 1, 2, 3] S_
  bcast_S_S2x2x128 : S_.BroadcastsInDim S2x2x128 (![] : Fin 0 → Fin S2x2x128.rank)
  reducesTo_S2x2x128_S_d0_1_2 : S2x2x128.ReducesTo [0, 1, 2] S_
  bcast_S_S2097152 : S_.BroadcastsInDim S2097152 (![] : Fin 0 → Fin S2097152.rank)
  reducesTo_S2097152_S_d0 : S2097152.ReducesTo [0] S_

variable [Facts]

def fn_part5 {F : FTy → Type} [FloatOps F] (main_arg4 : IVec S2097152 32) (main_arg20 : FVec F S2x2x128 .f32) (main_v83 : IVec S_ 1) (main_v84 : FVec F S2x2x128x128 .f32) (main_cst_32 : FVec F S_ .f32) : IVec S_ 1 :=
  let main_v85 : FVec F S2x2x128x128 .f32 := broadcastInDim S2x2x128x128 ![] bcast_S_S2x2x128x128 main_cst_32
  let main_v86 : IVec S2x2x128x128 1 := cmpf .olt main_v84 main_v85
  let main_c_33 : IVec S_ 1 := constantI S_ 1 1#1
  let main_v87 : IVec S_ 1 := (fun x v => Host.reduce IntOp.andi x v reducesTo_S2x2x128x128_S_d0_1_2_3 h_S_) main_v86 main_c_33
  let main_v88 : IVec S_ 1 := andi main_v83 main_v87
  let main_v89 : FVec F S2x2x128 .f32 := Host.absf main_arg20
  let main_cst_34 : FVec F S_ .f32 := constant S_ .f32 0x7F800000#32
  let main_v90 : FVec F S2x2x128 .f32 := broadcastInDim S2x2x128 ![] bcast_S_S2x2x128 main_cst_34
  let main_v91 : IVec S2x2x128 1 := cmpf .olt main_v89 main_v90
  let main_c_35 : IVec S_ 1 := constantI S_ 1 1#1
  let main_v92 : IVec S_ 1 := (fun x v => Host.reduce IntOp.andi x v reducesTo_S2x2x128_S_d0_1_2 h_S_) main_v91 main_c_35
  let main_v93 : IVec S_ 1 := andi main_v88 main_v92
  let main_c_36 : IVec S_ 32 := constantI S_ 32 0#32
  let main_v94 : IVec S2097152 32 := broadcastInDim S2097152 ![] bcast_S_S2097152 main_c_36
  let main_v95 : IVec S2097152 1 := cmpi .sge main_arg4 main_v94
  let main_c_37 : IVec S_ 32 := constantI S_ 32 262144#32
  let main_v96 : IVec S2097152 32 := broadcastInDim S2097152 ![] bcast_S_S2097152 main_c_37
  let main_v97 : IVec S2097152 1 := cmpi .slt main_arg4 main_v96
  let main_v98 : IVec S2097152 1 := andi main_v95 main_v97
  let main_c_38 : IVec S_ 1 := constantI S_ 1 1#1
  let main_v99 : IVec S_ 1 := (fun x v => Host.reduce IntOp.andi x v reducesTo_S2097152_S_d0 h_S_) main_v98 main_c_38
  let main_v100 : IVec S_ 1 := andi main_v93 main_v99
  main_v100

def fn_part4 {F : FTy → Type} [FloatOps F] (main_arg4 : IVec S2097152 32) (main_arg16 : FVec F S1x2x128 .f32) (main_arg17 : FVec F S128x128 .f32) (main_arg18 : FVec F S128 .f32) (main_arg19 : FVec F S2x2x128x128 .f32) (main_arg20 : FVec F S2x2x128 .f32) (main_v63 : IVec S_ 1) (main_v67 : IVec S_ 1) : IVec S_ 1 :=
  let main_v68 : IVec S_ 1 := andi main_v63 main_v67
  let main_v69 : FVec F S1x2x128 .f32 := Host.absf main_arg16
  let main_cst_26 : FVec F S_ .f32 := constant S_ .f32 0x7F800000#32
  let main_v70 : FVec F S1x2x128 .f32 := broadcastInDim S1x2x128 ![] bcast_S_S1x2x128 main_cst_26
  let main_v71 : IVec S1x2x128 1 := cmpf .olt main_v69 main_v70
  let main_c_27 : IVec S_ 1 := constantI S_ 1 1#1
  let main_v72 : IVec S_ 1 := (fun x v => Host.reduce IntOp.andi x v reducesTo_S1x2x128_S_d0_1_2 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S2x2x128x128 .f32 := Host.absf main_arg19
  let main_cst_32 : FVec F S_ .f32 := constant S_ .f32 0x7F800000#32
  fn_part5 (F := F) main_arg4 main_arg20 main_v83 main_v84 main_cst_32

def fn_part3 {F : FTy → Type} [FloatOps F] (main_arg4 : IVec S2097152 32) (main_arg13 : FVec F S128x128 .f32) (main_arg14 : FVec F S128 .f32) (main_arg15 : FVec F S1x2x128x128 .f32) (main_arg16 : FVec F S1x2x128 .f32) (main_arg17 : FVec F S128x128 .f32) (main_arg18 : FVec F S128 .f32) (main_arg19 : FVec F S2x2x128x128 .f32) (main_arg20 : FVec F S2x2x128 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S1x2x128x128 .f32 := Host.absf main_arg15
  let main_cst_24 : FVec F S_ .f32 := constant S_ .f32 0x7F800000#32
  let main_v65 : FVec F S1x2x128x128 .f32 := broadcastInDim S1x2x128x128 ![] bcast_S_S1x2x128x128 main_cst_24
  let main_v66 : IVec S1x2x128x128 1 := cmpf .olt main_v64 main_v65
  let main_c_25 : IVec S_ 1 := constantI S_ 1 1#1
  let main_v67 : IVec S_ 1 := (fun x v => Host.reduce IntOp.andi x v reducesTo_S1x2x128x128_S_d0_1_2_3 h_S_) main_v66 main_c_25
  fn_part4 (F := F) main_arg4 main_arg16 main_arg17 main_arg18 main_arg19 main_arg20 main_v63 main_v67

def fn_part2 {F : FTy → Type} [FloatOps F] (main_arg4 : IVec S2097152 32) (main_arg9 : FVec F S42x8 .f32) (main_arg10 : FVec F S8x64 .f32) (main_arg11 : FVec F S128x64 .f32) (main_arg12 : FVec F S64x128 .f32) (main_arg13 : FVec F S128x128 .f32) (main_arg14 : FVec F S128 .f32) (main_arg15 : FVec F S1x2x128x128 .f32) (main_arg16 : FVec F S1x2x128 .f32) (main_arg17 : FVec F S128x128 .f32) (main_arg18 : FVec F S128 .f32) (main_arg19 : FVec F S2x2x128x128 .f32) (main_arg20 : FVec F S2x2x128 .f32) (main_v33 : IVec S_ 1) : IVec S_ 1 :=
  let main_v34 : FVec F S42x8 .f32 := Host.absf main_arg9
  let main_cst_12 : FVec F S_ .f32 := constant S_ .f32 0x7F800000#32
  let main_v35 : FVec F S42x8 .f32 := broadcastInDim S42x8 ![] bcast_S_S42x8 main_cst_12
  let main_v36 : IVec S42x8 1 := cmpf .olt main_v34 main_v35
  let main_c_13 : IVec S_ 1 := constantI S_ 1 1#1
  let main_v37 : IVec S_ 1 := (fun x v => Host.reduce IntOp.andi x v reducesTo_S42x8_S_d0_1 h_S_) main_v36 main_c_13
  let main_v38 : IVec S_ 1 := andi main_v33 main_v37
  let main_v39 : FVec F S8x64 .f32 := Host.absf main_arg10
  let main_cst_14 : FVec F S_ .f32 := constant S_ .f32 0x7F800000#32
  let main_v40 : FVec F S8x64 .f32 := broadcastInDim S8x64 ![] bcast_S_S8x64 main_cst_14
  let main_v41 : IVec S8x64 1 := cmpf .olt main_v39 main_v40
  let main_c_15 : IVec S_ 1 := constantI S_ 1 1#1
  let main_v42 : IVec S_ 1 := (fun x v => Host.reduce IntOp.andi x v reducesTo_S8x64_S_d0_1 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64x128 .f32 := Host.absf main_arg12
  let main_cst_18 : FVec F S_ .f32 := constant S_ .f32 0x7F800000#32
  let main_v50 : FVec F S64x128 .f32 := broadcastInDim S64x128 ![] bcast_S_S64x128 main_cst_18
  fn_part3 (F := F) main_arg4 main_arg13 main_arg14 main_arg15 main_arg16 main_arg17 main_arg18 main_arg19 main_arg20 main_v48 main_v49 main_v50

def fn_part1 {F : FTy → Type} [FloatOps F] (main_arg4 : IVec S2097152 32) (main_arg6 : FVec F S128 .f32) (main_arg7 : FVec F S6x8 .f32) (main_arg8 : FVec F S8x128 .f32) (main_arg9 : FVec F S42x8 .f32) (main_arg10 : FVec F S8x64 .f32) (main_arg11 : FVec F S128x64 .f32) (main_arg12 : FVec F S64x128 .f32) (main_arg13 : FVec F S128x128 .f32) (main_arg14 : FVec F S128 .f32) (main_arg15 : FVec F S1x2x128x128 .f32) (main_arg16 : FVec F S1x2x128 .f32) (main_arg17 : FVec F S128x128 .f32) (main_arg18 : FVec F S128 .f32) (main_arg19 : FVec F S2x2x128x128 .f32) (main_arg20 : FVec F S2x2x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S6x8 .f32 := Host.absf main_arg7
  let main_cst_8 : FVec F S_ .f32 := constant S_ .f32 0x7F800000#32
  let main_v25 : FVec F S6x8 .f32 := broadcastInDim S6x8 ![] bcast_S_S6x8 main_cst_8
  let main_v26 : IVec S6x8 1 := cmpf .olt main_v24 main_v25
  let main_c_9 : IVec S_ 1 := constantI S_ 1 1#1
  let main_v27 : IVec S_ 1 := (fun x v => Host.reduce IntOp.andi x v reducesTo_S6x8_S_d0_1 h_S_) main_v26 main_c_9
  let main_v28 : IVec S_ 1 := andi main_v23 main_v27
  let main_v29 : FVec F S8x128 .f32 := Host.absf main_arg8
  let main_cst_10 : FVec F S_ .f32 := constant S_ .f32 0x7F800000#32
  let main_v30 : FVec F S8x128 .f32 := broadcastInDim S8x128 ![] bcast_S_S8x128 main_cst_10
  let main_v31 : IVec S8x128 1 := cmpf .olt main_v29 main_v30
  let main_c_11 : IVec S_ 1 := constantI S_ 1 1#1
  let main_v32 : IVec S_ 1 := (fun x v => Host.reduce IntOp.andi x v reducesTo_S8x128_S_d0_1 h_S_) main_v31 main_c_11
  let main_v33 : IVec S_ 1 := andi main_v28 main_v32
  fn_part2 (F := F) main_arg4 main_arg9 main_arg10 main_arg11 main_arg12 main_arg13 main_arg14 main_arg15 main_arg16 main_arg17 main_arg18 main_arg19 main_arg20 main_v33

def fn {F : FTy → Type} [FloatOps F] (main_arg0 : FVec F S262144x128 .f32) (main_arg1 : FVec F S262144x6 .f32) (main_arg2 : FVec F S2097152x42 .f32) (main_arg3 : IVec S2097152 32) (main_arg4 : IVec S2097152 32) (main_arg5 : FVec F S128x128 .f32) (main_arg6 : FVec F S128 .f32) (main_arg7 : FVec F S6x8 .f32) (main_arg8 : FVec F S8x128 .f32) (main_arg9 : FVec F S42x8 .f32) (main_arg10 : FVec F S8x64 .f32) (main_arg11 : FVec F S128x64 .f32) (main_arg12 : FVec F S64x128 .f32) (main_arg13 : FVec F S128x128 .f32) (main_arg14 : FVec F S128 .f32) (main_arg15 : FVec F S1x2x128x128 .f32) (main_arg16 : FVec F S1x2x128 .f32) (main_arg17 : FVec F S128x128 .f32) (main_arg18 : FVec F S128 .f32) (main_arg19 : FVec F S2x2x128x128 .f32) (main_arg20 : FVec F S2x2x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x6 .f32 := Host.absf main_arg1
  let main_cst_0 : FVec F S_ .f32 := constant S_ .f32 0x7F800000#32
  let main_v5 : FVec F S262144x6 .f32 := broadcastInDim S262144x6 ![] bcast_S_S262144x6 main_cst_0
  let main_v6 : IVec S262144x6 1 := cmpf .olt main_v4 main_v5
  let main_c_1 : IVec S_ 1 := constantI S_ 1 1#1
  let main_v7 : IVec S_ 1 := (fun x v => Host.reduce IntOp.andi x v reducesTo_S262144x6_S_d0_1 h_S_) main_v6 main_c_1
  let main_v8 : IVec S_ 1 := andi main_v3 main_v7
  let main_v9 : FVec F S2097152x42 .f32 := Host.absf main_arg2
  let main_cst_2 : FVec F S_ .f32 := constant S_ .f32 0x7F800000#32
  let main_v10 : FVec F S2097152x42 .f32 := broadcastInDim S2097152x42 ![] bcast_S_S2097152x42 main_cst_2
  let main_v11 : IVec S2097152x42 1 := cmpf .olt main_v9 main_v10
  let main_c_3 : IVec S_ 1 := constantI S_ 1 1#1
  let main_v12 : IVec S_ 1 := (fun x v => Host.reduce IntOp.andi x v reducesTo_S2097152x42_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg6 main_arg7 main_arg8 main_arg9 main_arg10 main_arg11 main_arg12 main_arg13 main_arg14 main_arg15 main_arg16 main_arg17 main_arg18 main_arg19 main_arg20 main_v13 main_v16
-- ==== Kernel.lean ====
abbrev S262144x128 : Shape := ⟨2, ![262144, 128]⟩
abbrev S262144x6 : Shape := ⟨2, ![262144, 6]⟩
abbrev S2097152x42 : Shape := ⟨2, ![2097152, 42]⟩
abbrev S2097152 : Shape := ⟨1, ![2097152]⟩
abbrev S128x128 : Shape := ⟨2, ![128, 128]⟩
abbrev S128 : Shape := ⟨1, ![128]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x64 : Shape := ⟨2, ![128, 64]⟩
abbrev S64x128 : Shape := ⟨2, ![64, 128]⟩
abbrev S1x2x128x128 : Shape := ⟨4, ![1, 2, 128, 128]⟩
abbrev S1x2x128 : Shape := ⟨3, ![1, 2, 128]⟩
abbrev S2x2x128x128 : Shape := ⟨4, ![2, 2, 128, 128]⟩
abbrev S2x2x128 : Shape := ⟨3, ![2, 2, 128]⟩
abbrev S6x128 : Shape := ⟨2, ![6, 128]⟩
abbrev S42x64 : Shape := ⟨2, ![42, 64]⟩
abbrev S262144x64 : Shape := ⟨2, ![262144, 64]⟩
abbrev S4096x128 : Shape := ⟨2, ![4096, 128]⟩
abbrev S4096x6 : Shape := ⟨2, ![4096, 6]⟩
abbrev S4096x64 : Shape := ⟨2, ![4096, 64]⟩
abbrev S1x128 : Shape := ⟨2, ![1, 128]⟩
abbrev S2097152x64 : Shape := ⟨2, ![2097152, 64]⟩
abbrev S8192x42 : Shape := ⟨2, ![8192, 42]⟩
abbrev S8192x64 : Shape := ⟨2, ![8192, 64]⟩
abbrev S_ : Shape := ⟨0, ![]⟩
abbrev S2097152x1 : Shape := ⟨2, ![2097152, 1]⟩
abbrev S1 : Shape := ⟨1, ![1]⟩
abbrev S1x1 : Shape := ⟨2, ![1, 1]⟩
abbrev S2x128x128 : Shape := ⟨3, ![2, 128, 128]⟩
abbrev S2x128 : Shape := ⟨2, ![2, 128]⟩
abbrev S4x128x128 : Shape := ⟨3, ![4, 128, 128]⟩
abbrev S4x128 : Shape := ⟨2, ![4, 128]⟩
abbrev S1x128x128 : Shape := ⟨3, ![1, 128, 128]⟩

abbrev nBuf : Space → Nat
  | .hbm => 58
  | .vmem => 30
  | .smem => 0
  | _ => 0

abbrev bufTy : (tb : Table) → Fin (tcTables nBuf tb) → BufTy
  | .hbm, ⟨0, _⟩ => ⟨S262144x128, .f32⟩
  | .hbm, ⟨1, _⟩ => ⟨S262144x6, .f32⟩
  | .hbm, ⟨2, _⟩ => ⟨S2097152x42, .f32⟩
  | .hbm, ⟨3, _⟩ => ⟨S2097152, .i32⟩
  | .hbm, ⟨4, _⟩ => ⟨S2097152, .i32⟩
  | .hbm, ⟨5, _⟩ => ⟨S128x128, .f32⟩
  | .hbm, ⟨6, _⟩ => ⟨S128, .f32⟩
  | .hbm, ⟨7, _⟩ => ⟨S6x8, .f32⟩
  | .hbm, ⟨8, _⟩ => ⟨S8x128, .f32⟩
  | .hbm, ⟨9, _⟩ => ⟨S42x8, .f32⟩
  | .hbm, ⟨10, _⟩ => ⟨S8x64, .f32⟩
  | .hbm, ⟨11, _⟩ => ⟨S128x64, .f32⟩
  | .hbm, ⟨12, _⟩ => ⟨S64x128, .f32⟩
  | .hbm, ⟨13, _⟩ => ⟨S128x128, .f32⟩
  | .hbm, ⟨14, _⟩ => ⟨S128, .f32⟩
  | .hbm, ⟨15, _⟩ => ⟨S1x2x128x128, .f32⟩
  | .hbm, ⟨16, _⟩ => ⟨S1x2x128, .f32⟩
  | .hbm, ⟨17, _⟩ => ⟨S128x128, .f32⟩
  | .hbm, ⟨18, _⟩ => ⟨S128, .f32⟩
  | .hbm, ⟨19, _⟩ => ⟨S2x2x128x128, .f32⟩
  | .hbm, ⟨20, _⟩ => ⟨S2x2x128, .f32⟩
  | .hbm, ⟨21, _⟩ => ⟨S6x128, .f32⟩
  | .hbm, ⟨22, _⟩ => ⟨S42x64, .f32⟩
  | .hbm, ⟨23, _⟩ => ⟨S262144x64, .f32⟩
  | .hbm, ⟨24, _⟩ => ⟨S2097152x64, .f32⟩
  | .hbm, ⟨25, _⟩ => ⟨S_, .i32⟩
  | .hbm, ⟨26, _⟩ => ⟨S2097152, .i32⟩
  | .hbm, ⟨27, _⟩ => ⟨S2097152, .i1⟩
  | .hbm, ⟨28, _⟩ => ⟨S_, .i32⟩
  | .hbm, ⟨29, _⟩ => ⟨S2097152, .i32⟩
  | .hbm, ⟨30, _⟩ => ⟨S2097152, .i32⟩
  | .hbm, ⟨31, _⟩ => ⟨S2097152, .i32⟩
  | .hbm, ⟨32, _⟩ => ⟨S2097152x1, .i32⟩
  | .hbm, ⟨33, _⟩ => ⟨S1, .i32⟩
  | .hbm, ⟨34, _⟩ => ⟨S_, .i32⟩
  | .hbm, ⟨35, _⟩ => ⟨S2097152x1, .i32⟩
  | .hbm, ⟨36, _⟩ => ⟨S2097152x1, .i1⟩
  | .hbm, ⟨37, _⟩ => ⟨S1x1, .i32⟩
  | .hbm, ⟨38, _⟩ => ⟨S2097152x1, .i32⟩
  | .hbm, ⟨39, _⟩ => ⟨S2097152x1, .i1⟩
  | .hbm, ⟨40, _⟩ => ⟨S2097152x1, .i1⟩
  | .hbm, ⟨41, _⟩ => ⟨S_, .i1⟩
  | .hbm, ⟨42, _⟩ => ⟨S2097152, .i1⟩
  | .hbm, ⟨43, _⟩ => ⟨S2097152x64, .f32⟩
  | .hbm, ⟨44, _⟩ => ⟨S2097152x64, .i1⟩
  | .hbm, ⟨45, _⟩ => ⟨S_, .f32⟩
  | .hbm, ⟨46, _⟩ => ⟨S2097152x64, .f32⟩
  | .hbm, ⟨47, _⟩ => ⟨S2097152x64, .f32⟩
  | .hbm, ⟨48, _⟩ => ⟨S2097152x64, .f32⟩
  | .hbm, ⟨49, _⟩ => ⟨S_, .f32⟩
  | .hbm, ⟨50, _⟩ => ⟨S262144x64, .f32⟩
  | .hbm, ⟨51, _⟩ => ⟨S2097152x1, .i32⟩
  | .hbm, ⟨52, _⟩ => ⟨S262144x64, .f32⟩
  | .hbm, ⟨53, _⟩ => ⟨S2x128x128, .f32⟩
  | .hbm, ⟨54, _⟩ => ⟨S2x128, .f32⟩
  | .hbm, ⟨55, _⟩ => ⟨S4x128x128, .f32⟩
  | .hbm, ⟨56, _⟩ => ⟨S4x128, .f32⟩
  | .hbm, ⟨57, _⟩ => ⟨S262144x128, .f32⟩
  | .local _ .vmem, ⟨0, _⟩ => ⟨S4096x128, .f32⟩
  | .local _ .vmem, ⟨1, _⟩ => ⟨S4096x128, .f32⟩
  | .local _ .vmem, ⟨2, _⟩ => ⟨S4096x6, .f32⟩
  | .local _ .vmem, ⟨3, _⟩ => ⟨S4096x6, .f32⟩
  | .local _ .vmem, ⟨4, _⟩ => ⟨S128x128, .f32⟩
  | .local _ .vmem, ⟨5, _⟩ => ⟨S128, .f32⟩
  | .local _ .vmem, ⟨6, _⟩ => ⟨S6x128, .f32⟩
  | .local _ .vmem, ⟨7, _⟩ => ⟨S128x64, .f32⟩
  | .local _ .vmem, ⟨8, _⟩ => ⟨S4096x64, .f32⟩
  | .local _ .vmem, ⟨9, _⟩ => ⟨S4096x64, .f32⟩
  | .local _ .vmem, ⟨10, _⟩ => ⟨S8192x42, .f32⟩
  | .local _ .vmem, ⟨11, _⟩ => ⟨S8192x42, .f32⟩
  | .local _ .vmem, ⟨12, _⟩ => ⟨S42x64, .f32⟩
  | .local _ .vmem, ⟨13, _⟩ => ⟨S8192x64, .f32⟩
  | .local _ .vmem, ⟨14, _⟩ => ⟨S8192x64, .f32⟩
  | .local _ .vmem, ⟨15, _⟩ => ⟨S4096x64, .f32⟩
  | .local _ .vmem, ⟨16, _⟩ => ⟨S4096x64, .f32⟩
  | .local _ .vmem, ⟨17, _⟩ => ⟨S4096x128, .f32⟩
  | .local _ .vmem, ⟨18, _⟩ => ⟨S4096x128, .f32⟩
  | .local _ .vmem, ⟨19, _⟩ => ⟨S64x128, .f32⟩
  | .local _ .vmem, ⟨20, _⟩ => ⟨S128x128, .f32⟩
  | .local _ .vmem, ⟨21, _⟩ => ⟨S128, .f32⟩
  | .local _ .vmem, ⟨22, _⟩ => ⟨S2x128x128, .f32⟩
  | .local _ .vmem, ⟨23, _⟩ => ⟨S2x128, .f32⟩
  | .local _ .vmem, ⟨24, _⟩ => ⟨S128x128, .f32⟩
  | .local _ .vmem, ⟨25, _⟩ => ⟨S128, .f32⟩
  | .local _ .vmem, ⟨26, _⟩ => ⟨S4x128x128, .f32⟩
  | .local _ .vmem, ⟨27, _⟩ => ⟨S4x128, .f32⟩
  | .local _ .vmem, ⟨28, _⟩ => ⟨S4096x128, .f32⟩
  | .local _ .vmem, ⟨29, _⟩ => ⟨S4096x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v4 : Ref sig .tc := ⟨.hbm, 47, rfl⟩
abbrev main_v5 : Ref sig .tc := ⟨.hbm, 48, rfl⟩
abbrev main_cst : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg10_0 : Ref sig .tc := ⟨.vmem, 27, rfl⟩
abbrev cc2_stg11_0 : Ref sig .tc := ⟨.vmem, 28, rfl⟩
abbrev cc2_stg11_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem10_0 : DmaSem sig := 27
abbrev cc2_sem11_0 : DmaSem sig := 28
abbrev cc2_sem11_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x42 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S42x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2x128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S4x128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S4x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S4096x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S4096x6_S4096x6_0_0 : ∀ a, (![0, 0] : Fin 2 → Nat) a + S4096x6.size a ≤ S4096x6.size a
  h_S4096x6 : 0 < S4096x6.numel
  inb_S6x128_S6x128_0_0 : ∀ a, (![0, 0] : Fin 2 → Nat) a + S6x128.size a ≤ S6x128.size a
  h_S6x128 : 0 < S6x128.numel
  shapeCasts_S6x128_S6x128 : S6x128.ShapeCasts S6x128
  inb_S128x64_S128x64_0_0 : ∀ a, (![0, 0] : Fin 2 → Nat) a + S128x64.size a ≤ S128x64.size a
  h_S128x64 : 0 < S128x64.numel
  inb_S4096x64_S4096x64_0_0 : ∀ a, (![0, 0] : Fin 2 → Nat) a + S4096x64.size a ≤ S4096x64.size a
  h_S4096x64 : 0 < S4096x64.numel
  inb_S8192x42_S8192x42_0_0 : ∀ a, (![0, 0] : Fin 2 → Nat) a + S8192x42.size a ≤ S8192x42.size a
  h_S8192x42 : 0 < S8192x42.numel
  inb_S42x64_S42x64_0_0 : ∀ a, (![0, 0] : Fin 2 → Nat) a + S42x64.size a ≤ S42x64.size a
  h_S42x64 : 0 < S42x64.numel
  shapeCasts_S42x64_S42x64 : S42x64.ShapeCasts S42x64
  inb_S8192x64_S8192x64_0_0 : ∀ a, (![0, 0] : Fin 2 → Nat) a + S8192x64.size a ≤ S8192x64.size a
  h_S8192x64 : 0 < S8192x64.numel
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  reducesTo_S2097152x1_S2097152_d1 : S2097152x1.ReducesTo [1] S2097152
  h_S_ : 0 < S_.numel
  bcast_S2097152_S2097152x64_0 : S2097152.BroadcastsInDim S2097152x64 (![0] : Fin 1 → Fin S2097152x64.rank)
  bcast_S_S2097152x64 : S_.BroadcastsInDim S2097152x64 (![] : Fin 0 → Fin S2097152x64.rank)
  bcast_S_S262144x64 : S_.BroadcastsInDim S262144x64 (![] : Fin 0 → Fin S262144x64.rank)
  shapeCasts_S1x2x128x128_S2x128x128 : S1x2x128x128.ShapeCasts S2x128x128
  shapeCasts_S1x2x128_S2x128 : S1x2x128.ShapeCasts S2x128
  shapeCasts_S2x2x128x128_S4x128x128 : S2x2x128x128.ShapeCasts S4x128x128
  shapeCasts_S2x2x128_S4x128 : S2x2x128.ShapeCasts S4x128
  shapeCasts_S4096x64_S4096x64 : S4096x64.ShapeCasts S4096x64
  inb_S64x128_S64x128_0_0 : ∀ a, (![0, 0] : Fin 2 → Nat) a + S64x128.size a ≤ S64x128.size a
  h_S64x128 : 0 < S64x128.numel
  inb_S2x128x128_S1x128x128_0_0_0 : ∀ a, (![0, 0, 0] : Fin 3 → Nat) a + S1x128x128.size a ≤ S2x128x128.size a
  h_S1x128x128 : 0 < S1x128x128.numel
  shapeCasts_S1x128x128_S128x128 : S1x128x128.ShapeCasts S128x128
  inb_S2x128_S1x128_0_0 : ∀ a, (![0, 0] : Fin 2 → Nat) a + S1x128.size a ≤ S2x128.size a
  h_S1x128 : 0 < S1x128.numel
  shapeCasts_S1x128_S128 : S1x128.ShapeCasts S128
  inb_S2x128x128_S1x128x128_1_0_0 : ∀ a, (![1, 0, 0] : Fin 3 → Nat) a + S1x128x128.size a ≤ S2x128x128.size a
  inb_S2x128_S1x128_1_0 : ∀ a, (![1, 0] : Fin 2 → Nat) a + S1x128.size a ≤ S2x128.size a
  inb_S4x128x128_S1x128x128_0_0_0 : ∀ a, (![0, 0, 0] : Fin 3 → Nat) a + S1x128x128.size a ≤ S4x128x128.size a
  inb_S4x128_S1x128_0_0 : ∀ a, (![0, 0] : Fin 2 → Nat) a + S1x128.size a ≤ S4x128.size a
  inb_S4x128x128_S1x128x128_1_0_0 : ∀ a, (![1, 0, 0] : Fin 3 → Nat) a + S1x128x128.size a ≤ S4x128x128.size a
  inb_S4x128_S1x128_1_0 : ∀ a, (![1, 0] : Fin 2 → Nat) a + S1x128.size a ≤ S4x128.size a
  inb_S4x128x128_S1x128x128_2_0_0 : ∀ a, (![2, 0, 0] : Fin 3 → Nat) a + S1x128x128.size a ≤ S4x128x128.size a
  inb_S4x128_S1x128_2_0 : ∀ a, (![2, 0] : Fin 2 → Nat) a + S1x128.size a ≤ S4x128.size a
  inb_S4x128x128_S1x128x128_3_0_0 : ∀ a, (![3, 0, 0] : Fin 3 → Nat) a + S1x128x128.size a ≤ S4x128x128.size a
  inb_S4x128_S1x128_3_0 : ∀ a, (![3, 0] : Fin 2 → Nat) a + S1x128.size a ≤ S4x128.size a
  dot_S6x8_S8x128_S6x128_1_0_0_1_n_n_wf : DotDims.WF S6x8 S8x128 S6x128 [1] [0] [0] [1] [] []
  dot_S42x8_S8x64_S42x64_1_0_0_1_n_n_wf : DotDims.WF S42x8 S8x64 S42x64 [1] [0] [0] [1] [] []
  dot_S4096x128_S128x128_S4096x128_1_0_0_1_n_n_wf : DotDims.WF S4096x128 S128x128 S4096x128 [1] [0] [0] [1] [] []
  dot_S4096x6_S6x128_S4096x128_1_0_0_1_n_n_wf : DotDims.WF S4096x6 S6x128 S4096x128 [1] [0] [0] [1] [] []
  dot_S4096x128_S128x64_S4096x64_1_0_0_1_n_n_wf : DotDims.WF S4096x128 S128x64 S4096x64 [1] [0] [0] [1] [] []
  dot_S8192x42_S42x64_S8192x64_1_0_0_1_n_n_wf : DotDims.WF S8192x42 S42x64 S8192x64 [1] [0] [0] [1] [] []
  gather_S262144x64_S2097152x1_S2097152x64_1_0_n_n_0_1_164_wf : GatherDims.WF S262144x64 S2097152x1 S2097152x64 [1] [0] [] [0] [] 1 ![1, 64]
  scatter_S262144x64_S2097152x1_S2097152x64_1_0_0_1_wf : ScatterDims.WF S262144x64 S2097152x1 S2097152x64 [1] [0] [0] 1
  dot_S4096x64_S64x128_S4096x128_1_0_0_1_n_n_wf : DotDims.WF S4096x64 S64x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x6.size a ≤ S262144x6.size a
  hwx0_1 : ∀ i : grid0.Coords, EltTy.bits .f32 = 32 ∨ (Rect.block (s := S262144x6) S4096x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x128.size a ≤ S6x128.size a
  hwx0_4 : ∀ i : grid0.Coords, EltTy.bits .f32 = 32 ∨ (Rect.block (s := S6x128) S6x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x64.size a ≤ S262144x64.size a
  hwx0_6 : ∀ i : grid0.Coords, EltTy.bits .f32 = 32 ∨ (Rect.block (s := S262144x64) S4096x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x42.size a ≤ S2097152x42.size a
  hwx1_0 : ∀ i : grid1.Coords, EltTy.bits .f32 = 32 ∨ (Rect.block (s := S2097152x42) S8192x42.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S42x64.size a ≤ S42x64.size a
  hwx1_1 : ∀ i : grid1.Coords, EltTy.bits .f32 = 32 ∨ (Rect.block (s := S42x64) S42x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S2097152x64.size a
  hwx1_2 : ∀ i : grid1.Coords, EltTy.bits .f32 = 32 ∨ (Rect.block (s := S2097152x64) S8192x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S262144x64.size a
  hwx2_0 : ∀ i : grid2.Coords, EltTy.bits .f32 = 32 ∨ (Rect.block (s := S262144x64) S4096x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S262144x128.size a
  hwx2_1 : ∀ i : grid2.Coords, EltTy.bits .f32 = 32 ∨ (Rect.block (s := S262144x128) S4096x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S2x128x128.size a ≤ S2x128x128.size a
  hwx2_5 : ∀ i : grid2.Coords, EltTy.bits .f32 = 32 ∨ (Rect.block (s := S2x128x128) S2x128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S2x128.size a ≤ S2x128.size a
  hwx2_6 : ∀ i : grid2.Coords, EltTy.bits .f32 = 32 ∨ (Rect.block (s := S2x128) S2x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S4x128x128.size a ≤ S4x128x128.size a
  hwx2_9 : ∀ i : grid2.Coords, EltTy.bits .f32 = 32 ∨ (Rect.block (s := S4x128x128) S4x128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S4x128.size a ≤ S4x128.size a
  hwx2_10 : ∀ i : grid2.Coords, EltTy.bits .f32 = 32 ∨ (Rect.block (s := S4x128) S4x128.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S4096x128.size a ≤ S262144x128.size a
  hwx2_11 : ∀ i : grid2.Coords, EltTy.bits .f32 = 32 ∨ (Rect.block (s := S262144x128) S4096x128.size (cc2_transform_11 i) (hinb2_11 i)).WholeWords (EltTy.packing .f32)

variable [Facts₀]

def dot_S6x8_S8x128_S6x128_1_0_0_1_n_n : DotDims S6x8 S8x128 S6x128 where
  lhsContracting := [1]
  rhsContracting := [0]
  lhsNonContracting := [0]
  rhsNonContracting := [1]
  lhsBatch := []
  rhsBatch := []
  wf := dot_S6x8_S8x128_S6x128_1_0_0_1_n_n_wf
def dot_S42x8_S8x64_S42x64_1_0_0_1_n_n : DotDims S42x8 S8x64 S42x64 where
  lhsContracting := [1]
  rhsContracting := [0]
  lhsNonContracting := [0]
  rhsNonContracting := [1]
  lhsBatch := []
  rhsBatch := []
  wf := dot_S42x8_S8x64_S42x64_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x6_S6x128_S4096x128_1_0_0_1_n_n : DotDims S4096x6 S6x128 S4096x128 where
  lhsContracting := [1]
  rhsContracting := [0]
  lhsNonContracting := [0]
  rhsNonContracting := [1]
  lhsBatch := []
  rhsBatch := []
  wf := dot_S4096x6_S6x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S8192x42_S42x64_S8192x64_1_0_0_1_n_n : DotDims S8192x42 S42x64 S8192x64 where
  lhsContracting := [1]
  rhsContracting := [0]
  lhsNonContracting := [0]
  rhsNonContracting := [1]
  lhsBatch := []
  rhsBatch := []
  wf := dot_S8192x42_S42x64_S8192x64_1_0_0_1_n_n_wf
def gather_S262144x64_S2097152x1_S2097152x64_1_0_n_n_0_1_164 : GatherDims S262144x64 S2097152x1 S2097152x64 where
  offsetDims := [1]
  collapsedSliceDims := [0]
  operandBatchingDims := []
  startIndicesBatchingDims := []
  startIndexMap := [0]
  indexVectorDim := 1
  sliceSizes := ![1, 64]
  wf := gather_S262144x64_S2097152x1_S2097152x64_1_0_n_n_0_1_164_wf
def scatter_S262144x64_S2097152x1_S2097152x64_1_0_0_1 : ScatterDims S262144x64 S2097152x1 S2097152x64 where
  updateWindowDims := [1]
  insertedWindowDims := [0]
  scatterDimsToOperandDims := [0]
  indexVectorDim := 1
  wf := scatter_S262144x64_S2097152x1_S2097152x64_1_0_0_1_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S6x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S4096x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg2) S8192x42.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S42x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v8) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v9) S2x128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v10) S2x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg17) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg18) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v11) S4x128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v12) S4x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v13) S4096x128.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S262144x128 : Shape := ⟨2, ![262144, 128]⟩
abbrev S262144x6 : Shape := ⟨2, ![262144, 6]⟩
abbrev S2097152x42 : Shape := ⟨2, ![2097152, 42]⟩
abbrev S2097152 : Shape := ⟨1, ![2097152]⟩
abbrev S128x128 : Shape := ⟨2, ![128, 128]⟩
abbrev S128 : Shape := ⟨1, ![128]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x64 : Shape := ⟨2, ![128, 64]⟩
abbrev S64x128 : Shape := ⟨2, ![64, 128]⟩
abbrev S1x2x128x128 : Shape := ⟨4, ![1, 2, 128, 128]⟩
abbrev S1x2x128 : Shape := ⟨3, ![1, 2, 128]⟩
abbrev S2x2x128x128 : Shape := ⟨4, ![2, 2, 128, 128]⟩
abbrev S2x2x128 : Shape := ⟨3, ![2, 2, 128]⟩
abbrev S1x128 : Shape := ⟨2, ![1, 128]⟩
abbrev S_ : Shape := ⟨0, ![]⟩
abbrev S262144x8 : Shape := ⟨2, ![262144, 8]⟩
abbrev S262144x64 : Shape := ⟨2, ![262144, 64]⟩
abbrev S2097152x1 : Shape := ⟨2, ![2097152, 1]⟩
abbrev S2097152x64 : Shape := ⟨2, ![2097152, 64]⟩
abbrev S2097152x8 : Shape := ⟨2, ![2097152, 8]⟩
abbrev S2x128x128 : Shape := ⟨3, ![2, 128, 128]⟩
abbrev S2x128 : Shape := ⟨2, ![2, 128]⟩
abbrev S1x128x128 : Shape := ⟨3, ![1, 128, 128]⟩

abbrev nBuf : Space → Nat
  | .hbm => 216
  | .vmem => 0
  | .smem => 0
  | _ => 0

abbrev hbmTy0_0 (i : Nat) : BufTy := match i % 128 with
  | 0 => ⟨S262144x128, .f32⟩
  | 1 => ⟨S262144x6, .f32⟩
  | 2 => ⟨S2097152x42, .f32⟩
  | 3 => ⟨S2097152, .i32⟩
  | 4 => ⟨S2097152, .i32⟩
  | 5 => ⟨S128x128, .f32⟩
  | 6 => ⟨S128, .f32⟩
  | 7 => ⟨S6x8, .f32⟩
  | 8 => ⟨S8x128, .f32⟩
  | 9 => ⟨S42x8, .f32⟩
  | 10 => ⟨S8x64, .f32⟩
  | 11 => ⟨S128x64, .f32⟩
  | 12 => ⟨S64x128, .f32⟩
  | 13 => ⟨S128x128, .f32⟩
  | 14 => ⟨S128, .f32⟩
  | 15 => ⟨S1x2x128x128, .f32⟩
  | 16 => ⟨S1x2x128, .f32⟩
  | 17 => ⟨S128x128, .f32⟩
  | 18 => ⟨S128, .f32⟩
  | 19 => ⟨S2x2x128x128, .f32⟩
  | 20 => ⟨S2x2x128, .f32⟩
  | 21 => ⟨S262144x128, .f32⟩
  | 22 => ⟨S1x128, .f32⟩
  | 23 => ⟨S262144x128, .f32⟩
  | 24 => ⟨S262144x128, .f32⟩
  | 25 => ⟨S262144x128, .f32⟩
  | 26 => ⟨S262144x128, .f32⟩
  | 27 => ⟨S_, .f32⟩
  | 28 => ⟨S262144x128, .f32⟩
  | 29 => ⟨S262144x128, .f32⟩
  | 30 => ⟨S_, .f32⟩
  | 31 => ⟨S262144x128, .f32⟩
  | 32 => ⟨S262144x128, .f32⟩
  | 33 => ⟨S262144x128, .f32⟩
  | 34 => ⟨S262144x8, .f32⟩
  | 35 => ⟨S262144x128, .f32⟩
  | 36 => ⟨S262144x128, .f32⟩
  | 37 => ⟨S262144x64, .f32⟩
  | 38 => ⟨S262144x64, .f32⟩
  | 39 => ⟨S262144x64, .f32⟩
  | 40 => ⟨S_, .f32⟩
  | 41 => ⟨S262144x64, .f32⟩
  | 42 => ⟨S262144x64, .f32⟩
  | 43 => ⟨S_, .f32⟩
  | 44 => ⟨S262144x64, .f32⟩
  | 45 => ⟨S262144x64, .f32⟩
  | 46 => ⟨S262144x64, .f32⟩
  | 47 => ⟨S_, .i32⟩
  | 48 => ⟨S2097152, .i32⟩
  | 49 => ⟨S2097152, .i1⟩
  | 50 => ⟨S_, .i32⟩
  | 51 => ⟨S2097152, .i32⟩
  | 52 => ⟨S2097152, .i32⟩
  | 53 => ⟨S2097152, .i32⟩
  | 54 => ⟨S2097152x1, .i32⟩
  | 55 => ⟨S2097152x64, .f32⟩
  | 56 => ⟨S2097152x8, .f32⟩
  | 57 => ⟨S2097152x64, .f32⟩
  | 58 => ⟨S2097152x64, .f32⟩
  | 59 => ⟨S_, .f32⟩
  | 60 => ⟨S262144x64, .f32⟩
  | 61 => ⟨S2097152x1, .i32⟩
  | 62 => ⟨S262144x64, .f32⟩
  | 63 => ⟨S262144x128, .f32⟩
  | 64 => ⟨S262144x128, .f32⟩
  | 65 => ⟨S262144x128, .f32⟩
  | 66 => ⟨S_, .f32⟩
  | 67 => ⟨S262144x128, .f32⟩
  | 68 => ⟨S262144x128, .f32⟩
  | 69 => ⟨S_, .f32⟩
  | 70 => ⟨S262144x128, .f32⟩
  | 71 => ⟨S262144x128, .f32⟩
  | 72 => ⟨S262144x128, .f32⟩
  | 73 => ⟨S262144x128, .f32⟩
  | 74 => ⟨S1x128, .f32⟩
  | 75 => ⟨S262144x128, .f32⟩
  | 76 => ⟨S262144x128, .f32⟩
  | 77 => ⟨S262144x128, .f32⟩
  | 78 => ⟨S262144x128, .f32⟩
  | 79 => ⟨S_, .f32⟩
  | 80 => ⟨S262144x128, .f32⟩
  | 81 => ⟨S262144x128, .f32⟩
  | 82 => ⟨S_, .f32⟩
  | 83 => ⟨S262144x128, .f32⟩
  | 84 => ⟨S262144x128, .f32⟩
  | 85 => ⟨S262144x128, .f32⟩
  | 86 => ⟨S262144x128, .f32⟩
  | 87 => ⟨S2x128x128, .f32⟩
  | 88 => ⟨S2x128, .f32⟩
  | 89 => ⟨S1x128x128, .f32⟩
  | 90 => ⟨S128x128, .f32⟩
  | 91 => ⟨S262144x128, .f32⟩
  | 92 => ⟨S1x128, .f32⟩
  | 93 => ⟨S128, .f32⟩
  | 94 => ⟨S1x128, .f32⟩
  | 95 => ⟨S262144x128, .f32⟩
  | 96 => ⟨S262144x128, .f32⟩
  | 97 => ⟨S262144x128, .f32⟩
  | 98 => ⟨S262144x128, .f32⟩
  | 99 => ⟨S_, .f32⟩
  | 100 => ⟨S262144x128, .f32⟩
  | 101 => ⟨S262144x128, .f32⟩
  | 102 => ⟨S_, .f32⟩
  | 103 => ⟨S262144x128, .f32⟩
  | 104 => ⟨S262144x128, .f32⟩
  | 105 => ⟨S262144x128, .f32⟩
  | 106 => ⟨S1x128x128, .f32⟩
  | 107 => ⟨S128x128, .f32⟩
  | 108 => ⟨S262144x128, .f32⟩
  | 109 => ⟨S1x128, .f32⟩
  | 110 => ⟨S128, .f32⟩
  | 111 => ⟨S1x128, .f32⟩
  | 112 => ⟨S262144x128, .f32⟩
  | 113 => ⟨S262144x128, .f32⟩
  | 114 => ⟨S262144x128, .f32⟩
  | 115 => ⟨S262144x128, .f32⟩
  | 116 => ⟨S_, .f32⟩
  | 117 => ⟨S262144x128, .f32⟩
  | 118 => ⟨S262144x128, .f32⟩
  | 119 => ⟨S_, .f32⟩
  | 120 => ⟨S262144x128, .f32⟩
  | 121 => ⟨S262144x128, .f32⟩
  | 122 => ⟨S262144x128, .f32⟩
  | 123 => ⟨S262144x128, .f32⟩
  | 124 => ⟨S262144x128, .f32⟩
  | 125 => ⟨S1x128, .f32⟩
  | 126 => ⟨S262144x128, .f32⟩
  | 127 => ⟨S262144x128, .f32⟩
  | _ => ⟨S262144x128, .f32⟩

abbrev hbmTy0_1 (i : Nat) : BufTy := match i % 128 with
  | 0 => ⟨S262144x128, .f32⟩
  | 1 => ⟨S262144x128, .f32⟩
  | 2 => ⟨S_, .f32⟩
  | 3 => ⟨S262144x128, .f32⟩
  | 4 => ⟨S262144x128, .f32⟩
  | 5 => ⟨S_, .f32⟩
  | 6 => ⟨S262144x128, .f32⟩
  | 7 => ⟨S262144x128, .f32⟩
  | 8 => ⟨S262144x128, .f32⟩
  | 9 => ⟨S262144x128, .f32⟩
  | 10 => ⟨S1x2x128x128, .f32⟩
  | 11 => ⟨S2x128x128, .f32⟩
  | 12 => ⟨S1x2x128, .f32⟩
  | 13 => ⟨S2x128, .f32⟩
  | 14 => ⟨S1x128x128, .f32⟩
  | 15 => ⟨S128x128, .f32⟩
  | 16 => ⟨S262144x128, .f32⟩
  | 17 => ⟨S1x128, .f32⟩
  | 18 => ⟨S128, .f32⟩
  | 19 => ⟨S1x128, .f32⟩
  | 20 => ⟨S262144x128, .f32⟩
  | 21 => ⟨S262144x128, .f32⟩
  | 22 => ⟨S262144x128, .f32⟩
  | 23 => ⟨S262144x128, .f32⟩
  | 24 => ⟨S_, .f32⟩
  | 25 => ⟨S262144x128, .f32⟩
  | 26 => ⟨S262144x128, .f32⟩
  | 27 => ⟨S_, .f32⟩
  | 28 => ⟨S262144x128, .f32⟩
  | 29 => ⟨S262144x128, .f32⟩
  | 30 => ⟨S262144x128, .f32⟩
  | 31 => ⟨S1x128x128, .f32⟩
  | 32 => ⟨S128x128, .f32⟩
  | 33 => ⟨S262144x128, .f32⟩
  | 34 => ⟨S1x128, .f32⟩
  | 35 => ⟨S128, .f32⟩
  | 36 => ⟨S1x128, .f32⟩
  | 37 => ⟨S262144x128, .f32⟩
  | 38 => ⟨S262144x128, .f32⟩
  | 39 => ⟨S262144x128, .f32⟩
  | 40 => ⟨S262144x128, .f32⟩
  | 41 => ⟨S_, .f32⟩
  | 42 => ⟨S262144x128, .f32⟩
  | 43 => ⟨S262144x128, .f32⟩
  | 44 => ⟨S_, .f32⟩
  | 45 => ⟨S262144x128, .f32⟩
  | 46 => ⟨S262144x128, .f32⟩
  | 47 => ⟨S262144x128, .f32⟩
  | 48 => ⟨S262144x128, .f32⟩
  | 49 => ⟨S1x2x128x128, .f32⟩
  | 50 => ⟨S2x128x128, .f32⟩
  | 51 => ⟨S1x2x128, .f32⟩
  | 52 => ⟨S2x128, .f32⟩
  | 53 => ⟨S1x128x128, .f32⟩
  | 54 => ⟨S128x128, .f32⟩
  | 55 => ⟨S262144x128, .f32⟩
  | 56 => ⟨S1x128, .f32⟩
  | 57 => ⟨S128, .f32⟩
  | 58 => ⟨S1x128, .f32⟩
  | 59 => ⟨S262144x128, .f32⟩
  | 60 => ⟨S262144x128, .f32⟩
  | 61 => ⟨S262144x128, .f32⟩
  | 62 => ⟨S262144x128, .f32⟩
  | 63 => ⟨S_, .f32⟩
  | 64 => ⟨S262144x128, .f32⟩
  | 65 => ⟨S262144x128, .f32⟩
  | 66 => ⟨S_, .f32⟩
  | 67 => ⟨S262144x128, .f32⟩
  | 68 => ⟨S262144x128, .f32⟩
  | 69 => ⟨S262144x128, .f32⟩
  | 70 => ⟨S1x128x128, .f32⟩
  | 71 => ⟨S128x128, .f32⟩
  | 72 => ⟨S262144x128, .f32⟩
  | 73 => ⟨S1x128, .f32⟩
  | 74 => ⟨S128, .f32⟩
  | 75 => ⟨S1x128, .f32⟩
  | 76 => ⟨S262144x128, .f32⟩
  | 77 => ⟨S262144x128, .f32⟩
  | 78 => ⟨S262144x128, .f32⟩
  | 79 => ⟨S262144x128, .f32⟩
  | 80 => ⟨S_, .f32⟩
  | 81 => ⟨S262144x128, .f32⟩
  | 82 => ⟨S262144x128, .f32⟩
  | 83 => ⟨S_, .f32⟩
  | 84 => ⟨S262144x128, .f32⟩
  | 85 => ⟨S262144x128, .f32⟩
  | 86 => ⟨S262144x128, .f32⟩
  | 87 => ⟨S262144x128, .f32⟩
  | _ => ⟨S262144x128, .f32⟩

abbrev hbmTy (i : Nat) : BufTy := match i / 128 with
  | 0 => hbmTy0_0 i
  | 1 => hbmTy0_1 i
  | _ => ⟨S262144x128, .f32⟩

abbrev bufTy : (tb : Table) → Fin (tcTables nBuf tb) → BufTy
  | .hbm, ⟨i, _⟩ => hbmTy i
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v9 : Ref sig .tc := ⟨.hbm, 46, rfl⟩
abbrev main_c : Ref sig .tc := ⟨.hbm, 47, rfl⟩
abbrev main_v10 : Ref sig .tc := ⟨.hbm, 48, rfl⟩
abbrev main_v11 : Ref sig .tc := ⟨.hbm, 49, rfl⟩
abbrev main_c_0 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_cst : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_call2_v0 : Ref sig .tc := ⟨.hbm, 64, rfl⟩
abbrev main_call2_v1 : Ref sig .tc := ⟨.hbm, 65, rfl⟩
abbrev main_call2_cst : Ref sig .tc := ⟨.hbm, 66, rfl⟩
abbrev main_call2_v2 : Ref sig .tc := ⟨.hbm, 67, rfl⟩
abbrev main_call2_v3 : Ref sig .tc := ⟨.hbm, 68, rfl⟩
abbrev main_call2_cst_0 : Ref sig .tc := ⟨.hbm, 69, rfl⟩
abbrev main_call2_v4 : Ref sig .tc := ⟨.hbm, 70, rfl⟩
abbrev main_call2_v5 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_call3_v0 : Ref sig .tc := ⟨.hbm, 77, rfl⟩
abbrev main_call3_v1 : Ref sig .tc := ⟨.hbm, 78, rfl⟩
abbrev main_call3_cst : Ref sig .tc := ⟨.hbm, 79, rfl⟩
abbrev main_call3_v2 : Ref sig .tc := ⟨.hbm, 80, rfl⟩
abbrev main_call3_v3 : Ref sig .tc := ⟨.hbm, 81, rfl⟩
abbrev main_call3_cst_0 : Ref sig .tc := ⟨.hbm, 82, rfl⟩
abbrev main_call3_v4 : Ref sig .tc := ⟨.hbm, 83, rfl⟩
abbrev main_call3_v5 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_call4_v0 : Ref sig .tc := ⟨.hbm, 97, rfl⟩
abbrev main_call4_v1 : Ref sig .tc := ⟨.hbm, 98, rfl⟩
abbrev main_call4_cst : Ref sig .tc := ⟨.hbm, 99, rfl⟩
abbrev main_call4_v2 : Ref sig .tc := ⟨.hbm, 100, rfl⟩
abbrev main_call4_v3 : Ref sig .tc := ⟨.hbm, 101, rfl⟩
abbrev main_call4_cst_0 : Ref sig .tc := ⟨.hbm, 102, rfl⟩
abbrev main_call4_v4 : Ref sig .tc := ⟨.hbm, 103, rfl⟩
abbrev main_call4_v5 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_call5_v0 : Ref sig .tc := ⟨.hbm, 114, rfl⟩
abbrev main_call5_v1 : Ref sig .tc := ⟨.hbm, 115, rfl⟩
abbrev main_call5_cst : Ref sig .tc := ⟨.hbm, 116, rfl⟩
abbrev main_call5_v2 : Ref sig .tc := ⟨.hbm, 117, rfl⟩
abbrev main_call5_v3 : Ref sig .tc := ⟨.hbm, 118, rfl⟩
abbrev main_call5_cst_0 : Ref sig .tc := ⟨.hbm, 119, rfl⟩
abbrev main_call5_v4 : Ref sig .tc := ⟨.hbm, 120, rfl⟩
abbrev main_call5_v5 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_call6_v0 : Ref sig .tc := ⟨.hbm, 128, rfl⟩
abbrev main_call6_v1 : Ref sig .tc := ⟨.hbm, 129, rfl⟩
abbrev main_call6_cst : Ref sig .tc := ⟨.hbm, 130, rfl⟩
abbrev main_call6_v2 : Ref sig .tc := ⟨.hbm, 131, rfl⟩
abbrev main_call6_v3 : Ref sig .tc := ⟨.hbm, 132, rfl⟩
abbrev main_call6_cst_0 : Ref sig .tc := ⟨.hbm, 133, rfl⟩
abbrev main_call6_v4 : Ref sig .tc := ⟨.hbm, 134, rfl⟩
abbrev main_call6_v5 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_call7_v0 : Ref sig .tc := ⟨.hbm, 150, rfl⟩
abbrev main_call7_v1 : Ref sig .tc := ⟨.hbm, 151, rfl⟩
abbrev main_call7_cst : Ref sig .tc := ⟨.hbm, 152, rfl⟩
abbrev main_call7_v2 : Ref sig .tc := ⟨.hbm, 153, rfl⟩
abbrev main_call7_v3 : Ref sig .tc := ⟨.hbm, 154, rfl⟩
abbrev main_call7_cst_0 : Ref sig .tc := ⟨.hbm, 155, rfl⟩
abbrev main_call7_v4 : Ref sig .tc := ⟨.hbm, 156, rfl⟩
abbrev main_call7_v5 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_call8_v0 : Ref sig .tc := ⟨.hbm, 167, rfl⟩
abbrev main_call8_v1 : Ref sig .tc := ⟨.hbm, 168, rfl⟩
abbrev main_call8_cst : Ref sig .tc := ⟨.hbm, 169, rfl⟩
abbrev main_call8_v2 : Ref sig .tc := ⟨.hbm, 170, rfl⟩
abbrev main_call8_v3 : Ref sig .tc := ⟨.hbm, 171, rfl⟩
abbrev main_call8_cst_0 : Ref sig .tc := ⟨.hbm, 172, rfl⟩
abbrev main_call8_v4 : Ref sig .tc := ⟨.hbm, 173, rfl⟩
abbrev main_call8_v5 : Ref sig .tc := ⟨.hbm, 174, rfl⟩
abbrev main_v79 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_v83 : Ref sig .tc := ⟨.hbm, 179, rfl⟩
abbrev main_v84 : Ref sig .tc := ⟨.hbm, 180, rfl⟩
abbrev main_v85 : Ref sig .tc := ⟨.hbm, 181, rfl⟩
abbrev main_v86 : Ref sig .tc := ⟨.hbm, 182, rfl⟩
abbrev main_v87 : Ref sig .tc := ⟨.hbm, 183, rfl⟩
abbrev main_v88 : Ref sig .tc := ⟨.hbm, 184, rfl⟩
abbrev main_v89 : Ref sig .tc := ⟨.hbm, 185, rfl⟩
abbrev main_v90 : Ref sig .tc := ⟨.hbm, 186, rfl⟩
abbrev main_v91 : Ref sig .tc := ⟨.hbm, 187, rfl⟩
abbrev main_v92 : Ref sig .tc := ⟨.hbm, 188, rfl⟩
abbrev main_call9_v0 : Ref sig .tc := ⟨.hbm, 189, rfl⟩
abbrev main_call9_v1 : Ref sig .tc := ⟨.hbm, 190, rfl⟩
abbrev main_call9_cst : Ref sig .tc := ⟨.hbm, 191, rfl⟩
abbrev main_call9_v2 : Ref sig .tc := ⟨.hbm, 192, rfl⟩
abbrev main_call9_v3 : Ref sig .tc := ⟨.hbm, 193, rfl⟩
abbrev main_call9_cst_0 : Ref sig .tc := ⟨.hbm, 194, rfl⟩
abbrev main_call9_v4 : Ref sig .tc := ⟨.hbm, 195, rfl⟩
abbrev main_call9_v5 : Ref sig .tc := ⟨.hbm, 196, rfl⟩
abbrev main_v93 : Ref sig .tc := ⟨.hbm, 197, rfl⟩
abbrev main_v94 : Ref sig .tc := ⟨.hbm, 198, rfl⟩
abbrev main_v95 : Ref sig .tc := ⟨.hbm, 199, rfl⟩
abbrev main_v96 : Ref sig .tc := ⟨.hbm, 200, rfl⟩
abbrev main_v97 : Ref sig .tc := ⟨.hbm, 201, rfl⟩
abbrev main_v98 : Ref sig .tc := ⟨.hbm, 202, rfl⟩
abbrev main_v99 : Ref sig .tc := ⟨.hbm, 203, rfl⟩
abbrev main_v100 : Ref sig .tc := ⟨.hbm, 204, rfl⟩
abbrev main_v101 : Ref sig .tc := ⟨.hbm, 205, rfl⟩
abbrev main_call10_v0 : Ref sig .tc := ⟨.hbm, 206, rfl⟩
abbrev main_call10_v1 : Ref sig .tc := ⟨.hbm, 207, rfl⟩
abbrev main_call10_cst : Ref sig .tc := ⟨.hbm, 208, rfl⟩
abbrev main_call10_v2 : Ref sig .tc := ⟨.hbm, 209, rfl⟩
abbrev main_call10_v3 : Ref sig .tc := ⟨.hbm, 210, rfl⟩
abbrev main_call10_cst_0 : Ref sig .tc := ⟨.hbm, 211, rfl⟩
abbrev main_call10_v4 : Ref sig .tc := ⟨.hbm, 212, rfl⟩
abbrev main_call10_v5 : Ref sig .tc := ⟨.hbm, 213, rfl⟩
abbrev main_v102 : Ref sig .tc := ⟨.hbm, 214, rfl⟩
abbrev main_v103 : Ref sig .tc := ⟨.hbm, 215, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S_S262144x64 : S_.BroadcastsInDim S262144x64 (![] : Fin 0 → Fin S262144x64.rank)
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S1x2x128x128_S2x128x128 : S1x2x128x128.ShapeCasts S2x128x128
  shapeCasts_S1x2x128_S2x128 : S1x2x128.ShapeCasts S2x128
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  slices_S2x2x128x128_S1x2x128x128_0_0_0_0 : S2x2x128x128.Slices ![0, 0, 0, 0] S1x2x128x128
  slices_S2x2x128_S1x2x128_0_0_0 : S2x2x128.Slices ![0, 0, 0] S1x2x128
  slices_S2x2x128x128_S1x2x128x128_1_0_0_0 : S2x2x128x128.Slices ![1, 0, 0, 0] S1x2x128x128
  slices_S2x2x128_S1x2x128_1_0_0 : S2x2x128.Slices ![1, 0, 0] S1x2x128
  dot_S262144x128_S128x128_S262144x128_1_0_0_1_n_n_wf : DotDims.WF S262144x128 S128x128 S262144x128 [1] [0] [0] [1] [] []
  dot_S262144x6_S6x8_S262144x8_1_0_0_1_n_n_wf : DotDims.WF S262144x6 S6x8 S262144x8 [1] [0] [0] [1] [] []
  dot_S262144x8_S8x128_S262144x128_1_0_0_1_n_n_wf : DotDims.WF S262144x8 S8x128 S262144x128 [1] [0] [0] [1] [] []
  dot_S262144x128_S128x64_S262144x64_1_0_0_1_n_n_wf : DotDims.WF S262144x128 S128x64 S262144x64 [1] [0] [0] [1] [] []
  gather_S262144x64_S2097152x1_S2097152x64_1_0_n_n_0_1_164_wf : GatherDims.WF S262144x64 S2097152x1 S2097152x64 [1] [0] [] [0] [] 1 ![1, 64]
  dot_S2097152x42_S42x8_S2097152x8_1_0_0_1_n_n_wf : DotDims.WF S2097152x42 S42x8 S2097152x8 [1] [0] [0] [1] [] []
  dot_S2097152x8_S8x64_S2097152x64_1_0_0_1_n_n_wf : DotDims.WF S2097152x8 S8x64 S2097152x64 [1] [0] [0] [1] [] []
  scatter_S262144x64_S2097152x1_S2097152x64_1_0_0_1_wf : ScatterDims.WF S262144x64 S2097152x1 S2097152x64 [1] [0] [0] 1
  dot_S262144x64_S64x128_S262144x128_1_0_0_1_n_n_wf : DotDims.WF S262144x64 S64x128 S262144x128 [1] [0] [0] [1] [] []

variable [Facts₀]

def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x6_S6x8_S262144x8_1_0_0_1_n_n : DotDims S262144x6 S6x8 S262144x8 where
  lhsContracting := [1]
  rhsContracting := [0]
  lhsNonContracting := [0]
  rhsNonContracting := [1]
  lhsBatch := []
  rhsBatch := []
  wf := dot_S262144x6_S6x8_S262144x8_1_0_0_1_n_n_wf
def dot_S262144x8_S8x128_S262144x128_1_0_0_1_n_n : DotDims S262144x8 S8x128 S262144x128 where
  lhsContracting := [1]
  rhsContracting := [0]
  lhsNonContracting := [0]
  rhsNonContracting := [1]
  lhsBatch := []
  rhsBatch := []
  wf := dot_S262144x8_S8x128_S262144x128_1_0_0_1_n_n_wf
def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf
def gather_S262144x64_S2097152x1_S2097152x64_1_0_n_n_0_1_164 : GatherDims S262144x64 S2097152x1 S2097152x64 where
  offsetDims := [1]
  collapsedSliceDims := [0]
  operandBatchingDims := []
  startIndicesBatchingDims := []
  startIndexMap := [0]
  indexVectorDim := 1
  sliceSizes := ![1, 64]
  wf := gather_S262144x64_S2097152x1_S2097152x64_1_0_n_n_0_1_164_wf
def dot_S2097152x42_S42x8_S2097152x8_1_0_0_1_n_n : DotDims S2097152x42 S42x8 S2097152x8 where
  lhsContracting := [1]
  rhsContracting := [0]
  lhsNonContracting := [0]
  rhsNonContracting := [1]
  lhsBatch := []
  rhsBatch := []
  wf := dot_S2097152x42_S42x8_S2097152x8_1_0_0_1_n_n_wf
def dot_S2097152x8_S8x64_S2097152x64_1_0_0_1_n_n : DotDims S2097152x8 S8x64 S2097152x64 where
  lhsContracting := [1]
  rhsContracting := [0]
  lhsNonContracting := [0]
  rhsNonContracting := [1]
  lhsBatch := []
  rhsBatch := []
  wf := dot_S2097152x8_S8x64_S2097152x64_1_0_0_1_n_n_wf
def scatter_S262144x64_S2097152x1_S2097152x64_1_0_0_1 : ScatterDims S262144x64 S2097152x1 S2097152x64 where
  updateWindowDims := [1]
  insertedWindowDims := [0]
  scatterDimsToOperandDims := [0]
  indexVectorDim := 1
  wf := scatter_S262144x64_S2097152x1_S2097152x64_1_0_0_1_wf
def dot_S262144x64_S64x128_S262144x128_1_0_0_1_n_n : DotDims S262144x64 S64x128 S262144x128 where
  lhsContracting := [1]
  rhsContracting := [0]
  lhsNonContracting := [0]
  rhsNonContracting := [1]
  lhsBatch := []
  rhsBatch := []
  wf := dot_S262144x64_S64x128_S262144x128_1_0_0_1_n_n_wf

class Facts : Prop extends Facts₀ where

variable [Facts]
-- ==== Proof.LibPlainDot.lean ====
/-
  A plain matrix product read at an element, on the extended reals.

  For the dimension numbers of a plain product — `[M, K]` by `[K, N]`, the left operand's axis 1 contracted with the
  right operand's axis 0, no batch axes — the operand indices at output element `(a, b)` and contraction coordinate
  `k` are `(a, k)` and `(k, b)`. So a product accumulated into the zero splat is, at `(a, b)`, the plain sum
  `∑ k : Fin K, lhs (a, k) * rhs (k, b)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a plain product `[M, K] × [K, N] → [M, N]`: `lhs_contracting = [1]`,
    `rhs_contracting = [0]`, the other axes the result's, no batch axes. At a printed record every field is `rfl`. -/
structure PlainDot {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {d : DotDims ⟨2, ![M, K]⟩ ⟨2, ![K, N]⟩ ⟨2, ![M, N]⟩}

/-- A plain product contracts one axis. -/
theorem PlainDot.rank_contr (hd : PlainDot d) : d.contr.rank = 1 := by
  rw [d.rank_contr, hd.lc]; rfl

/-- The contracted axis has extent `K`. -/
theorem PlainDot.size_contr (hd : PlainDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem PlainDot.lhs0 (hd : PlainDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem PlainDot.lhs1 (hd : PlainDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the contraction coordinate. -/
theorem PlainDot.rhs0 (hd : PlainDot d) (i : (⟨2, ![M, N]⟩ : Shape).Idx) (q : d.contr.Idx) :
    (d.rhsIdx i q 0).val = (q ⟨0, by rw [hd.rank_contr]; exact Nat.one_pos⟩).val :=
  d.rhsIdx_val_of_single hd.rc i q

/-- The right operand's column is the output's column. -/
theorem PlainDot.rhs1 (hd : PlainDot d) (i : (⟨2, ![M, N]⟩ : Shape).Idx) (q : d.contr.Idx) :
    (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The contraction of a plain product, re-indexed by the contracted coordinate: at output element `(a, b)` it is
    `∑ k : Fin K, lhs (a, k) * rhs (k, b)`. -/
theorem PlainDot.sum_contr (hd : PlainDot d) (lhs : (⟨2, ![M, K]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 k b) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 k b :=
    funext fun x => Fin.ext (by
      match x with
      | ⟨0, _⟩ => exact (hd.rhs0 _ _).trans hk
      | ⟨1, _⟩ => exact hd.rhs1 _ _)
  rw [el, er]

/-- A plain product accumulated into the zero splat, at element `(a, b)`: `∑ k, lhs (a, k) * rhs (k, b)`. -/
theorem PlainDot.matmul_zero_apply (hd : PlainDot d) {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 a k) * rhs (ix2 k b) :=
  (Ideal.matmul_constant_zero_apply d prec lhs rhs (ix2 a b)).trans (hd.sum_contr lhs rhs a b)

/-- The host's plain `dot_general` at element `(a, b)`: the same sum. -/
theorem PlainDot.dotGeneral_apply (hd : PlainDot d) {φ₁ φ₂ : FTy} (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) :=
  (Ideal.dotGeneral_apply d prec sched lhs rhs (ix2 a b)).trans (hd.sum_contr lhs rhs a b)

end Cert.Lib

end
-- ==== Proof.MatAssoc.lean ====
/-
  Reassociating a product of three matrices on the extended reals.

  `(X · W₁) · W₂ = X · (W₁ · W₂)` needs the product to distribute over the inner sum, which fails at infinities; for
  matrices whose entries are all real numbers both sides are the double sum `∑ j k, X (a, j) · W₁ (j, k) · W₂ (k, b)`.
-/
import proofs.«400527_j63531156242866_3_alg».proof.Proof.LibPlainDot
import Idealize.ShloMosaic.Lib.ValueIdx
import Idealize.ShloMosaic.PureOps.Ideal.Laws

noncomputable section

open scoped BigOperators

namespace Cert.Rows

open Idealize.ShloMosaic Idealize.ShloMosaic.ValueIdx Cert.Lib

/-- Every entry is a real number. -/
def IsRealMat {s : Shape} (x : s.Idx → EReal) : Prop := ∀ i, ∃ r : ℝ, x i = (r : EReal)

variable {M J K N : Nat}

/-- The coercion of the reals into the extended reals carries finite sums to finite sums. -/
private theorem coe_finsum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- For real matrices the host's product of `X` with `W₁ · W₂` is its product of `X · W₁` with `W₂`. -/
theorem dot_assoc {d1 : DotDims ⟨2, ![M, J]⟩ ⟨2, ![J, K]⟩ ⟨2, ![M, K]⟩} {d2 : DotDims ⟨2, ![M, K]⟩ ⟨2, ![K, N]⟩ ⟨2, ![M, N]⟩}
    {d3 : DotDims ⟨2, ![J, K]⟩ ⟨2, ![K, N]⟩ ⟨2, ![J, N]⟩} {d4 : DotDims ⟨2, ![M, J]⟩ ⟨2, ![J, N]⟩ ⟨2, ![M, N]⟩}
    (h1 : PlainDot d1) (h2 : PlainDot d2) (h3 : PlainDot d3) (h4 : PlainDot d4)
    {φ₁ φ₂ φ₃ φ₄ φ₅ φ₆ φ₇ φ₈ : FTy} (p1 p2 p3 p4 : Option ContractPrecision) (s1 s2 s3 s4 : HostSchedule)
    (X : (⟨2, ![M, J]⟩ : Shape).Idx → EReal) (W1 : (⟨2, ![J, K]⟩ : Shape).Idx → EReal) (W2 : (⟨2, ![K, N]⟩ : Shape).Idx → EReal)
    (hX : IsRealMat X) (hW1 : IsRealMat W1) (hW2 : IsRealMat W2) :
    FloatOps.dotGeneral (F := Ideal) (φ₁ := φ₁) (φ₂ := φ₂) d4 p4 s4 X (FloatOps.dotGeneral (F := Ideal) (φ₁ := φ₃) (φ₂ := φ₄) d3 p3 s3 W1 W2)
      = FloatOps.dotGeneral (F := Ideal) (φ₁ := φ₅) (φ₂ := φ₆) d2 p2 s2 (FloatOps.dotGeneral (F := Ideal) (φ₁ := φ₇) (φ₂ := φ₈) d1 p1 s1 X W1) W2 := by
  funext j
  obtain ⟨a, b, rfl⟩ : ∃ a b, j = ix2 a b := ⟨j 0, j 1, eq_ix2 j⟩
  choose x hx using hX
  choose w1 hw1 using hW1
  choose w2 hw2 using hW2
  -- the outer products at (a, b), then the inner ones under the sums
  rw [h4.dotGeneral_apply p4 s4 X _ a b, h2.dotGeneral_apply p2 s2 _ W2 a b]
  have eL : ∀ k : Fin J, FloatOps.dotGeneral (F := Ideal) (φ₁ := φ₃) (φ₂ := φ₄) d3 p3 s3 W1 W2 (ix2 k b)
      = ∑ l : Fin K, W1 (ix2 k l) * W2 (ix2 l b) := fun k => h3.dotGeneral_apply p3 s3 W1 W2 k b
  have eR : ∀ l : Fin K, FloatOps.dotGeneral (F := Ideal) (φ₁ := φ₇) (φ₂ := φ₈) d1 p1 s1 X W1 (ix2 a l)
      = ∑ k : Fin J, X (ix2 a k) * W1 (ix2 k l) := fun l => h1.dotGeneral_apply p1 s1 X W1 a l
  simp only [eL, eR, hx, hw1, hw2]
  -- every entry is the coercion of a real: both sides are coercions of real double sums
  simp only [← EReal.coe_mul, ← coe_finsum]
  congr 1
  -- in the reals: distribute, exchange the two sums, reassociate each term
  simp only [Finset.mul_sum, Finset.sum_mul]
  rw [Finset.sum_comm]
  refine Finset.sum_congr rfl fun l _ => Finset.sum_congr rfl fun k _ => ?_
  ring

end Cert.Rows

end
-- ==== Proof.PreFacts.lean ====
/-
  What the precondition says, read back from its printed form.

  The precondition is one conjunction: the absolute value of every entry of every float argument is below +∞, and every
  entry of the gather's index argument (argument 4) lies in `[0, 262144)`, the rows of the table it indexes. Read back:
  the six arguments whose products are reassociated hold real numbers only, and argument 4 is a valid row number
  everywhere.
-/
import proofs.«400527_j63531156242866_3_alg».proof.Pre_finite_inputs
import proofs.«400527_j63531156242866_3_alg».proof.Proof.Gen.Pre_finite_inputs
import proofs.«400527_j63531156242866_3_alg».proof.Proof.MatAssoc
import Idealize.ShloMosaic.Lib.ReduceAll
import Idealize.ShloMosaic.Lib.StableHlo.Predicate
import Idealize.ShloMosaic.PureOps.Ideal

noncomputable section

namespace Cert.PreFacts

open Idealize.ShloMosaic Cert.Pre_finite_inputs

/-- Every entry is a real number. -/
abbrev IsReal {s : Shape} (x : s.Idx → EReal) : Prop := Cert.Rows.IsRealMat x

/-- Every entry is a row number of a table of 262144 rows. -/
def InRange (x : IVec S2097152 32) : Prop := ∀ i, 0 ≤ (x i).toInt ∧ (x i).toInt < 262144

/-- The shape of a scalar has one index. -/
private instance subsingleton_scalar_idx : Subsingleton (⟨0, ![]⟩ : Shape).Idx := ⟨fun a b => funext fun d => d.elim0⟩

/-- The word of +∞. -/
private theorem ofBits_inf : Ideal.ofBits .f32 0x7F800000#32 = ⊤ := by simp [Ideal.ofBits, Ideal.ieee]

/-- A conjunction of two scalars is one exactly when both are. -/
private theorem and_scalar (a b : IVec (⟨0, ![]⟩ : Shape) 1) :
    andi a b ValueIdx.ix0 = 1#1 ↔ a ValueIdx.ix0 = 1#1 ∧ b ValueIdx.ix0 = 1#1 := IntOp.andi_eq_one

/-- `all (|x| < +∞)` equal to one: every entry of `x` is a real number. -/
private theorem real_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ValueIdx.ix0 = 1#1) : IsReal x := by
  intro i
  have hi := Host.reduce_andi_all _ _ hr hu ValueIdx.ix0 e i
  -- at entry i the comparison is max (x i) (-(x i)) < +∞
  have hlt : max (x i : EReal) (-(x i : EReal)) < ⊤ := by
    change Ideal.cmp .olt (max (x i : EReal) (-(x i : EReal))) (Ideal.ofBits .f32 0x7F800000#32) = 1#1 at hi
    rw [ofBits_inf] at hi
    exact of_decide_eq_true ((StableHlo.Predicate.ofBool_eq_one_iff _).1 hi)
  obtain ⟨h1, h2⟩ := max_lt_iff.1 hlt
  have ht : (x i : EReal) ≠ ⊤ := ne_of_lt h1
  have hbot : (x i : EReal) ≠ ⊥ := by
    intro hh
    rw [hh, EReal.neg_bot] at h2
    exact lt_irrefl _ h2
  exact ⟨(x i : EReal).toReal, (EReal.coe_toReal ht hbot).symm⟩

/-- `all (0 ≤ x ∧ x < 262144)` (signed) equal to one: every entry of `x` is a row number. -/
private theorem range_of_all {n : Nat} (x : IVec ⟨1, ![n]⟩ 32)
    (hb : (⟨0, ![]⟩ : Shape).BroadcastsInDim ⟨1, ![n]⟩ ![]) (hr : (⟨1, ![n]⟩ : Shape).ReducesTo [0] ⟨0, ![]⟩) (hu : 0 < (⟨0, ![]⟩ : Shape).numel)
    (e : Host.reduce IntOp.andi (andi (cmpi .sge x (broadcastInDim ⟨1, ![n]⟩ ![] hb (constantI ⟨0, ![]⟩ 32 0#32)))
        (cmpi .slt x (broadcastInDim ⟨1, ![n]⟩ ![] hb (constantI ⟨0, ![]⟩ 32 262144#32))))
      (constantI ⟨0, ![]⟩ 1 1#1) hr hu ValueIdx.ix0 = 1#1) (i : (⟨1, ![n]⟩ : Shape).Idx) :
    0 ≤ (x i).toInt ∧ (x i).toInt < 262144 := by
  have hi := Host.reduce_andi_all _ _ hr hu ValueIdx.ix0 e i
  change IntOp.andi (IntOp.cmpi .sge (x i) 0#32) (IntOp.cmpi .slt (x i) 262144#32) = 1#1 at hi
  obtain ⟨h0, h1⟩ := IntOp.andi_eq_one.1 hi
  have e0 : (0#32 : BitVec 32).toInt = 0 := by decide
  have e1 : (262144#32 : BitVec 32).toInt = 262144 := by decide
  have g0 := IntOp.cmpi_sge.1 h0
  have g1 := IntOp.cmpi_slt.1 h1
  rw [e0] at g0
  rw [e1] at g1
  exact ⟨g0, g1⟩

/-- The precondition, all ones, gives: arguments 1, 2, 7, 8, 9 and 10 are real matrices and argument 4 is in range. -/
theorem of_pre [Cert.Pre_finite_inputs.Facts] (x0 : FVec Ideal S262144x128 .f32) (x1 : FVec Ideal S262144x6 .f32) (x2 : FVec Ideal S2097152x42 .f32) (x3 : IVec S2097152 32) (x4 : IVec S2097152 32) (x5 : FVec Ideal S128x128 .f32) (x6 : FVec Ideal S128 .f32) (x7 : FVec Ideal S6x8 .f32) (x8 : FVec Ideal S8x128 .f32) (x9 : FVec Ideal S42x8 .f32) (x10 : FVec Ideal S8x64 .f32) (x11 : FVec Ideal S128x64 .f32) (x12 : FVec Ideal S64x128 .f32) (x13 : FVec Ideal S128x128 .f32) (x14 : FVec Ideal S128 .f32) (x15 : FVec Ideal S1x2x128x128 .f32) (x16 : FVec Ideal S1x2x128 .f32) (x17 : FVec Ideal S128x128 .f32) (x18 : FVec Ideal S128 .f32) (x19 : FVec Ideal S2x2x128x128 .f32) (x20 : FVec Ideal S2x2x128 .f32)
    (h : Cert.Pre_finite_inputs.fn (F := Ideal) x0 x1 x2 x3 x4 x5 x6 x7 x8 x9 x10 x11 x12 x13 x14 x15 x16 x17 x18 x19 x20 = fun _ => 1#1) :
    IsReal x1 ∧ IsReal x2 ∧ IsReal x7 ∧ IsReal x8 ∧ IsReal x9 ∧ IsReal x10 ∧ InRange x4 := by
  have h0 := congrFun h ValueIdx.ix0
  -- the printed chain is one left-nested conjunction of twenty scalars
  simp only [fn, fn_part1, fn_part2, fn_part3, fn_part4, fn_part5, and_scalar] at h0
  obtain ⟨⟨⟨⟨⟨⟨⟨⟨⟨⟨⟨⟨⟨⟨⟨⟨⟨⟨⟨-, h1⟩, h2⟩, -⟩, -⟩, h7⟩, h8⟩, h9⟩, h10⟩, -⟩, -⟩, -⟩, -⟩, -⟩, -⟩, -⟩, -⟩, -⟩, -⟩, h4⟩ := h0
  exact ⟨real_of_all x1 _ _ _ h1, real_of_all x2 _ _ _ h2, real_of_all x7 _ _ _ h7, real_of_all x8 _ _ _ h8,
    real_of_all x9 _ _ _ h9, real_of_all x10 _ _ _ h10, fun i => range_of_all x4 _ _ _ h4 i⟩

end Cert.PreFacts

end
-- ==== Proof.RowOps.lean ====
/-
  Rows of a matrix selected by a map of row numbers, and the operations of a row-wise program on them.

  A kernel that tiles a two-dimensional array by blocks of rows sees, at one grid point, the rows `sub a` of the
  whole array (`a` the row inside the block). Every operation such a body applies — a product with a fixed
  right factor, a row vector added to every row, an entrywise function — acts on each row by itself, so applying it
  to the selected rows is selecting the rows of the same operation applied to the whole array. These are those
  facts on the extended reals, for any numbers of rows.
-/
import proofs.«400527_j63531156242866_3_alg».proof.Proof.LibPlainDot
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

open scoped BigOperators

namespace Cert.Rows

open Idealize.ShloMosaic Idealize.ShloMosaic.ValueIdx Cert.Lib

variable {M M' K N : Nat}

/-- The rows `sub a` of `X`, `a` ranging over `Fin M'`. -/
def rowsel (sub : Fin M' → Fin M) (X : (⟨2, ![M, K]⟩ : Shape).Idx → EReal) : (⟨2, ![M', K]⟩ : Shape).Idx → EReal :=
  fun y => X (ix2 (sub (y 0)) (y 1))

theorem rowsel_apply (sub : Fin M' → Fin M) (X : (⟨2, ![M, K]⟩ : Shape).Idx → EReal) (a : Fin M') (k : Fin K) :
    rowsel sub X (ix2 a k) = X (ix2 (sub a) k) := rfl

/-- A product of selected rows with a fixed right factor, accumulated into the zero splat, is the selected rows of the
    host's product of the whole left factor. -/
theorem matmul_rowsel {dK : DotDims ⟨2, ![M', K]⟩ ⟨2, ![K, N]⟩ ⟨2, ![M', N]⟩} {dR : DotDims ⟨2, ![M, K]⟩ ⟨2, ![K, N]⟩ ⟨2, ![M, N]⟩}
    (hK : PlainDot dK) (hR : PlainDot dR) {φ₁ φ₂ φ₃ φ₄ : FTy} (pK pR : Option ContractPrecision) (sched : HostSchedule)
    (sub : Fin M' → Fin M) (X : (⟨2, ![M, K]⟩ : Shape).Idx → EReal) (W : (⟨2, ![K, N]⟩ : Shape).Idx → EReal) :
    FloatOps.matmul (F := Ideal) (φ₁ := φ₁) (φ₂ := φ₂) dK pK (rowsel sub X) W (constant ⟨2, ![M', N]⟩ .f32 0x00000000#32)
      = rowsel sub (FloatOps.dotGeneral (F := Ideal) (φ₁ := φ₃) (φ₂ := φ₄) dR pR sched X W) := by
  funext j
  obtain ⟨a, b, rfl⟩ : ∃ a b, j = ix2 a b := ⟨j 0, j 1, eq_ix2 j⟩
  -- both sides at (a, b) are the sum over k of X (sub a, k) * W (k, b)
  rw [hK.matmul_zero_apply pK (rowsel sub X) W a b, rowsel_apply, hR.dotGeneral_apply pR sched X W (sub a) b]
  rfl

/-- A change of float format is the identity on the extended reals. -/
theorem truncf_eq {s : Shape} {φ ψ : FTy} (x : FVec Ideal s φ) (h : ψ.bits < φ.bits) :
    truncf ψ x h = (x : s.Idx → EReal) := rfl

/-- A row vector `[N]` cast to `[1, N]` and broadcast over `M'` rows is the selected rows of the host's broadcast of it
    over `M` rows. -/
theorem bias_rowsel (sub : Fin M' → Fin M) (b : (⟨1, ![N]⟩ : Shape).Idx → EReal)
    (hc : (⟨1, ![N]⟩ : Shape).ShapeCasts ⟨2, ![1, N]⟩) (hb : (⟨2, ![1, N]⟩ : Shape).Broadcasts ⟨2, ![M', N]⟩)
    (h1 : (⟨1, ![N]⟩ : Shape).BroadcastsInDim ⟨2, ![1, N]⟩ ![1]) (h2 : (⟨2, ![1, N]⟩ : Shape).BroadcastsInDim ⟨2, ![M, N]⟩ ![0, 1]) :
    broadcastTo ⟨2, ![M', N]⟩ (shapeCast ⟨2, ![1, N]⟩ b hc) hb
      = rowsel sub (broadcastInDim ⟨2, ![M, N]⟩ ![0, 1] h2 (broadcastInDim ⟨2, ![1, N]⟩ ![1] h1 b)) := by
  funext j
  obtain ⟨a, c, rfl⟩ : ∃ a c, j = ix2 a c := ⟨j 0, j 1, eq_ix2 j⟩
  -- the column coordinate survives a broadcast whether or not the width is one
  have hcol : c.val = if N = 1 then 0 else c.val := by
    split
    · have := c.isLt; omega
    · rfl
  -- the left side at (a, c) is b at c
  rw [broadcastTo_1b_ab_apply, shapeCast_a_1a_apply, rowsel_apply]
  -- the outer host broadcast reads the one row at column c
  have e2 : broadcastInDim ⟨2, ![M, N]⟩ ![0, 1] h2 (broadcastInDim ⟨2, ![1, N]⟩ ![1] h1 b) (ix2 (sub a) c)
      = broadcastInDim ⟨2, ![1, N]⟩ ![1] h1 b (ix2 (0 : Fin 1) c) :=
    broadcastInDim_apply ![0, 1] h2 _ (ix2 (sub a) c) (ix2 (0 : Fin 1) c) (fun ax => by
      match ax with
      | ⟨0, _⟩ => rfl
      | ⟨1, _⟩ => exact hcol)
  -- the inner host broadcast reads the vector at c
  have e1 : broadcastInDim ⟨2, ![1, N]⟩ ![1] h1 b (ix2 (0 : Fin 1) c) = b (ix1 c) :=
    broadcastInDim_apply ![1] h1 b (ix2 (0 : Fin 1) c) (ix1 c) (fun ax => by
      match ax with
      | ⟨0, _⟩ => exact hcol)
  rw [e2, e1]

/-- The logistic function of selected rows is the selected rows of the host's `1 / (1 + exp (-x))`, written with
    the constant one as the host writes it (the splat of the word of `1.0`). -/
theorem logistic_rowsel (sub : Fin M' → Fin M) (X : (⟨2, ![M, K]⟩ : Shape).Idx → EReal)
    (h : (⟨0, ![]⟩ : Shape).BroadcastsInDim ⟨2, ![M, K]⟩ ![]) (h' : (⟨0, ![]⟩ : Shape).BroadcastsInDim ⟨2, ![M, K]⟩ ![]) :
    logistic (F := Ideal) (φ := .f32) (rowsel sub X)
      = rowsel sub (Host.divf (F := Ideal) (φ := .f32) (broadcastInDim ⟨2, ![M, K]⟩ ![] h' (constant (F := Ideal) ⟨0, ![]⟩ .f32 0x3F800000#32))
          (addf (F := Ideal) (φ := .f32) (broadcastInDim ⟨2, ![M, K]⟩ ![] h (constant (F := Ideal) ⟨0, ![]⟩ .f32 0x3F800000#32))
            (Host.exp (F := Ideal) (φ := .f32) (Host.negf (F := Ideal) (φ := .f32) X)))) := by
  funext j
  obtain ⟨a, c, rfl⟩ : ∃ a c, j = ix2 a c := ⟨j 0, j 1, eq_ix2 j⟩
  rw [rowsel_apply]
  -- both sides are entrywise: at (a, c) they are functions of X (sub a, c) alone
  show Ideal.logistic (X (ix2 (sub a) c))
      = Ideal.div (broadcastInDim ⟨2, ![M, K]⟩ ![] h' (constant (F := Ideal) ⟨0, ![]⟩ .f32 0x3F800000#32) (ix2 (sub a) c))
          (broadcastInDim ⟨2, ![M, K]⟩ ![] h (constant (F := Ideal) ⟨0, ![]⟩ .f32 0x3F800000#32) (ix2 (sub a) c)
            + Ideal.exp (-(X (ix2 (sub a) c))))
  -- the broadcast scalar is the word of 1.0, the extended real 1; the logistic function is 1 / (1 + exp (-x)) by definition
  rw [broadcastInDim_scalar_apply, constant_apply, Ideal.ofBits_one_f32]
  rfl

/-- Entrywise products and sums act row by row. -/
theorem mulf_rowsel (sub : Fin M' → Fin M) (X Y : (⟨2, ![M, K]⟩ : Shape).Idx → EReal) :
    mulf (F := Ideal) (φ := .f32) (rowsel sub X) (rowsel sub Y) = rowsel sub (mulf (F := Ideal) (φ := .f32) X Y) := rfl

theorem addf_rowsel (sub : Fin M' → Fin M) (X Y : (⟨2, ![M, K]⟩ : Shape).Idx → EReal) :
    addf (F := Ideal) (φ := .f32) (rowsel sub X) (rowsel sub Y) = rowsel sub (addf (F := Ideal) (φ := .f32) X Y) := rfl

end Cert.Rows

end
-- ==== Proof.Entry.lean ====
/-
  What each region of the kernel's program finds in the buffers it reads.

  The program's buffers are followed through its segments: the host operations before the first region (the two
  folded weight products), the first two regions (each rewrites only its own output array), the host operations
  between (the gather, the entrywise product, the scatter-add, four reshapes), the last region. An argument array
  is never written, so it holds its launch contents at every boundary; a host operation's result holds the
  operation's function of its operands' contents.
-/
import proofs.«400527_j63531156242866_3_alg».proof.Proof.Gen.KernelIdeal.Frame
import proofs.«400527_j63531156242866_3_alg».proof.Proof.RefRead
import proofs.«400527_j63531156242866_3_alg».proof.Proof.RowOps
import Idealize.ShloMosaic.Lib.StableHlo.Run

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat Cfg Window)
open Cert.Rows Cert.Lib

variable (m : (ℓ : Loc nD τ sig) → Buf (Elt Ideal) ℓ) (ρ : Dev nD → PrngReg)

/-! ## What a stretch of host operations writes, and what it therefore keeps -/

/-- The results of the operations before the first region. -/
private abbrev res0 : List (Ref sig .tc) := [main_v0, main_v1]
/-- The results of the gather's operations. -/
private abbrev res2 : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v4]
/-- The results of the product, the scatter-add and the four reshapes. -/
private abbrev res2_1 : List (Ref sig .tc) := [main_v5, main_cst, main_v6, main_v7, main_v8, main_v9, main_v10, main_v11, main_v12]

private theorem writes0 : (hostOps0 : List (HloOp τ sig (Elt Ideal))).Forall fun op => op.writes ⊆ (res0.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
private theorem writes2 : (hostOps2 : List (HloOp τ sig (Elt Ideal))).Forall fun op => op.writes ⊆ (res2.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
private theorem writes2_1 : (hostOps2_1 : List (HloOp τ sig (Elt Ideal))).Forall fun op => op.writes ⊆ (res2_1.map (Proc.devRef (τ := τ) .tc)).toFinset := by
  simp only [hostOps2_1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

/-- A buffer that is no result before the first region holds its launch contents there. -/
private theorem w1_keep (c : Dev nD) (b : Ref sig .tc) (h0 : b ∉ res0) :
    W1 m ρ c (Proc.devRef .tc b) = m ((c.tc : Thread nD τ).loc b) :=
  StableHlo.after_of_writes_sub hostOps0 _ writes0 h0
/-- … and, being no array of region 0 either, after region 0. -/
private theorem w2_keep (c : Dev nD) (b : Ref sig .tc) (h0 : b ∉ res0) (hr0 : ∀ w, Pipeline.arrRef spec0 w ≠ b) :
    W2 m ρ c (Proc.devRef .tc b) = m ((c.tc : Thread nD τ).loc b) :=
  (W2_of_ne m ρ c b hr0).trans (w1_keep m ρ c b h0)
/-- … and, being no array of region 1 either, after region 1. -/
private theorem w3_keep (c : Dev nD) (b : Ref sig .tc) (h0 : b ∉ res0) (hr0 : ∀ w, Pipeline.arrRef spec0 w ≠ b)
    (hr1 : ∀ w, Pipeline.arrRef spec1 w ≠ b) :
    W3 m ρ c (Proc.devRef .tc b) = m ((c.tc : Thread nD τ).loc b) :=
  (W3_of_ne m ρ c b hr1).trans (w2_keep m ρ c b h0 hr0)
/-- … and, being no result of the gather, after it. -/
private theorem w4_keep (c : Dev nD) (b : Ref sig .tc) (h0 : b ∉ res0) (hr0 : ∀ w, Pipeline.arrRef spec0 w ≠ b)
    (hr1 : ∀ w, Pipeline.arrRef spec1 w ≠ b) (h2 : b ∉ res2) :
    W4 m ρ c (Proc.devRef .tc b) = m ((c.tc : Thread nD τ).loc b) :=
  (StableHlo.after_of_writes_sub hostOps2 _ writes2 h2).trans (w3_keep m ρ c b h0 hr0 hr1)
/-- … and, being no result of the operations before the last region, at its entry. -/
private theorem w5_keep (c : Dev nD) (b : Ref sig .tc) (h0 : b ∉ res0) (hr0 : ∀ w, Pipeline.arrRef spec0 w ≠ b)
    (hr1 : ∀ w, Pipeline.arrRef spec1 w ≠ b) (h2 : b ∉ res2) (h21 : b ∉ res2_1) :
    W5 m ρ c (Proc.devRef .tc b) = m ((c.tc : Thread nD τ).loc b) :=
  (StableHlo.after_of_writes_sub hostOps2_1 _ writes2_1 h21).trans (w4_keep m ρ c b h0 hr0 hr1 h2)

/-! ## What the host operations compute, over any contents of their operands -/

private theorem host0_v0 (V : Valuation τ sig (Elt Ideal)) :
    StableHlo.after hostOps0 V (Proc.devRef .tc main_v0)
      = Host.dotGeneral (F := Ideal) (φ₁ := .f32) (φ₂ := .f32) dot_S6x8_S8x128_S6x128_1_0_0_1_n_n none (V (Proc.devRef .tc main_arg7)) (V (Proc.devRef .tc main_arg8)) := by
  after_results
private theorem host0_v1 (V : Valuation τ sig (Elt Ideal)) :
    StableHlo.after hostOps0 V (Proc.devRef .tc main_v1)
      = Host.dotGeneral (F := Ideal) (φ₁ := .f32) (φ₂ := .f32) dot_S42x8_S8x64_S42x64_1_0_0_1_n_n none (V (Proc.devRef .tc main_arg9)) (V (Proc.devRef .tc main_arg10)) := by
  after_results
private theorem host2_1_v9 (V : Valuation τ sig (Elt Ideal)) :
    StableHlo.after hostOps2_1 V (Proc.devRef .tc main_v9)
      = Cert.ReferenceIdeal.Stages.val_main_v31 (F := Ideal) (V (Proc.devRef .tc main_arg15)) := by
  after_results; rfl
private theorem host2_1_v10 (V : Valuation τ sig (Elt Ideal)) :
    StableHlo.after hostOps2_1 V (Proc.devRef .tc main_v10)
      = Cert.ReferenceIdeal.Stages.val_main_v32 (F := Ideal) (V (Proc.devRef .tc main_arg16)) := by
  after_results; rfl
private theorem host2_1_v11 (V : Valuation τ sig (Elt Ideal)) :
    StableHlo.after hostOps2_1 V (Proc.devRef .tc main_v11)
      = shapeCast S4x128x128 (V (Proc.devRef .tc main_arg19)) shapeCasts_S2x2x128x128_S4x128x128 := by
  after_results; rfl
private theorem host2_1_v12 (V : Valuation τ sig (Elt Ideal)) :
    StableHlo.after hostOps2_1 V (Proc.devRef .tc main_v12)
      = shapeCast S4x128 (V (Proc.devRef .tc main_arg20)) shapeCasts_S2x2x128_S4x128 := by
  after_results; rfl

/-! ## Region 0's entry: after the two weight products -/

theorem w1_arg0 (c : Dev nD) : W1 m ρ c (Proc.devRef .tc main_arg0) = m ((c.tc : Thread nD τ).loc main_arg0) :=
  w1_keep m ρ c main_arg0 (by decide)
theorem w1_arg1 (c : Dev nD) : W1 m ρ c (Proc.devRef .tc main_arg1) = m ((c.tc : Thread nD τ).loc main_arg1) :=
  w1_keep m ρ c main_arg1 (by decide)
theorem w1_arg5 (c : Dev nD) : W1 m ρ c (Proc.devRef .tc main_arg5) = m ((c.tc : Thread nD τ).loc main_arg5) :=
  w1_keep m ρ c main_arg5 (by decide)
theorem w1_arg6 (c : Dev nD) : W1 m ρ c (Proc.devRef .tc main_arg6) = m ((c.tc : Thread nD τ).loc main_arg6) :=
  w1_keep m ρ c main_arg6 (by decide)
theorem w1_arg11 (c : Dev nD) : W1 m ρ c (Proc.devRef .tc main_arg11) = m ((c.tc : Thread nD τ).loc main_arg11) :=
  w1_keep m ρ c main_arg11 (by decide)
/-- The folded radial weight: the host's product of arguments 7 and 8. -/
theorem w1_v0 (c : Dev nD) : W1 m ρ c (Proc.devRef .tc main_v0) = Host.dotGeneral (F := Ideal) (φ₁ := .f32) (φ₂ := .f32) dot_S6x8_S8x128_S6x128_1_0_0_1_n_n none (m ((c.tc : Thread nD τ).loc main_arg7)) (m ((c.tc : Thread nD τ).loc main_arg8)) :=
  host0_v0 (W0 m ρ c)

/-! ## Region 1's entry: region 0 has written only its output -/

theorem w2_arg2 (c : Dev nD) : W2 m ρ c (Proc.devRef .tc main_arg2) = m ((c.tc : Thread nD τ).loc main_arg2) :=
  w2_keep m ρ c main_arg2 (by decide) (by decide)
/-- The folded spherical weight: the host's product of arguments 9 and 10. -/
theorem w2_v1 (c : Dev nD) : W2 m ρ c (Proc.devRef .tc main_v1) = Host.dotGeneral (F := Ideal) (φ₁ := .f32) (φ₂ := .f32) dot_S42x8_S8x64_S42x64_1_0_0_1_n_n none (m ((c.tc : Thread nD τ).loc main_arg9)) (m ((c.tc : Thread nD τ).loc main_arg10)) :=
  (W2_of_ne m ρ c main_v1 (by decide)).trans (host0_v1 (W0 m ρ c))

/-! ## After region 1: region 0's output is still there, and the two index arguments -/

theorem w3_v2 (c : Dev nD) : W3 m ρ c (Proc.devRef .tc main_v2) = W2 m ρ c (Proc.devRef .tc main_v2) :=
  W3_of_ne m ρ c main_v2 (by decide)
theorem w3_arg3 (c : Dev nD) : W3 m ρ c (Proc.devRef .tc main_arg3) = m ((c.tc : Thread nD τ).loc main_arg3) :=
  w3_keep m ρ c main_arg3 (by decide) (by decide) (by decide)
theorem w3_arg4 (c : Dev nD) : W3 m ρ c (Proc.devRef .tc main_arg4) = m ((c.tc : Thread nD τ).loc main_arg4) :=
  w3_keep m ρ c main_arg4 (by decide) (by decide) (by decide)

/-! ## Region 2's entry: the arguments it reads, and the four reshaped weight arrays -/

/-- Argument 0 is a window of region 0, which reads it and writes back nothing there. -/
theorem w5_arg0 (c : Dev nD) : W5 m ρ c (Proc.devRef .tc main_arg0) = m ((c.tc : Thread nD τ).loc main_arg0) :=
  calc W5 m ρ c (Proc.devRef .tc main_arg0)
    _ = W4 m ρ c (Proc.devRef .tc main_arg0) := StableHlo.after_of_writes_sub hostOps2_1 _ writes2_1 (by decide)
    _ = W3 m ρ c (Proc.devRef .tc main_arg0) := StableHlo.after_of_writes_sub hostOps2 _ writes2 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c.tc : Thread nD τ).loc main_arg0) := w1_arg0 m ρ c
theorem w5_arg12 (c : Dev nD) : W5 m ρ c (Proc.devRef .tc main_arg12) = m ((c.tc : Thread nD τ).loc main_arg12) :=
  w5_keep m ρ c main_arg12 (by decide) (by decide) (by decide) (by decide) (by decide)
theorem w5_arg13 (c : Dev nD) : W5 m ρ c (Proc.devRef .tc main_arg13) = m ((c.tc : Thread nD τ).loc main_arg13) :=
  w5_keep m ρ c main_arg13 (by decide) (by decide) (by decide) (by decide) (by decide)
theorem w5_arg14 (c : Dev nD) : W5 m ρ c (Proc.devRef .tc main_arg14) = m ((c.tc : Thread nD τ).loc main_arg14) :=
  w5_keep m ρ c main_arg14 (by decide) (by decide) (by decide) (by decide) (by decide)
theorem w5_arg17 (c : Dev nD) : W5 m ρ c (Proc.devRef .tc main_arg17) = m ((c.tc : Thread nD τ).loc main_arg17) :=
  w5_keep m ρ c main_arg17 (by decide) (by decide) (by decide) (by decide) (by decide)
theorem w5_arg18 (c : Dev nD) : W5 m ρ c (Proc.devRef .tc main_arg18) = m ((c.tc : Thread nD τ).loc main_arg18) :=
  w5_keep m ρ c main_arg18 (by decide) (by decide) (by decide) (by decide) (by decide)
theorem w5_v9 (c : Dev nD) : W5 m ρ c (Proc.devRef .tc main_v9) = Cert.ReferenceIdeal.Stages.val_main_v31 (F := Ideal) (m ((c.tc : Thread nD τ).loc main_arg15)) :=
  (host2_1_v9 (W4 m ρ c)).trans (congrArg (Cert.ReferenceIdeal.Stages.val_main_v31 (F := Ideal))
    (w4_keep m ρ c main_arg15 (by decide) (by decide) (by decide) (by decide)))
theorem w5_v10 (c : Dev nD) : W5 m ρ c (Proc.devRef .tc main_v10) = Cert.ReferenceIdeal.Stages.val_main_v32 (F := Ideal) (m ((c.tc : Thread nD τ).loc main_arg16)) :=
  (host2_1_v10 (W4 m ρ c)).trans (congrArg (Cert.ReferenceIdeal.Stages.val_main_v32 (F := Ideal))
    (w4_keep m ρ c main_arg16 (by decide) (by decide) (by decide) (by decide)))
theorem w5_v11 (c : Dev nD) : W5 m ρ c (Proc.devRef .tc main_v11) = shapeCast S4x128x128 (m ((c.tc : Thread nD τ).loc main_arg19)) shapeCasts_S2x2x128x128_S4x128x128 :=
  (host2_1_v11 (W4 m ρ c)).trans (congrArg (fun x => shapeCast S4x128x128 x shapeCasts_S2x2x128x128_S4x128x128)
    (w4_keep m ρ c main_arg19 (by decide) (by decide) (by decide) (by decide)))
theorem w5_v12 (c : Dev nD) : W5 m ρ c (Proc.devRef .tc main_v12) = shapeCast S4x128 (m ((c.tc : Thread nD τ).loc main_arg20)) shapeCasts_S2x2x128_S4x128 :=
  (host2_1_v12 (W4 m ρ c)).trans (congrArg (fun x => shapeCast S4x128 x shapeCasts_S2x2x128_S4x128)
    (w4_keep m ρ c main_arg20 (by decide) (by decide) (by decide) (by decide)))

end Cert.KernelIdeal.Gen

end
-- ==== Proof.Region0.lean ====
/-
  Region 0: the edge-space dense layer, the radial modulation and the down-projection, block by block.

  At grid point `t` the body sees rows `4096 t … 4096 t + 4095` of arguments 0 and 1 and the whole weight arrays, and
  stores `swish ((swish (x W_kj + b_kj) ⊙ (r W_rbf)) W_down)` of those rows, where `W_rbf` is the product of
  arguments 7 and 8 formed beforehand. Every operation acts row by row, so the block is those rows of the same
  operations of the whole arrays; the blocks tile the output. The reference forms `(r W₇) W₈` instead: equal for
  real matrices.
-/
import proofs.«400527_j63531156242866_3_alg».proof.Proof.Entry
import proofs.«400527_j63531156242866_3_alg».proof.Proof.MatAssoc
import proofs.«400527_j63531156242866_3_alg».proof.Proof.PreFacts
import Idealize.ShloMosaic.Lib.Pipeline.Value

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat Cfg Window)
open Cert.Rows Cert.Lib

variable (m : (ℓ : Loc nD τ sig) → Buf (Elt Ideal) ℓ) (ρ : Dev nD → PrngReg)

/-! ## The body on selected rows -/

/-- The splat of one over a matrix shape, as the host writes it. -/
private abbrev ones (M K : Nat) (h : (⟨0, ![]⟩ : Shape).BroadcastsInDim ⟨2, ![M, K]⟩ ![]) : (⟨2, ![M, K]⟩ : Shape).Idx → EReal :=
  broadcastInDim ⟨2, ![M, K]⟩ ![] h (constant (F := Ideal) ⟨0, ![]⟩ .f32 0x3F800000#32)

/-- `x · (1 / (1 + exp (-x)))` entrywise, in the host's operations. -/
private def swish {M K : Nat} (h h' : (⟨0, ![]⟩ : Shape).BroadcastsInDim ⟨2, ![M, K]⟩ ![])
    (X : (⟨2, ![M, K]⟩ : Shape).Idx → EReal) : (⟨2, ![M, K]⟩ : Shape).Idx → EReal :=
  mulf (F := Ideal) (φ := .f32) X (Host.divf (F := Ideal) (φ := .f32) (ones M K h')
    (addf (F := Ideal) (φ := .f32) (ones M K h) (Host.exp (F := Ideal) (φ := .f32) (Host.negf (F := Ideal) (φ := .f32) X))))

/-- The product of selected rows with their logistic function is the selected rows of the swish of the whole array. -/
private theorem swish_rowsel {M M' K : Nat} (sub : Fin M' → Fin M) (h h' : (⟨0, ![]⟩ : Shape).BroadcastsInDim ⟨2, ![M, K]⟩ ![])
    (X : (⟨2, ![M, K]⟩ : Shape).Idx → EReal) :
    mulf (F := Ideal) (φ := .f32) (rowsel sub X) (logistic (F := Ideal) (φ := .f32) (rowsel sub X)) = rowsel sub (swish h h' X) := by
  rw [logistic_rowsel sub X h h', mulf_rowsel]
  rfl

open Cert.ReferenceIdeal.Gen in
/-- The whole-array function the blocks are rows of: the dense layer with its bias and its swish, the radial modulation by
    the folded weight `Wr`, the down-projection and its swish, of the whole arrays. -/
private def edgeLayer (X0 : S262144x128.Idx → EReal) (X1 : S262144x6.Idx → EReal) (W : S128x128.Idx → EReal) (b : S128.Idx → EReal)
    (Wr : S6x128.Idx → EReal) (Wd : S128x64.Idx → EReal) : S262144x64.Idx → EReal :=
  swish bcast_S_S262144x64 bcast_S_S262144x64
    (Host.dotGeneral (F := Ideal) (φ₁ := .f32) (φ₂ := .f32) Cert.ReferenceIdeal.dot_S262144x128_S128x64_S262144x64_1_0_0_1_n_n none
      (mulf (F := Ideal) (φ := .f32)
        (swish bcast_S_S262144x128 bcast_S_S262144x128
          (addf (F := Ideal) (φ := .f32)
            (Host.dotGeneral (F := Ideal) (φ₁ := .f32) (φ₂ := .f32) Cert.ReferenceIdeal.dot_S262144x128_S128x128_S262144x128_1_0_0_1_n_n none X0 W)
            (broadcastInDim Cert.ReferenceIdeal.S262144x128 ![0, 1] bcast_S1x128_S262144x128_0_1
              (broadcastInDim Cert.ReferenceIdeal.S1x128 ![1] bcast_S128_S1x128_1 b))))
        (Host.dotGeneral (F := Ideal) (φ₁ := .f32) (φ₂ := .f32) (DotDims.plain 262144 6 128) none X1 Wr))
      Wd)

/-- The body's payload on selected rows of `X0` and `X1` is the selected rows of the whole-array function: each product,
    the bias row, the sums and products and the two swishes act row by row. -/
private theorem k0_pay1_rowsel (s : Fin 4096 → Fin 262144) (X0 : S262144x128.Idx → EReal) (X1 : S262144x6.Idx → EReal)
    (W : S128x128.Idx → EReal) (b : S128.Idx → EReal) (Wr : S6x128.Idx → EReal) (Wd : S128x64.Idx → EReal) :
    k0_pay1 (F := Ideal) (rowsel s X0) W b (rowsel s X1) Wr Wd = rowsel s (edgeLayer X0 X1 W b Wr Wd) := by
  unfold k0_pay1 edgeLayer
  simp only [truncf_eq, shapeCast_self, matmul]
  -- the dense layer's product, its bias row, the radial product
  have e1 := matmul_rowsel (dK := dot_S4096x128_S128x128_S4096x128_1_0_0_1_n_n) (dR := Cert.ReferenceIdeal.dot_S262144x128_S128x128_S262144x128_1_0_0_1_n_n)
    (φ₁ := .bf16) (φ₂ := .bf16) (φ₃ := .f32) (φ₄ := .f32) ⟨rfl, rfl, rfl, rfl, rfl, rfl⟩ ⟨rfl, rfl, rfl, rfl, rfl, rfl⟩ none none .single s X0 W
  have e2 := bias_rowsel (M := 262144) (M' := 4096) s b shapeCasts_S128_S1x128 broadcasts_S1x128_S4096x128
    Cert.ReferenceIdeal.Gen.bcast_S128_S1x128_1 Cert.ReferenceIdeal.Gen.bcast_S1x128_S262144x128_0_1
  have e3 := matmul_rowsel (dK := dot_S4096x6_S6x128_S4096x128_1_0_0_1_n_n) (dR := DotDims.plain 262144 6 128)
    (φ₁ := .bf16) (φ₂ := .bf16) (φ₃ := .f32) (φ₄ := .f32) ⟨rfl, rfl, rfl, rfl, rfl, rfl⟩ ⟨rfl, rfl, rfl, rfl, rfl, rfl⟩ none none .single s X1 Wr
  rw [e1, e2, addf_rowsel, swish_rowsel s Cert.ReferenceIdeal.Gen.bcast_S_S262144x128 Cert.ReferenceIdeal.Gen.bcast_S_S262144x128, e3, mulf_rowsel]
  -- the down-projection of what is now the selected rows of one array
  have e4 := fun Y => matmul_rowsel (dK := dot_S4096x128_S128x64_S4096x64_1_0_0_1_n_n) (dR := Cert.ReferenceIdeal.dot_S262144x128_S128x64_S262144x64_1_0_0_1_n_n)
    (φ₁ := .bf16) (φ₂ := .bf16) (φ₃ := .f32) (φ₄ := .f32) ⟨rfl, rfl, rfl, rfl, rfl, rfl⟩ ⟨rfl, rfl, rfl, rfl, rfl, rfl⟩ none none .single s Y Wd
  rw [e4, swish_rowsel s Cert.ReferenceIdeal.Gen.bcast_S_S262144x64 Cert.ReferenceIdeal.Gen.bcast_S_S262144x64]

/-- With the folded radial weight the product of two real matrices, the whole-array function is the reference's stage:
    `r (W₇ W₈) = (r W₇) W₈` for real matrices, and every other operation is the reference's own. -/
private theorem edgeLayer_stage (a0 : S262144x128.Idx → EReal) (a1 : S262144x6.Idx → EReal) (a5 : S128x128.Idx → EReal)
    (a6 : S128.Idx → EReal) (a7 : S6x8.Idx → EReal) (a8 : S8x128.Idx → EReal) (a11 : S128x64.Idx → EReal)
    (h1 : Cert.PreFacts.IsReal a1) (h7 : Cert.PreFacts.IsReal a7) (h8 : Cert.PreFacts.IsReal a8) :
    edgeLayer a0 a1 a5 a6 (Host.dotGeneral (F := Ideal) (φ₁ := .f32) (φ₂ := .f32) dot_S6x8_S8x128_S6x128_1_0_0_1_n_n none a7 a8) a11
      = Cert.ReferenceIdeal.Stages.val_main_v9 (F := Ideal) a0 a1 a5 a6 a7 a8 a11 := by
  have e : Host.dotGeneral (F := Ideal) (φ₁ := .f32) (φ₂ := .f32) (DotDims.plain 262144 6 128) none a1
        (Host.dotGeneral (F := Ideal) (φ₁ := .f32) (φ₂ := .f32) dot_S6x8_S8x128_S6x128_1_0_0_1_n_n none a7 a8)
      = Cert.ReferenceIdeal.Stages.val_main_v6 (F := Ideal) a1 a7 a8 := by
    unfold Cert.ReferenceIdeal.Stages.val_main_v6 Cert.ReferenceIdeal.Stages.val_main_v5
    exact dot_assoc ⟨rfl, rfl, rfl, rfl, rfl, rfl⟩ ⟨rfl, rfl, rfl, rfl, rfl, rfl⟩ ⟨rfl, rfl, rfl, rfl, rfl, rfl⟩ ⟨rfl, rfl, rfl, rfl, rfl, rfl⟩
      none none none none .single .single .single .single _ _ _ h1 h7 h8
  unfold edgeLayer
  rw [e]
  rfl

/-! ## The windows' blocks as rows of their arrays -/

section Blocks

variable (V : (c : Dev nD) → (b : Ref sig .tc) → Buf (Elt Ideal) ((c : Thread nD τ).loc b))

private theorem zero_offsets : (![0, 0] : Fin 2 → Nat) = fun _ => 0 := funext fun a => by fin_cases a <;> rfl
private theorem zero_offset : (![0] : Fin 1 → Nat) = fun _ => 0 := funext fun a => by fin_cases a; rfl

/-- The printed index maps over the grid: the three row-tiled windows are at block row `t`, column block 0; the four
    weight windows stay at block 0. -/
private theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

private theorem point_lt (t : Fin cfg0.N) : t.val < 64 := t.isLt.trans_eq N_0

/-- Row `r` of the block of point `t` is row `4096 t + r` of the array. -/
private def blockRow (t : Fin cfg0.N) : Fin 4096 → Fin 262144 := fun r =>
  ⟨4096 * t.val + r.val, by have := point_lt t; have := r.isLt; omega⟩

/-- The block of argument 0 at point `t` is its rows `blockRow t`. -/
private theorem iblk_rows0 (c : Dev nD) (t : Fin cfg0.N) :
    (iblk0 V c 0 t : S4096x128.Idx → EReal) = rowsel (blockRow t) (V c main_arg0 : S262144x128.Idx → EReal) := by
  obtain ⟨e0, e1, -⟩ := block_index t
  funext y
  show (V c main_arg0 : S262144x128.Idx → EReal) (((cfg0.win 0).blk t).view.emb y) = (V c main_arg0 : S262144x128.Idx → EReal) (ix2 (blockRow t (y 0)) (y 1))
  congr 1
  funext a
  apply Fin.ext
  match a with
  | ⟨0, _⟩ => show win0_0.index t (0 : Fin 2) * 4096 + 1 * (y 0).val = 4096 * t.val + (y 0).val; omega
  | ⟨1, _⟩ => show win0_0.index t (1 : Fin 2) * 128 + 1 * (y 1).val = (y 1).val; omega

/-- The block of argument 1 at point `t` is its rows `blockRow t`. -/
private theorem iblk_rows1 (c : Dev nD) (t : Fin cfg0.N) :
    (iblk0 V c 1 t : S4096x6.Idx → EReal) = rowsel (blockRow t) (V c main_arg1 : S262144x6.Idx → EReal) := by
  obtain ⟨-, -, e0, e1, -⟩ := block_index t
  funext y
  show (V c main_arg1 : S262144x6.Idx → EReal) (((cfg0.win 1).blk t).view.emb y) = (V c main_arg1 : S262144x6.Idx → EReal) (ix2 (blockRow t (y 0)) (y 1))
  congr 1
  funext a
  apply Fin.ext
  match a with
  | ⟨0, _⟩ => show win0_1.index t (0 : Fin 2) * 4096 + 1 * (y 0).val = 4096 * t.val + (y 0).val; omega
  | ⟨1, _⟩ => show win0_1.index t (1 : Fin 2) * 6 + 1 * (y 1).val = (y 1).val; omega

/-- The dense layer's weight window holds the whole weight at every point. -/
private theorem iblk_dense (c : Dev nD) (t : Fin cfg0.N) :
    (iblk0 V c 2 t : S128x128.Idx → EReal) = (V c main_arg5 : S128x128.Idx → EReal) := by
  obtain ⟨-, -, -, -, e0, e1, -⟩ := block_index t
  funext y
  show (V c main_arg5 : S128x128.Idx → EReal) (((cfg0.win 2).blk t).view.emb y) = (V c main_arg5 : S128x128.Idx → EReal) y
  congr 1
  funext a
  apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias window holds the whole bias at every point. -/
private theorem iblk_bias (c : Dev nD) (t : Fin cfg0.N) :
    (iblk0 V c 3 t : S128.Idx → EReal) = (V c main_arg6 : S128.Idx → EReal) := by
  obtain ⟨-, -, -, -, -, -, e0, -⟩ := block_index t
  funext y
  show (V c main_arg6 : S128.Idx → EReal) (((cfg0.win 3).blk t).view.emb y) = (V c main_arg6 : S128.Idx → EReal) y
  congr 1
  funext a
  apply Fin.ext
  match a with
  | ⟨0, _⟩ => show win0_3.index t (0 : Fin 1) * 128 + 1 * (y 0).val = (y 0).val; omega

/-- The folded radial weight's window holds the whole weight at every point. -/
private theorem iblk_radial (c : Dev nD) (t : Fin cfg0.N) :
    (iblk0 V c 4 t : S6x128.Idx → EReal) = (V c main_v0 : S6x128.Idx → EReal) := by
  obtain ⟨-, -, -, -, -, -, -, e0, e1, -⟩ := block_index t
  funext y
  show (V c main_v0 : S6x128.Idx → EReal) (((cfg0.win 4).blk t).view.emb y) = (V c main_v0 : S6x128.Idx → EReal) y
  congr 1
  funext a
  apply Fin.ext
  match a with
  | ⟨0, _⟩ => show win0_4.index t (0 : Fin 2) * 6 + 1 * (y 0).val = (y 0).val; omega
  | ⟨1, _⟩ => show win0_4.index t (1 : Fin 2) * 128 + 1 * (y 1).val = (y 1).val; omega

/-- The down-projection's weight window holds the whole weight at every point. -/
private theorem iblk_down (c : Dev nD) (t : Fin cfg0.N) :
    (iblk0 V c 5 t : S128x64.Idx → EReal) = (V c main_arg11 : S128x64.Idx → EReal) := by
  obtain ⟨-, -, -, -, -, -, -, -, -, e0, e1, -⟩ := block_index t
  funext y
  show (V c main_arg11 : S128x64.Idx → EReal) (((cfg0.win 5).blk t).view.emb y) = (V c main_arg11 : S128x64.Idx → EReal) y
  congr 1
  funext a
  apply Fin.ext
  match a with
  | ⟨0, _⟩ => show win0_5.index t (0 : Fin 2) * 128 + 1 * (y 0).val = (y 0).val; omega
  | ⟨1, _⟩ => show win0_5.index t (1 : Fin 2) * 64 + 1 * (y 1).val = (y 1).val; omega

/-- What point `t` writes back is block `t` of the whole-array function of the region's six input arrays. -/
private theorem flushed_edgeLayer (c : Dev nD) (t : Fin cfg0.N) :
    (dat0 V c).flushed 6 t = ((cfg0.win 6).blk t).view.read (Elt Ideal)
      (edgeLayer (V c main_arg0) (V c main_arg1) (V c main_arg5) (V c main_arg6) (V c main_v0) (V c main_arg11)) := by
  show (cfg0.win 6).cut (grid0.coords t) ((dat0 V c).after 6 t) = _
  rw [after0_6]
  unfold out0_6
  rw [View.canon_unit_zero zero_offsets]
  simp only [View.ld_unit_zero (S := S4096x128) zero_offsets, View.ld_unit_zero (S := S128x128) zero_offsets,
    View.ld_unit_zero (S := S128) zero_offset, View.ld_unit_zero (S := S4096x6) zero_offsets,
    View.ld_unit_zero (S := S6x128) zero_offsets, View.ld_unit_zero (S := S128x64) zero_offsets]
  rw [iblk_rows0, iblk_rows1, iblk_dense, iblk_bias, iblk_radial, iblk_down, k0_pay1_rowsel]
  obtain ⟨-, -, -, -, -, -, -, -, -, -, -, e0, e1⟩ := block_index t
  funext y
  generalize edgeLayer (V c main_arg0) (V c main_arg1) (V c main_arg5) (V c main_arg6) (V c main_v0) (V c main_arg11) = G
  show G (ix2 (blockRow t (y 0)) (y 1)) = G (((cfg0.win 6).blk t).view.emb y)
  congr 1
  funext a
  apply Fin.ext
  match a with
  | ⟨0, _⟩ => show 4096 * t.val + (y 0).val = win0_6.index t (0 : Fin 2) * 4096 + 1 * (y 0).val; omega
  | ⟨1, _⟩ => show (y 1).val = win0_6.index t (1 : Fin 2) * 64 + 1 * (y 1).val; omega

/-- An index of the output array is in point `t`'s block iff each coordinate is in the block's range on its axis. -/
private theorem mem_block (t : Fin cfg0.N) (i : S262144x64.Idx) :
    i ∈ ((cfg0.win 6).blk t).view.set ↔ ∀ a : Fin 2, win0_6.index t a * S4096x64.size a ≤ (i a).val ∧ (i a).val < win0_6.index t a * S4096x64.size a + S4096x64.size a := by
  show i ∈ ((View.whole main_v2).slice (win0_6.rect t)).set ↔ _
  rw [View.set_slice_whole, Rect.mem_set_unit]
  exact Iff.rfl

/-- The blocks tile the output array: row `r` is in the block of point `r / 4096`. -/
private theorem blocks_cover (i : S262144x64.Idx) :
    ∃ t : Fin cfg0.N, (cfg0.win 6).flush t = true ∧ i ∈ ((cfg0.win 6).blk t).view.set := by
  have hi0 : (i 0).val < 262144 := (i 0).isLt
  have hi1 : (i 1).val < 64 := (i 1).isLt
  obtain ⟨t, ht⟩ : ∃ t : Fin cfg0.N, t.val = (i 0).val / 4096 :=
    ⟨⟨(i 0).val / 4096, Nat.lt_of_lt_of_eq (by omega) N_0.symm⟩, rfl⟩
  obtain ⟨-, -, -, -, -, -, -, -, -, -, -, e0, e1⟩ := block_index t
  refine ⟨t, flush0_6 t, ?_⟩
  rw [mem_block]
  intro a
  match a with
  | ⟨0, _⟩ => show win0_6.index t (0 : Fin 2) * 4096 ≤ (i 0).val ∧ (i 0).val < win0_6.index t (0 : Fin 2) * 4096 + 4096; omega
  | ⟨1, _⟩ => show win0_6.index t (1 : Fin 2) * 64 ≤ (i 1).val ∧ (i 1).val < win0_6.index t (1 : Fin 2) * 64 + 64; omega

/-- The output array after the region is the whole-array function of the region's six input arrays. -/
private theorem region0_array (c : Dev nD) : (dat0 V c).arrAt 6 cfg0.N
    = edgeLayer (V c main_arg0) (V c main_arg1) (V c main_arg5) (V c main_arg6) (V c main_v0) (V c main_arg11) :=
  (dat0 V c).arrAt_eq_of_cover 6 _ (fun t _ => flushed_edgeLayer V c t) blocks_cover

end Blocks

/-- Region 0's output array is the reference's down-projected stage. -/
theorem region0_value (c : Dev nD) (h1 : Cert.PreFacts.IsReal (m ((c.tc : Thread nD τ).loc main_arg1))) (h7 : Cert.PreFacts.IsReal (m ((c.tc : Thread nD τ).loc main_arg7))) (h8 : Cert.PreFacts.IsReal (m ((c.tc : Thread nD τ).loc main_arg8))) :
    W2 m ρ c (Proc.devRef .tc main_v2) = Cert.ReferenceIdeal.Stages.val_main_v9 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) := by
  -- the array is what the pipeline leaves: the whole-array function of the entry contents of its six input arrays
  rw [show W2 m ρ c (Proc.devRef .tc main_v2) = (dat0 (V1 m ρ) c).arrAt 6 cfg0.N from W2_arr m ρ c 6, region0_array]
  show edgeLayer (W1 m ρ c (Proc.devRef .tc main_arg0)) (W1 m ρ c (Proc.devRef .tc main_arg1)) (W1 m ρ c (Proc.devRef .tc main_arg5))
    (W1 m ρ c (Proc.devRef .tc main_arg6)) (W1 m ρ c (Proc.devRef .tc main_v0)) (W1 m ρ c (Proc.devRef .tc main_arg11)) = _
  -- the arguments hold their launch contents, the folded radial weight the product of arguments 7 and 8
  rw [w1_arg0, w1_arg1, w1_arg5, w1_arg6, w1_v0, w1_arg11]
  exact edgeLayer_stage _ _ _ _ _ _ _ h1 h7 h8

end Cert.KernelIdeal.Gen

end
-- ==== Proof.Region1.lean ====
/-
  Region 1: the spherical basis projection, block by block.

  At grid point `t` the body sees rows `8192 t … 8192 t + 8191` of argument 2 and stores their product with the
  folded weight (the product of arguments 9 and 10); the blocks tile the output. The reference forms
  `(s W₉) W₁₀` instead: equal for real matrices.
-/
import proofs.«400527_j63531156242866_3_alg».proof.Proof.Entry
import proofs.«400527_j63531156242866_3_alg».proof.Proof.MatAssoc
import proofs.«400527_j63531156242866_3_alg».proof.Proof.PreFacts
import Idealize.ShloMosaic.Lib.Pipeline.Value

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat Cfg Window)
open Cert.Rows Cert.Lib

variable (m : (ℓ : Loc nD τ sig) → Buf (Elt Ideal) ℓ) (ρ : Dev nD → PrngReg)

/-! ## The body on selected rows -/

/-- The whole-array product the blocks are rows of: the host's plain product of a `[2097152, 42]` array with a
    `[42, 64]` weight. -/
private abbrev proj (X : S2097152x42.Idx → EReal) (W : S42x64.Idx → EReal) : S2097152x64.Idx → EReal :=
  Host.dotGeneral (F := Ideal) (φ₁ := .f32) (φ₂ := .f32) (DotDims.plain 2097152 42 64) none X W

/-- The body's payload on selected rows of `X` is the selected rows of the whole product. -/
private theorem k1_pay1_rowsel (s : Fin 8192 → Fin 2097152) (X : S2097152x42.Idx → EReal) (W : S42x64.Idx → EReal) :
    k1_pay1 (F := Ideal) (rowsel s X) W = rowsel s (proj X W) := by
  unfold k1_pay1
  simp only [truncf_eq, shapeCast_self]
  exact matmul_rowsel ⟨rfl, rfl, rfl, rfl, rfl, rfl⟩ ⟨rfl, rfl, rfl, rfl, rfl, rfl⟩ none none .single s X W

/-! ## The windows' blocks as rows of their arrays -/

section Blocks

variable (V : (c : Dev nD) → (b : Ref sig .tc) → Buf (Elt Ideal) ((c : Thread nD τ).loc b))

private theorem zero_offsets : (![0, 0] : Fin 2 → Nat) = fun _ => 0 := funext fun a => by fin_cases a <;> rfl

/-- The printed index maps over the grid: the two row-tiled windows are at block row `t`, column block 0; the
    weight's window stays at block (0, 0). -/
private theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

private theorem point_lt (t : Fin cfg1.N) : t.val < 256 := t.isLt.trans_eq N_1

/-- Row `r` of the block of point `t` is row `8192 t + r` of the array. -/
private def blockRow (t : Fin cfg1.N) : Fin 8192 → Fin 2097152 := fun r =>
  ⟨8192 * t.val + r.val, by have := point_lt t; have := r.isLt; omega⟩

/-- The block of argument 2 at point `t` is its rows `blockRow t`. -/
private theorem iblk_rows (c : Dev nD) (t : Fin cfg1.N) :
    (iblk1 V c 0 t : S8192x42.Idx → EReal) = rowsel (blockRow t) (V c main_arg2 : S2097152x42.Idx → EReal) := by
  obtain ⟨e0, e1, -⟩ := block_index t
  funext y
  unfold iblk1
  rw [View.read_apply]
  show (V c main_arg2 : S2097152x42.Idx → EReal) _ = (V c main_arg2 : S2097152x42.Idx → EReal) _
  congr 1
  funext a
  apply Fin.ext
  match a with
  | ⟨0, _⟩ => show win1_0.index t (0 : Fin 2) * 8192 + 1 * (y 0).val = 8192 * t.val + (y 0).val; omega
  | ⟨1, _⟩ => show win1_0.index t (1 : Fin 2) * 42 + 1 * (y 1).val = (y 1).val; omega

/-- The weight's window holds the whole weight at every point. -/
private theorem iblk_weight (c : Dev nD) (t : Fin cfg1.N) :
    (iblk1 V c 1 t : S42x64.Idx → EReal) = (V c main_v1 : S42x64.Idx → EReal) := by
  obtain ⟨-, -, e0, e1, -⟩ := block_index t
  funext y
  unfold iblk1
  rw [View.read_apply]
  show (V c main_v1 : S42x64.Idx → EReal) _ = (V c main_v1 : S42x64.Idx → EReal) _
  congr 1
  funext a
  apply Fin.ext
  match a with
  | ⟨0, _⟩ => show win1_1.index t (0 : Fin 2) * 42 + 1 * (y 0).val = (y 0).val; omega
  | ⟨1, _⟩ => show win1_1.index t (1 : Fin 2) * 64 + 1 * (y 1).val = (y 1).val; omega

/-- What point `t` writes back is block `t` of the whole product of the region's two input arrays. -/
private theorem flushed_proj (c : Dev nD) (t : Fin cfg1.N) :
    (dat1 V c).flushed 2 t = ((cfg1.win 2).blk t).view.read (Elt Ideal) (proj (V c main_arg2) (V c main_v1)) := by
  show (cfg1.win 2).cut (grid1.coords t) ((dat1 V c).after 2 t) = _
  rw [after1_2]
  unfold out1_2
  rw [View.canon_unit_zero zero_offsets]
  simp only [View.ld_unit_zero (S := S8192x42) zero_offsets, View.ld_unit_zero (S := S42x64) zero_offsets]
  rw [iblk_rows, iblk_weight, k1_pay1_rowsel]
  obtain ⟨-, -, -, -, e0, e1⟩ := block_index t
  funext y
  show proj (V c main_arg2) (V c main_v1) (ix2 (blockRow t (y 0)) (y 1))
    = proj (V c main_arg2) (V c main_v1) (((cfg1.win 2).blk t).view.emb y)
  congr 1
  funext a
  apply Fin.ext
  match a with
  | ⟨0, _⟩ => show 8192 * t.val + (y 0).val = win1_2.index t (0 : Fin 2) * 8192 + 1 * (y 0).val; omega
  | ⟨1, _⟩ => show (y 1).val = win1_2.index t (1 : Fin 2) * 64 + 1 * (y 1).val; omega

/-- An index of the output array is in point `t`'s block iff each coordinate is in the block's range on its axis. -/
private theorem mem_block (t : Fin cfg1.N) (i : S2097152x64.Idx) :
    i ∈ ((cfg1.win 2).blk t).view.set ↔ ∀ a : Fin 2, win1_2.index t a * S8192x64.size a ≤ (i a).val ∧ (i a).val < win1_2.index t a * S8192x64.size a + S8192x64.size a := by
  show i ∈ ((View.whole main_v3).slice (win1_2.rect t)).set ↔ _
  rw [View.set_slice_whole, Rect.mem_set_unit]
  exact Iff.rfl

/-- The blocks tile the output array: row `r` is in the block of point `r / 8192`. -/
private theorem blocks_cover (i : S2097152x64.Idx) :
    ∃ t : Fin cfg1.N, (cfg1.win 2).flush t = true ∧ i ∈ ((cfg1.win 2).blk t).view.set := by
  have hi0 : (i 0).val < 2097152 := (i 0).isLt
  have hi1 : (i 1).val < 64 := (i 1).isLt
  obtain ⟨t, ht⟩ : ∃ t : Fin cfg1.N, t.val = (i 0).val / 8192 :=
    ⟨⟨(i 0).val / 8192, Nat.lt_of_lt_of_eq (by omega) N_1.symm⟩, rfl⟩
  obtain ⟨-, -, -, -, e0, e1⟩ := block_index t
  refine ⟨t, flush1_2 t, ?_⟩
  rw [mem_block]
  intro a
  match a with
  | ⟨0, _⟩ => show win1_2.index t (0 : Fin 2) * 8192 ≤ (i 0).val ∧ (i 0).val < win1_2.index t (0 : Fin 2) * 8192 + 8192; omega
  | ⟨1, _⟩ => show win1_2.index t (1 : Fin 2) * 64 ≤ (i 1).val ∧ (i 1).val < win1_2.index t (1 : Fin 2) * 64 + 64; omega

/-- The output array after the region is the whole product of the region's two input arrays. -/
private theorem region1_array (c : Dev nD) : (dat1 V c).arrAt 2 cfg1.N = proj (V c main_arg2) (V c main_v1) :=
  (dat1 V c).arrAt_eq_of_cover 2 (proj (V c main_arg2) (V c main_v1)) (fun t _ => flushed_proj V c t) blocks_cover

end Blocks

/-- Region 1's output array is the reference's projected spherical basis. -/
theorem region1_value (c : Dev nD) (h2 : Cert.PreFacts.IsReal (m ((c.tc : Thread nD τ).loc main_arg2))) (h9 : Cert.PreFacts.IsReal (m ((c.tc : Thread nD τ).loc main_arg9))) (h10 : Cert.PreFacts.IsReal (m ((c.tc : Thread nD τ).loc main_arg10))) :
    W3 m ρ c (Proc.devRef .tc main_v3) = Cert.ReferenceIdeal.Stages.val_main_v18 (F := Ideal) (m ((c.tc : Thread nD τ).loc main_arg2)) (m ((c.tc : Thread nD τ).loc main_arg9)) (m ((c.tc : Thread nD τ).loc main_arg10)) := by
  -- the array is what the pipeline leaves: the product of the entry contents of argument 2 and of the folded weight
  rw [show W3 m ρ c (Proc.devRef .tc main_v3) = (dat1 (V2 m ρ) c).arrAt 2 cfg1.N from W3_arr m ρ c 2, region1_array]
  show proj (W2 m ρ c (Proc.devRef .tc main_arg2)) (W2 m ρ c (Proc.devRef .tc main_v1)) = _
  rw [w2_arg2, w2_v1]
  -- s (W₉ W₁₀) = (s W₉) W₁₀ for real matrices
  unfold Cert.ReferenceIdeal.Stages.val_main_v18 Cert.ReferenceIdeal.Stages.val_main_v17
  exact dot_assoc ⟨rfl, rfl, rfl, rfl, rfl, rfl⟩ ⟨rfl, rfl, rfl, rfl, rfl, rfl⟩ ⟨rfl, rfl, rfl, rfl, rfl, rfl⟩ ⟨rfl, rfl, rfl, rfl, rfl, rfl⟩
    none none none none .single .single .single .single _ _ _ h2 h9 h10

end Cert.KernelIdeal.Gen

end
-- ==== Proof.Agg.lean ====
/-
  The aggregated messages: gather, entrywise product, scatter-add.

  The kernel's program gathers rows of region 0's output by a take that fills a row whose index is out of range
  with a fixed word; the reference gathers by the clamping gather alone. Both first add 262144 to a negative
  index. Under the precondition every index lies in `[0, 262144)`: it is not negative, so it is passed on unchanged,
  and the take's range test is true at every row, so its selection returns the gathered row. Then both programs
  multiply by region 1's output entrywise and scatter-add into zeros by argument 3: the same operations of equal
  operands.
-/
import proofs.«400527_j63531156242866_3_alg».proof.Proof.Entry
import proofs.«400527_j63531156242866_3_alg».proof.Proof.PreFacts
import Idealize.ShloMosaic.Lib.StableHlo.Predicate
import Idealize.ShloMosaic.Lib.ReduceAll

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat Cfg Window)
open Cert.Rows Cert.Lib

variable (m : (ℓ : Loc nD τ sig) → Buf (Elt Ideal) ℓ) (ρ : Dev nD → PrngReg)

/-! ## The take's range test under the precondition -/

/-- A selection whose condition is one everywhere returns its first operand. -/
private theorem select_of_all_one {s : Shape} {α : Type} (c : IVec s 1) (a b : s.Idx → α) (h : ∀ i, c i = 1#1) :
    select c a b = a := by
  funext i
  show Scalar.select (c i) (a i) (b i) = a i
  exact if_pos (h i)

/-- A left fold by `and` from one over ones is one. -/
private theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by `and` from one of an array of ones is one at every result index. -/
private theorem reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x hx _

/-- An index that is not negative is passed on by the wrap `if x < 0 then x + c else x`. -/
private theorem wrap_eq {s : Shape} (x z c : IVec s 32) (hz : ∀ i, z i = 0#32) (hx : ∀ i, 0 ≤ (x i).toInt) :
    select (cmpi .slt x z) (addi x c) x = x := by
  funext i
  show Scalar.select (IntOp.cmpi .slt (x i) (z i)) (IntOp.addi (x i) (c i)) (x i) = x i
  have hn : ¬ IntOp.cmpi .slt (x i) (z i) = 1#1 := by
    rw [IntOp.cmpi_slt, hz i, show (0#32 : BitVec 32).toInt = 0 from by decide]
    exact not_lt.mpr (hx i)
  exact if_neg hn

/-- The range test `0 ≤ I ∧ I ≤ 262143`, reduced by `and` over the index vector's one entry, is one at every row
    when every index lies in `[0, 262144)`. -/
private theorem range_test_one {n : Nat} (I Z H : IVec (⟨2, ![n, 1]⟩ : Shape) 32) (init : (⟨0, ![]⟩ : Shape).Idx → BitVec 1)
    (hred : (⟨2, ![n, 1]⟩ : Shape).ReducesTo [1] ⟨1, ![n]⟩) (hu : 0 < (⟨0, ![]⟩ : Shape).numel)
    (hZ : ∀ i, Z i = 0#32) (hH : ∀ i, H i = 262143#32) (hi : init (Shape.Idx.first hu) = 1#1)
    (hI : ∀ i, 0 ≤ (I i).toInt ∧ (I i).toInt < 262144) (j : (⟨1, ![n]⟩ : Shape).Idx) :
    Host.reduce IntOp.andi (andi (cmpi .sge I Z) (cmpi .sle I H)) init hred hu j = 1#1 := by
  refine reduce_andi_one _ _ hred hu (fun i => ?_) hi j
  show IntOp.andi (IntOp.cmpi .sge (I i) (Z i)) (IntOp.cmpi .sle (I i) (H i)) = 1#1
  rw [IntOp.andi_eq_one, IntOp.cmpi_sge, IntOp.cmpi_sle, hZ i, hH i, show (0#32 : BitVec 32).toInt = 0 from by decide,
    show (262143#32 : BitVec 32).toInt = 262143 from by decide]
  exact ⟨(hI i).1, by have := (hI i).2; omega⟩

/-- A broadcast of an array that is `a` everywhere is `a` everywhere. -/
private theorem bcast_all {s t : Shape} {α : Type} {dims : Fin s.rank → Fin t.rank} (h : s.BroadcastsInDim t dims)
    (x : s.Idx → α) (a : α) (hx : ∀ k, x k = a) (j : t.Idx) : broadcastInDim t dims h x j = a := hx _

/-- What holds of every entry of an array holds of every entry of its broadcast. -/
private theorem bcast_forall {s t : Shape} {α : Type} {dims : Fin s.rank → Fin t.rank} (h : s.BroadcastsInDim t dims)
    (x : s.Idx → α) (P : α → Prop) (hx : ∀ k, P (x k)) (j : t.Idx) : P (broadcastInDim t dims h x j) := hx _

/-! ## The host operations between region 1 and region 2, read at their results -/

/-- Contents moved to a typed reference's buffer type and back are unchanged. -/
private theorem ofBuf_toBuf {sg : RefSig} {T : BufTy} {Val : EltTy → Type} (x : StableHlo.TRef sg T) (v : T.Contents Val) :
    x.ofBuf (x.toBuf v) = v := by
  obtain ⟨r, rfl, h1, h2⟩ := x
  rfl

/-- The take's row numbers from the indices `x4`: a negative index has 262144 added; laid as a column. -/
private abbrev takeIdx (x4 : IVec S2097152 32) : IVec S2097152x1 32 :=
  broadcastInDim S2097152x1 ![0] bcast_S2097152_S2097152x1_0
    (select (cmpi .slt x4 (broadcastInDim S2097152 ![] bcast_S_S2097152 (constantI S_ 32 0#32)))
      (addi x4 (broadcastInDim S2097152 ![] bcast_S_S2097152 (constantI S_ 32 262144#32))) x4)

/-- The take of a table `T` by the indices `x4`: the selection, by the range test of the row numbers, between the
    gathered rows and the fill word. -/
private abbrev takeOf {F : FTy → Type} [FloatOps F] (T : FVec F S262144x64 .f32) (x4 : IVec S2097152 32) : FVec F S2097152x64 .f32 :=
  select (broadcastInDim S2097152x64 ![0] bcast_S2097152_S2097152x64_0
      (Host.reduce IntOp.andi
        (andi (cmpi .sge (takeIdx x4) (broadcastInDim S2097152x1 ![] bcast_S_S2097152x1 (constantI S_ 32 0#32)))
          (cmpi .sle (takeIdx x4)
            (broadcastInDim S2097152x1 ![0, 1] bcast_S1x1_S2097152x1_0_1 (broadcastInDim S1x1 ![1] bcast_S1_S1x1_1 (constantI S1 32 262143#32)))))
        (constantI S_ 1 1#1) reducesTo_S2097152x1_S2097152_d1 h_S_))
    (Host.gather gather_S262144x64_S2097152x1_S2097152x64_1_0_n_n_0_1_164 T (takeIdx x4))
    (broadcastInDim S2097152x64 ![] bcast_S_S2097152x64 (constant (F := F) S_ .f32 0x7FC00000#32))

/-- The take's result from any contents `V`, between the typed references' buffer types. -/
private theorem take_result_typed {F : FTy → Type} [FloatOps F] (V : Valuation τ sig (Elt F)) :
    StableHlo.after (hostOps2 (F := F)) V (Proc.devRef .tc main_v4)
      = (.of main_v4 : StableHlo.TRef sig ⟨S2097152x64, .f32⟩).toBuf
          (takeOf ((.of main_v2 : StableHlo.TRef sig ⟨S262144x64, .f32⟩).ofBuf (V (Proc.devRef .tc main_v2)))
            ((.of main_arg4 : StableHlo.TRef sig ⟨S2097152, .i32⟩).ofBuf (V (Proc.devRef .tc main_arg4)))) := by
  after_results_simp
  repeat rw [ofBuf_toBuf]

/-- At the three literal references the take reads and writes, the move to the buffer's type is the identity. -/
private theorem toBuf_v4 {F : FTy → Type} [FloatOps F] (v : FVec F S2097152x64 .f32) :
    (.of main_v4 : StableHlo.TRef sig ⟨S2097152x64, .f32⟩).toBuf (Val := Elt F) v = v := rfl
private theorem ofBuf_v2 {F : FTy → Type} [FloatOps F] (u : FVec F S262144x64 .f32) :
    (.of main_v2 : StableHlo.TRef sig ⟨S262144x64, .f32⟩).ofBuf (Val := Elt F) u = u := rfl
private theorem ofBuf_arg4 {F : FTy → Type} [FloatOps F] (u : IVec S2097152 32) :
    (.of main_arg4 : StableHlo.TRef sig ⟨S2097152, .i32⟩).ofBuf (Val := Elt F) u = u := rfl

/-- The take's result from any contents `V`. -/
theorem take_result {F : FTy → Type} [FloatOps F] (V : Valuation τ sig (Elt F)) :
    StableHlo.after (hostOps2 (F := F)) V (Proc.devRef .tc main_v4)
      = takeOf (V (Proc.devRef .tc main_v2)) (V (Proc.devRef .tc main_arg4)) := by
  rw [take_result_typed V, toBuf_v4, ofBuf_v2, ofBuf_arg4]

/-- The take writes neither region 1's output nor argument 3. -/
theorem take_keeps_v3 {F : FTy → Type} [FloatOps F] (V : Valuation τ sig (Elt F)) :
    StableHlo.after (hostOps2 (F := F)) V (Proc.devRef .tc main_v3) = V (Proc.devRef .tc main_v3) := by
  after_results_simp
theorem take_keeps_arg3 {F : FTy → Type} [FloatOps F] (V : Valuation τ sig (Elt F)) :
    StableHlo.after (hostOps2 (F := F)) V (Proc.devRef .tc main_arg3) = V (Proc.devRef .tc main_arg3) := by
  after_results_simp

/-- The aggregate from any contents `V`: the scatter-add into zeros, by argument 3 as a column, of the entrywise
    product of the take's result and region 1's output. -/
theorem agg_result {F : FTy → Type} [FloatOps F] (V : Valuation τ sig (Elt F)) :
    StableHlo.after (hostOps2_1 (F := F)) V (Proc.devRef .tc main_v8)
      = Host.scatterAdd (F := F) scatter_S262144x64_S2097152x1_S2097152x64_1_0_0_1
          (broadcastInDim S262144x64 ![] bcast_S_S262144x64 (constant (F := F) S_ .f32 0x00000000#32))
          (broadcastInDim S2097152x1 ![0] bcast_S2097152_S2097152x1_0 (V (Proc.devRef .tc main_arg3)))
          (mulf (V (Proc.devRef .tc main_v4)) (V (Proc.devRef .tc main_v3))) := by
  after_results

/-! ## Under the precondition the take is the gather -/

/-- Under the precondition every row number lies in `[0, 262144)`: the wrap passes the index on. -/
private theorem takeIdx_range (x4 : IVec S2097152 32) (hr : Cert.PreFacts.InRange x4) (i : S2097152x1.Idx) :
    0 ≤ (takeIdx x4 i).toInt ∧ (takeIdx x4 i).toInt < 262144 := by
  have hw : select (cmpi .slt x4 (broadcastInDim S2097152 ![] bcast_S_S2097152 (constantI S_ 32 0#32)))
      (addi x4 (broadcastInDim S2097152 ![] bcast_S_S2097152 (constantI S_ 32 262144#32))) x4 = x4 :=
    wrap_eq x4 (broadcastInDim S2097152 ![] bcast_S_S2097152 (constantI S_ 32 0#32))
      (broadcastInDim S2097152 ![] bcast_S_S2097152 (constantI S_ 32 262144#32)) (fun _ => rfl) (fun k => (hr k).1)
  refine bcast_forall bcast_S2097152_S2097152x1_0 _ (fun w : BitVec 32 => 0 ≤ w.toInt ∧ w.toInt < 262144) (fun k => ?_) i
  rw [hw]
  exact hr k

/-- Under the precondition the take of `T` is the gather of `T`'s rows at the row numbers. -/
private theorem takeOf_eq_gather (T : FVec Ideal S262144x64 .f32) (x4 : IVec S2097152 32) (hr : Cert.PreFacts.InRange x4) :
    takeOf T x4 = Host.gather gather_S262144x64_S2097152x1_S2097152x64_1_0_n_n_0_1_164 T (takeIdx x4) :=
  select_of_all_one _ _ _ fun j => bcast_all bcast_S2097152_S2097152x64_0 _ _
    (range_test_one (n := 2097152) (takeIdx x4) _ _ _ reducesTo_S2097152x1_S2097152_d1 h_S_ (fun _ => rfl) (fun _ => rfl) rfl
      (takeIdx_range x4 hr)) j

/-! ## The aggregate -/

/-- Region 2's aggregated input is the reference's scatter-add stage. -/
theorem agg_value (c : Dev nD)
    (hA : W3 m ρ c (Proc.devRef .tc main_v2) = Cert.ReferenceIdeal.Stages.val_main_v9 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)))
    (hS : W3 m ρ c (Proc.devRef .tc main_v3) = Cert.ReferenceIdeal.Stages.val_main_v18 (F := Ideal) (m ((c.tc : Thread nD τ).loc main_arg2)) (m ((c.tc : Thread nD τ).loc main_arg9)) (m ((c.tc : Thread nD τ).loc main_arg10)))
    (hr : Cert.PreFacts.InRange (m ((c.tc : Thread nD τ).loc main_arg4))) :
    W5 m ρ c (Proc.devRef .tc main_v8) = Cert.ReferenceIdeal.Stages.val_main_v22 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  -- the take writes neither argument 3 nor region 1's output
  have e3 : W4 m ρ c (Proc.devRef .tc main_arg3) = m ((c.tc : Thread nD τ).loc main_arg3) :=
    (take_keeps_arg3 (W3 m ρ c)).trans (w3_arg3 m ρ c)
  have eS : W4 m ρ c (Proc.devRef .tc main_v3) = _ := (take_keeps_v3 (W3 m ρ c)).trans hS
  -- the take's result is, under the precondition, the reference's gather of region 0's output
  have e4 : W4 m ρ c (Proc.devRef .tc main_v4)
      = Cert.ReferenceIdeal.Stages.val_main_v16 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) := by
    refine (take_result (W3 m ρ c)).trans ?_
    rw [w3_arg4 m ρ c, hA]
    exact (takeOf_eq_gather _ _ hr).trans rfl
  -- the same scatter-add of equal operands
  refine (agg_result (W4 m ρ c)).trans ?_
  rw [e3, eS, e4]
  rfl

end Cert.KernelIdeal.Gen

end
-- ==== Proof.Region2Chain.lean ====
/-
  The node update of the message-passing block on whole arrays, and the same operations on a block of rows.

  The reference computes, from the aggregated messages `A` and the edge features `X`:
  `m₀ = swish (X W_ji + b_ji) + swish (A W_up)`; one residual layer `m ↦ m + swish (swish (m W₁ + b₁) W₂ + b₂)`;
  `m₂ = swish (m₁ W_f + b_f) + X`; two more residual layers. Here `swish x = x · (1 / (1 + exp (-x)))`. Every
  operation acts row by row, so the same operations applied to selected rows of `A` and `X` give the selected
  rows of the result.
-/
import proofs.«400527_j63531156242866_3_alg».proof.Proof.RowOps
import proofs.«400527_j63531156242866_3_alg».proof.Proof.RefRead

noncomputable section

namespace Cert.NodeUpdate

open Idealize.ShloMosaic Idealize.ShloMosaic.ValueIdx
open Cert.Rows Cert.Lib
open Cert.ReferenceIdeal Cert.ReferenceIdeal.Gen

/-! ## On whole arrays, as the reference writes them -/

/-- `x · (1 / (1 + exp (-x)))`, entry by entry. -/
def swish (X : FVec Ideal S262144x128 .f32) : FVec Ideal S262144x128 .f32 :=
  mulf (F := Ideal) (φ := .f32) X
    (Host.divf (F := Ideal) (φ := .f32) (broadcastInDim S262144x128 ![] bcast_S_S262144x128 (constant (F := Ideal) S_ .f32 0x3F800000#32))
      (addf (F := Ideal) (φ := .f32) (broadcastInDim S262144x128 ![] bcast_S_S262144x128 (constant (F := Ideal) S_ .f32 0x3F800000#32))
        (Host.exp (F := Ideal) (φ := .f32) (Host.negf (F := Ideal) (φ := .f32) X))))

/-- `X W + b`, the row vector `b` added to every row. -/
def affine (X : FVec Ideal S262144x128 .f32) (W : FVec Ideal S128x128 .f32) (b : FVec Ideal S128 .f32) : FVec Ideal S262144x128 .f32 :=
  addf (F := Ideal) (φ := .f32) (Host.dotGeneral (F := Ideal) (φ₁ := .f32) (φ₂ := .f32) dot_S262144x128_S128x128_S262144x128_1_0_0_1_n_n none X W)
    (broadcastInDim S262144x128 ![0, 1] bcast_S1x128_S262144x128_0_1 (broadcastInDim S1x128 ![1] bcast_S128_S1x128_1 b))

/-- `swish (X W + b)`. -/
def dense (X : FVec Ideal S262144x128 .f32) (W : FVec Ideal S128x128 .f32) (b : FVec Ideal S128 .f32) : FVec Ideal S262144x128 .f32 :=
  swish (affine X W b)

/-- `swish (A W)`, the up-projection from width 64. -/
def up (A : FVec Ideal S262144x64 .f32) (W : FVec Ideal S64x128 .f32) : FVec Ideal S262144x128 .f32 :=
  swish (Host.dotGeneral (F := Ideal) (φ₁ := .f32) (φ₂ := .f32) dot_S262144x64_S64x128_S262144x128_1_0_0_1_n_n none A W)

/-- One residual layer: `m + swish (swish (m W₁ + b₁) W₂ + b₂)`. -/
def resid (M : FVec Ideal S262144x128 .f32) (W₁ : FVec Ideal S128x128 .f32) (b₁ : FVec Ideal S128 .f32) (W₂ : FVec Ideal S128x128 .f32) (b₂ : FVec Ideal S128 .f32) : FVec Ideal S262144x128 .f32 :=
  addf (F := Ideal) (φ := .f32) M (dense (dense M W₁ b₁) W₂ b₂)

/-- The message before the residual layers: `swish (X W_ji + b_ji) + swish (A W_up)`. -/
def merged (A : FVec Ideal S262144x64 .f32) (X : FVec Ideal S262144x128 .f32) (Wup : FVec Ideal S64x128 .f32) (Wji : FVec Ideal S128x128 .f32) (bji : FVec Ideal S128 .f32) : FVec Ideal S262144x128 .f32 :=
  addf (F := Ideal) (φ := .f32) (dense X Wji bji) (up A Wup)

/-- The final dense layer with the skip connection: `swish (M W_f + b_f) + X`. -/
def skip (M X : FVec Ideal S262144x128 .f32) (Wf : FVec Ideal S128x128 .f32) (bf : FVec Ideal S128 .f32) : FVec Ideal S262144x128 .f32 :=
  addf (F := Ideal) (φ := .f32) (dense M Wf bf) X

/-! ## On a block of rows -/

variable {M' : Nat} (s : Fin M' → Fin 262144)

/-- `x · logistic x` of selected rows is the selected rows of `swish`. -/
theorem swish_rowsel (X : FVec Ideal S262144x128 .f32) :
    mulf (F := Ideal) (φ := .f32) (rowsel s X) (logistic (F := Ideal) (φ := .f32) (rowsel s X)) = rowsel s (swish X) := by
  unfold swish
  rw [logistic_rowsel s X bcast_S_S262144x128 bcast_S_S262144x128, mulf_rowsel]

/-- A product of selected rows with `W`, accumulated into the zero splat, plus the row vector `b` cast to one row and
    broadcast over the block's rows, is the selected rows of `X W + b`. -/
theorem affine_rowsel {dK : DotDims ⟨2, ![M', 128]⟩ ⟨2, ![128, 128]⟩ ⟨2, ![M', 128]⟩} (hK : PlainDot dK)
    (X : FVec Ideal S262144x128 .f32) (W : FVec Ideal S128x128 .f32) (b : FVec Ideal S128 .f32)
    (hc : (⟨1, ![128]⟩ : Shape).ShapeCasts ⟨2, ![1, 128]⟩) (hb : (⟨2, ![1, 128]⟩ : Shape).Broadcasts ⟨2, ![M', 128]⟩) :
    addf (F := Ideal) (φ := .f32)
        (FloatOps.matmul (F := Ideal) (φ₁ := .bf16) (φ₂ := .bf16) dK none (rowsel s X) W (constant ⟨2, ![M', 128]⟩ .f32 0x00000000#32))
        (broadcastTo ⟨2, ![M', 128]⟩ (shapeCast ⟨2, ![1, 128]⟩ b hc) hb)
      = rowsel s (affine X W b) := by
  unfold affine
  rw [matmul_rowsel hK (dR := dot_S262144x128_S128x128_S262144x128_1_0_0_1_n_n) ⟨rfl, rfl, rfl, rfl, rfl, rfl⟩ none none .single s X W,
    bias_rowsel s b hc hb bcast_S128_S1x128_1 bcast_S1x128_S262144x128_0_1, addf_rowsel]

/-- The up-projection of selected rows: a product with the `[64, 128]` factor, then `swish`. -/
theorem up_rowsel {dK : DotDims ⟨2, ![M', 64]⟩ ⟨2, ![64, 128]⟩ ⟨2, ![M', 128]⟩} (hK : PlainDot dK)
    (A : FVec Ideal S262144x64 .f32) (W : FVec Ideal S64x128 .f32) :
    mulf (F := Ideal) (φ := .f32)
        (FloatOps.matmul (F := Ideal) (φ₁ := .bf16) (φ₂ := .bf16) dK none (rowsel s A) W (constant ⟨2, ![M', 128]⟩ .f32 0x00000000#32))
        (logistic (F := Ideal) (φ := .f32)
          (FloatOps.matmul (F := Ideal) (φ₁ := .bf16) (φ₂ := .bf16) dK none (rowsel s A) W (constant ⟨2, ![M', 128]⟩ .f32 0x00000000#32)))
      = rowsel s (up A W) := by
  unfold up
  rw [matmul_rowsel hK (dR := dot_S262144x64_S64x128_S262144x128_1_0_0_1_n_n) ⟨rfl, rfl, rfl, rfl, rfl, rfl⟩ none none .single s A W,
    swish_rowsel]

/-- A dense layer on selected rows: `h · logistic h` with `h` the product plus the broadcast bias. -/
theorem dense_rowsel {dK : DotDims ⟨2, ![M', 128]⟩ ⟨2, ![128, 128]⟩ ⟨2, ![M', 128]⟩} (hK : PlainDot dK)
    (X : FVec Ideal S262144x128 .f32) (W : FVec Ideal S128x128 .f32) (b : FVec Ideal S128 .f32)
    (hc : (⟨1, ![128]⟩ : Shape).ShapeCasts ⟨2, ![1, 128]⟩) (hb : (⟨2, ![1, 128]⟩ : Shape).Broadcasts ⟨2, ![M', 128]⟩) :
    mulf (F := Ideal) (φ := .f32)
        (addf (F := Ideal) (φ := .f32)
          (FloatOps.matmul (F := Ideal) (φ₁ := .bf16) (φ₂ := .bf16) dK none (rowsel s X) W (constant ⟨2, ![M', 128]⟩ .f32 0x00000000#32))
          (broadcastTo ⟨2, ![M', 128]⟩ (shapeCast ⟨2, ![1, 128]⟩ b hc) hb))
        (logistic (F := Ideal) (φ := .f32)
          (addf (F := Ideal) (φ := .f32)
            (FloatOps.matmul (F := Ideal) (φ₁ := .bf16) (φ₂ := .bf16) dK none (rowsel s X) W (constant ⟨2, ![M', 128]⟩ .f32 0x00000000#32))
            (broadcastTo ⟨2, ![M', 128]⟩ (shapeCast ⟨2, ![1, 128]⟩ b hc) hb)))
      = rowsel s (dense X W b) := by
  unfold dense
  rw [affine_rowsel s hK X W b hc hb, swish_rowsel]

/-! ## The reference's stages are these operations

Each is the stage's definition unfolded: the reference applies the same host operations in the same order. -/

section Stages

open Cert.ReferenceIdeal.Stages

variable (x0 : (⟨S262144x128, .f32⟩ : BufTy).Contents (Elt Ideal)) (x1 : (⟨S262144x6, .f32⟩ : BufTy).Contents (Elt Ideal)) (x2 : (⟨S2097152x42, .f32⟩ : BufTy).Contents (Elt Ideal)) (x3 x4 : (⟨S2097152, .i32⟩ : BufTy).Contents (Elt Ideal)) (x5 : (⟨S128x128, .f32⟩ : BufTy).Contents (Elt Ideal)) (x6 : (⟨S128, .f32⟩ : BufTy).Contents (Elt Ideal)) (x7 : (⟨S6x8, .f32⟩ : BufTy).Contents (Elt Ideal)) (x8 : (⟨S8x128, .f32⟩ : BufTy).Contents (Elt Ideal)) (x9 : (⟨S42x8, .f32⟩ : BufTy).Contents (Elt Ideal)) (x10 : (⟨S8x64, .f32⟩ : BufTy).Contents (Elt Ideal)) (x11 : (⟨S128x64, .f32⟩ : BufTy).Contents (Elt Ideal)) (x12 : (⟨S64x128, .f32⟩ : BufTy).Contents (Elt Ideal)) (x13 : (⟨S128x128, .f32⟩ : BufTy).Contents (Elt Ideal)) (x14 : (⟨S128, .f32⟩ : BufTy).Contents (Elt Ideal)) (x15 : (⟨S1x2x128x128, .f32⟩ : BufTy).Contents (Elt Ideal)) (x16 : (⟨S1x2x128, .f32⟩ : BufTy).Contents (Elt Ideal)) (x17 : (⟨S128x128, .f32⟩ : BufTy).Contents (Elt Ideal)) (x18 : (⟨S128, .f32⟩ : BufTy).Contents (Elt Ideal)) (x19 : (⟨S2x2x128x128, .f32⟩ : BufTy).Contents (Elt Ideal)) (x20 : (⟨S2x2x128, .f32⟩ : BufTy).Contents (Elt Ideal))

/-- The recomputed edge layer: stage 29 is `swish (x₀ W_ji + b_ji)`. -/
theorem dense_ji : dense x0 x13 x14 = val_main_v29 (F := Ideal) x0 x13 x14 := rfl

/-- The up-projected aggregate: stage 24 is `swish (A W_up)` of stage 22. -/
theorem up_agg : up (val_main_v22 (F := Ideal) x0 x1 x2 x3 x4 x5 x6 x7 x8 x9 x10 x11) x12 = val_main_v24 (F := Ideal) x0 x1 x2 x3 x4 x5 x6 x7 x8 x9 x10 x11 x12 := rfl

/-- Stage 30 is their sum. -/
theorem merged_stage : merged (val_main_v22 (F := Ideal) x0 x1 x2 x3 x4 x5 x6 x7 x8 x9 x10 x11) x0 x12 x13 x14 = val_main_v30 (F := Ideal) x0 x1 x2 x3 x4 x5 x6 x7 x8 x9 x10 x11 x12 x13 x14 := rfl

/-- Stage 51 is the residual layer before the skip, with the weights the slices of arguments 15 and 16. -/
theorem resid_before : resid (val_main_v30 (F := Ideal) x0 x1 x2 x3 x4 x5 x6 x7 x8 x9 x10 x11 x12 x13 x14) (val_main_v34 (F := Ideal) x15) (val_main_v37 (F := Ideal) x16) (val_main_v43 (F := Ideal) x15) (val_main_v46 (F := Ideal) x16)
    = val_main_v51 (F := Ideal) x0 x1 x2 x3 x4 x5 x6 x7 x8 x9 x10 x11 x12 x13 x14 x15 x16 := rfl

/-- Stage 57 is the final dense layer plus the skip connection. -/
theorem skip_stage : skip (val_main_v51 (F := Ideal) x0 x1 x2 x3 x4 x5 x6 x7 x8 x9 x10 x11 x12 x13 x14 x15 x16) x0 x17 x18 = val_main_v57 (F := Ideal) x0 x1 x2 x3 x4 x5 x6 x7 x8 x9 x10 x11 x12 x13 x14 x15 x16 x17 x18 := rfl

/-- Stage 80 is the first residual layer after the skip. -/
theorem resid_after₁ : resid (val_main_v57 (F := Ideal) x0 x1 x2 x3 x4 x5 x6 x7 x8 x9 x10 x11 x12 x13 x14 x15 x16 x17 x18) (val_main_v63 (F := Ideal) x19) (val_main_v66 (F := Ideal) x20) (val_main_v72 (F := Ideal) x19) (val_main_v75 (F := Ideal) x20)
    = val_main_v80 (F := Ideal) x0 x1 x2 x3 x4 x5 x6 x7 x8 x9 x10 x11 x12 x13 x14 x15 x16 x17 x18 x19 x20 := rfl

/-- Stage 103, the result, is the second. -/
theorem resid_after₂ : resid (val_main_v80 (F := Ideal) x0 x1 x2 x3 x4 x5 x6 x7 x8 x9 x10 x11 x12 x13 x14 x15 x16 x17 x18 x19 x20) (val_main_v86 (F := Ideal) x19) (val_main_v89 (F := Ideal) x20) (val_main_v95 (F := Ideal) x19) (val_main_v98 (F := Ideal) x20)
    = val_main_v103 (F := Ideal) x0 x1 x2 x3 x4 x5 x6 x7 x8 x9 x10 x11 x12 x13 x14 x15 x16 x17 x18 x19 x20 := rfl

end Stages

end Cert.NodeUpdate

end
-- ==== Proof.Region2Pay.lean ====
/-
  Region 2's body on a block of rows.

  The body applies the node update's operations to the rows it sees of the aggregated messages and of argument 0,
  with the whole weight arrays; each residual layer's weights are one row of a stacked array, loaded through a unit
  rectangle and cast to a matrix or a vector. So what it stores is the selected rows of the node update of the whole
  arrays.
-/
import proofs.«400527_j63531156242866_3_alg».proof.Proof.Gen.KernelIdeal.Frame
import proofs.«400527_j63531156242866_3_alg».proof.Proof.Region2Chain

set_option maxRecDepth 16384

noncomputable section

namespace Cert.KernelIdeal.Gen

open Idealize.ShloMosaic Idealize.ShloMosaic.TcCoe Idealize.ShloMosaic.ValueIdx
open Cert.Rows Cert.Lib Cert.NodeUpdate

/-- The node update of the whole arrays as region 2 finds them: the aggregate `AGG`, argument 0 `X0`, the
    up-projection `x2`, the edge layer `x3`, `x4`, the stacked weights of the residual layer before the skip `x5`,
    `x6`, the final layer `x7`, `x8`, the stacked weights of the two residual layers after it `x9`, `x10`. -/
def T2 (AGG : Vec Ideal S262144x64 .f32) (X0 : Vec Ideal S262144x128 .f32) (x2 : Vec Ideal S64x128 .f32) (x3 : Vec Ideal S128x128 .f32) (x4 : Vec Ideal S128 .f32)
    (x5 : Vec Ideal S2x128x128 .f32) (x6 : Vec Ideal S2x128 .f32) (x7 : Vec Ideal S128x128 .f32) (x8 : Vec Ideal S128 .f32)
    (x9 : Vec Ideal S4x128x128 .f32) (x10 : Vec Ideal S4x128 .f32) : Vec Ideal S262144x128 .f32 :=
  resid
    (resid
      (skip
        (resid (merged AGG X0 x2 x3 x4)
          (shapeCast S128x128 (View.ld x5 r2_5) shapeCasts_S1x128x128_S128x128) (shapeCast S128 (View.ld x6 r2_6) shapeCasts_S1x128_S128)
          (shapeCast S128x128 (View.ld x5 r2_7) shapeCasts_S1x128x128_S128x128) (shapeCast S128 (View.ld x6 r2_8) shapeCasts_S1x128_S128))
        X0 x7 x8)
      (shapeCast S128x128 (View.ld x9 r2_9) shapeCasts_S1x128x128_S128x128) (shapeCast S128 (View.ld x10 r2_10) shapeCasts_S1x128_S128)
      (shapeCast S128x128 (View.ld x9 r2_11) shapeCasts_S1x128x128_S128x128) (shapeCast S128 (View.ld x10 r2_12) shapeCasts_S1x128_S128))
    (shapeCast S128x128 (View.ld x9 r2_13) shapeCasts_S1x128x128_S128x128) (shapeCast S128 (View.ld x10 r2_14) shapeCasts_S1x128_S128)
    (shapeCast S128x128 (View.ld x9 r2_15) shapeCasts_S1x128x128_S128x128) (shapeCast S128 (View.ld x10 r2_16) shapeCasts_S1x128_S128)

variable (s : Fin 4096 → Fin 262144)

/-- The zero offsets of the rectangles through which the body loads and stores whole buffers. -/
private theorem zero₂ : (![0, 0] : Fin 2 → Nat) = fun _ => 0 := funext fun a => by fin_cases a <;> rfl
private theorem zero₁ : (![0] : Fin 1 → Nat) = fun _ => 0 := funext fun a => by fin_cases a <;> rfl

/-- The edge layer plus the up-projected aggregate, on a block of rows. -/
theorem pay2_rowsel (A : Vec Ideal S262144x64 .f32) (X : Vec Ideal S262144x128 .f32) (Wup : Vec Ideal S64x128 .f32) (Wji : Vec Ideal S128x128 .f32) (bji : Vec Ideal S128 .f32) :
    k2_pay2 (F := Ideal) (rowsel s A) Wup (rowsel s X) Wji bji = rowsel s (merged A X Wup Wji bji) := by
  unfold k2_pay2 merged
  simp only [truncf_eq, shapeCast_self]
  rw [dense_rowsel s (dK := dot_S4096x128_S128x128_S4096x128_1_0_0_1_n_n) ⟨rfl, rfl, rfl, rfl, rfl, rfl⟩ X Wji bji,
    up_rowsel s (dK := dot_S4096x64_S64x128_S4096x128_1_0_0_1_n_n) ⟨rfl, rfl, rfl, rfl, rfl, rfl⟩ A Wup, addf_rowsel]

/-- The first dense layer of the residual layer before the skip, on a block of rows. -/
theorem pay5_rowsel (A : Vec Ideal S262144x64 .f32) (X : Vec Ideal S262144x128 .f32) (Wup : Vec Ideal S64x128 .f32) (Wji : Vec Ideal S128x128 .f32) (bji : Vec Ideal S128 .f32)
    (w : Vec Ideal S1x128x128 .f32) (b : Vec Ideal S1x128 .f32) :
    k2_pay5 (F := Ideal) (rowsel s A) Wup (rowsel s X) Wji bji w b
      = rowsel s (dense (merged A X Wup Wji bji) (shapeCast S128x128 w shapeCasts_S1x128x128_S128x128) (shapeCast S128 b shapeCasts_S1x128_S128)) := by
  unfold k2_pay5
  simp only [truncf_eq]
  rw [pay2_rowsel, dense_rowsel s (dK := dot_S4096x128_S128x128_S4096x128_1_0_0_1_n_n) ⟨rfl, rfl, rfl, rfl, rfl, rfl⟩]

/-- The second dense layer of that residual layer, its sum, the final dense layer and the skip, on a block of rows. -/
theorem pay6_rowsel (X M H : Vec Ideal S262144x128 .f32) (W₂ : FVec Ideal S128x128 .bf16) (b₂ : FVec Ideal S128 .f32) (Wf : Vec Ideal S128x128 .f32) (bf : Vec Ideal S128 .f32) :
    k2_pay6 (F := Ideal) (rowsel s X) (rowsel s M) W₂ b₂ (rowsel s H) Wf bf
      = rowsel s (skip (addf (F := Ideal) (φ := .f32) M (dense H W₂ b₂)) X Wf bf) := by
  unfold k2_pay6 skip
  simp only [truncf_eq]
  rw [dense_rowsel s (dK := dot_S4096x128_S128x128_S4096x128_1_0_0_1_n_n) ⟨rfl, rfl, rfl, rfl, rfl, rfl⟩ H W₂ b₂, addf_rowsel,
    dense_rowsel s (dK := dot_S4096x128_S128x128_S4096x128_1_0_0_1_n_n) ⟨rfl, rfl, rfl, rfl, rfl, rfl⟩ _ Wf bf, addf_rowsel]

/-- The two dense layers of the first residual layer after the skip, on a block of rows. -/
theorem pay7_rowsel (X M H : Vec Ideal S262144x128 .f32) (W₂ : FVec Ideal S128x128 .bf16) (b₂ : FVec Ideal S128 .f32) (Wf : Vec Ideal S128x128 .f32) (bf : Vec Ideal S128 .f32)
    (w₃ : Vec Ideal S1x128x128 .f32) (b₃ : Vec Ideal S1x128 .f32) (w₄ : Vec Ideal S1x128x128 .f32) (b₄ : Vec Ideal S1x128 .f32) :
    k2_pay7 (F := Ideal) (rowsel s X) (rowsel s M) W₂ b₂ (rowsel s H) Wf bf w₃ b₃ w₄ b₄
      = rowsel s (dense (dense (skip (addf (F := Ideal) (φ := .f32) M (dense H W₂ b₂)) X Wf bf)
          (shapeCast S128x128 w₃ shapeCasts_S1x128x128_S128x128) (shapeCast S128 b₃ shapeCasts_S1x128_S128))
          (shapeCast S128x128 w₄ shapeCasts_S1x128x128_S128x128) (shapeCast S128 b₄ shapeCasts_S1x128_S128)) := by
  unfold k2_pay7
  simp only [truncf_eq]
  rw [pay6_rowsel, dense_rowsel s (dK := dot_S4096x128_S128x128_S4096x128_1_0_0_1_n_n) ⟨rfl, rfl, rfl, rfl, rfl, rfl⟩,
    dense_rowsel s (dK := dot_S4096x128_S128x128_S4096x128_1_0_0_1_n_n) ⟨rfl, rfl, rfl, rfl, rfl, rfl⟩]

/-- The first residual layer's sum and the whole second residual layer after the skip, on a block of rows. -/
theorem pay1_rowsel (M H : Vec Ideal S262144x128 .f32)
    (w₅ : Vec Ideal S1x128x128 .f32) (b₅ : Vec Ideal S1x128 .f32) (w₆ : Vec Ideal S1x128x128 .f32) (b₆ : Vec Ideal S1x128 .f32) :
    k2_pay1 (F := Ideal) (rowsel s M) (rowsel s H) w₅ b₅ w₆ b₆
      = rowsel s (resid (addf (F := Ideal) (φ := .f32) M H)
          (shapeCast S128x128 w₅ shapeCasts_S1x128x128_S128x128) (shapeCast S128 b₅ shapeCasts_S1x128_S128)
          (shapeCast S128x128 w₆ shapeCasts_S1x128x128_S128x128) (shapeCast S128 b₆ shapeCasts_S1x128_S128)) := by
  unfold k2_pay1 resid
  simp only [truncf_eq]
  rw [addf_rowsel, dense_rowsel s (dK := dot_S4096x128_S128x128_S4096x128_1_0_0_1_n_n) ⟨rfl, rfl, rfl, rfl, rfl, rfl⟩,
    dense_rowsel s (dK := dot_S4096x128_S128x128_S4096x128_1_0_0_1_n_n) ⟨rfl, rfl, rfl, rfl, rfl, rfl⟩, addf_rowsel]

/-- What the body leaves in the output window's buffer, from selected rows of the two tiled inputs and the whole weight
    arrays, is the selected rows of the node update of the whole arrays. -/
theorem out2_rowsel (s : Fin 4096 → Fin 262144) (AGG : Vec Ideal S262144x64 .f32) (X0 : Vec Ideal S262144x128 .f32) (x2 : Vec Ideal S64x128 .f32) (x3 : Vec Ideal S128x128 .f32) (x4 : Vec Ideal S128 .f32)
    (x5 : Vec Ideal S2x128x128 .f32) (x6 : Vec Ideal S2x128 .f32) (x7 : Vec Ideal S128x128 .f32) (x8 : Vec Ideal S128 .f32)
    (x9 : Vec Ideal S4x128x128 .f32) (x10 : Vec Ideal S4x128 .f32) :
    out2_11 (F := Ideal) (rowsel s AGG) (rowsel s X0) x2 x3 x4 x5 x6 x7 x8 x9 x10 = rowsel s (T2 AGG X0 x2 x3 x4 x5 x6 x7 x8 x9 x10) := by
  unfold out2_11
  rw [View.canon_unit_zero zero₂]
  simp only [View.ld_unit_zero (S := S4096x64) zero₂, View.ld_unit_zero (S := S4096x128) zero₂, View.ld_unit_zero (S := S64x128) zero₂,
    View.ld_unit_zero (S := S128x128) zero₂, View.ld_unit_zero (S := S128) zero₁]
  unfold k2_pay3 k2_pay4
  simp only [truncf_eq]
  rw [pay2_rowsel, pay5_rowsel, pay6_rowsel, pay7_rowsel, pay1_rowsel]
  rfl

end Cert.KernelIdeal.Gen

end
-- ==== Proof.Region2W.lean ====
/-
  Region 2's weights: each row of a stacked weight array, read by the body and by the reference.

  The body reads row `j` of a stack of matrices `[n, 128, 128]` (of vectors `[n, 128]`) through the rectangle with
  offsets `(j, 0, 0)` and sizes `(1, 128, 128)` and drops the leading unit axis; the reference slices the same row out
  of the same stack and reshapes it. As functions of the index both are the argument at the literal coordinates
  `(j / 2, j % 2, a, b)` (`(0, j, a, b)` for the arguments with a leading unit axis), so they are equal.
-/
import proofs.«400527_j63531156242866_3_alg».proof.Proof.Entry

set_option maxRecDepth 16384

noncomputable section

namespace Cert.KernelIdeal.Gen

open Idealize.ShloMosaic Idealize.ShloMosaic.TcCoe Idealize.ShloMosaic.ValueIdx

/-- Row 0 of the stacked `[2, 128, 128]` weights of argument 15, as a matrix. -/
theorem wb0 (x15 : FVec Ideal S1x2x128x128 .f32) :
    shapeCast S128x128 (View.ld (Cert.ReferenceIdeal.Stages.val_main_v31 (F := Ideal) x15) r2_5) shapeCasts_S1x128x128_S128x128
      = Cert.ReferenceIdeal.Stages.val_main_v34 (F := Ideal) x15 := by
  funext j
  obtain ⟨a, b, rfl⟩ : ∃ (a : Fin 128) (b : Fin 128), j = ix2 a b := ⟨j 0, j 1, eq_ix2 j⟩
  have ha : a.val < 128 := a.isLt
  have hb : b.val < 128 := b.isLt
  -- the body's side: the stack at (0, a, b); the reference's side: the stack at the same index
  rw [shapeCast_1ab_ab_apply, Cert.ReferenceIdeal.Stages.val_main_v34_apply, Cert.ReferenceIdeal.Stages.val_main_v33_apply]
  show Cert.ReferenceIdeal.Stages.val_main_v31 (F := Ideal) x15 (r2_5.idx (ix3 0 a b)) = _
  refine congrArg (Cert.ReferenceIdeal.Stages.val_main_v31 (F := Ideal) x15) (funext fun ax => Fin.ext ?_)
  match ax with
  | ⟨0, _⟩ => show (0 + 1 * 0 : ℕ) = 0; rfl
  | ⟨1, _⟩ => show 0 + 1 * a.val = (a.val * 128 + b.val) / 128 % 128; omega
  | ⟨2, _⟩ => show 0 + 1 * b.val = (a.val * 128 + b.val) % 128; omega

/-- Row 1 of the stacked `[2, 128, 128]` weights of argument 15, as a matrix. -/
theorem wb1 (x15 : FVec Ideal S1x2x128x128 .f32) :
    shapeCast S128x128 (View.ld (Cert.ReferenceIdeal.Stages.val_main_v31 (F := Ideal) x15) r2_7) shapeCasts_S1x128x128_S128x128
      = Cert.ReferenceIdeal.Stages.val_main_v43 (F := Ideal) x15 := by
  funext j
  obtain ⟨a, b, rfl⟩ : ∃ (a : Fin 128) (b : Fin 128), j = ix2 a b := ⟨j 0, j 1, eq_ix2 j⟩
  have ha : a.val < 128 := a.isLt
  have hb : b.val < 128 := b.isLt
  -- the body's side: the stack at (1, a, b); the reference's side: the stack at the same index
  rw [shapeCast_1ab_ab_apply, Cert.ReferenceIdeal.Stages.val_main_v43_apply, Cert.ReferenceIdeal.Stages.val_main_v42_apply]
  show Cert.ReferenceIdeal.Stages.val_main_v31 (F := Ideal) x15 (r2_7.idx (ix3 0 a b)) = _
  refine congrArg (Cert.ReferenceIdeal.Stages.val_main_v31 (F := Ideal) x15) (funext fun ax => Fin.ext ?_)
  match ax with
  | ⟨0, _⟩ => show (1 + 1 * 0 : ℕ) = 1 + 0; rfl
  | ⟨1, _⟩ => show 0 + 1 * a.val = (a.val * 128 + b.val) / 128 % 128; omega
  | ⟨2, _⟩ => show 0 + 1 * b.val = (a.val * 128 + b.val) % 128; omega

/-- Row 0 of the stacked `[2, 128]` biases of argument 16, as a vector. -/
theorem bb0 (x16 : FVec Ideal S1x2x128 .f32) :
    shapeCast S128 (View.ld (Cert.ReferenceIdeal.Stages.val_main_v32 (F := Ideal) x16) r2_6) shapeCasts_S1x128_S128
      = Cert.ReferenceIdeal.Stages.val_main_v37 (F := Ideal) x16 := by
  funext j
  obtain ⟨b, rfl⟩ : ∃ b : Fin 128, j = ix1 b := ⟨j 0, eq_ix1 j⟩
  have hb : b.val < 128 := b.isLt
  rw [shapeCast_1a_a_apply, Cert.ReferenceIdeal.Stages.val_main_v37_apply, Cert.ReferenceIdeal.Stages.val_main_v36_apply]
  show Cert.ReferenceIdeal.Stages.val_main_v32 (F := Ideal) x16 (r2_6.idx (ix2 (0 : Fin 1) b)) = _
  refine congrArg (Cert.ReferenceIdeal.Stages.val_main_v32 (F := Ideal) x16) (funext fun ax => Fin.ext ?_)
  match ax with
  | ⟨0, _⟩ => show (0 + 1 * 0 : ℕ) = 0; rfl
  | ⟨1, _⟩ => show 0 + 1 * b.val = b.val % 128; omega

/-- Row 1 of the stacked `[2, 128]` biases of argument 16, as a vector. -/
theorem bb1 (x16 : FVec Ideal S1x2x128 .f32) :
    shapeCast S128 (View.ld (Cert.ReferenceIdeal.Stages.val_main_v32 (F := Ideal) x16) r2_8) shapeCasts_S1x128_S128
      = Cert.ReferenceIdeal.Stages.val_main_v46 (F := Ideal) x16 := by
  funext j
  obtain ⟨b, rfl⟩ : ∃ b : Fin 128, j = ix1 b := ⟨j 0, eq_ix1 j⟩
  have hb : b.val < 128 := b.isLt
  rw [shapeCast_1a_a_apply, Cert.ReferenceIdeal.Stages.val_main_v46_apply, Cert.ReferenceIdeal.Stages.val_main_v45_apply]
  show Cert.ReferenceIdeal.Stages.val_main_v32 (F := Ideal) x16 (r2_8.idx (ix2 (0 : Fin 1) b)) = _
  refine congrArg (Cert.ReferenceIdeal.Stages.val_main_v32 (F := Ideal) x16) (funext fun ax => Fin.ext ?_)
  match ax with
  | ⟨0, _⟩ => show (1 + 1 * 0 : ℕ) = 1 + 0; rfl
  | ⟨1, _⟩ => show 0 + 1 * b.val = b.val % 128; omega

/-- Row 0 of argument 19 read as `[4, 128, 128]`: its entry `(0, 0)`, as a matrix. -/
theorem wa0 (x19 : FVec Ideal S2x2x128x128 .f32) :
    shapeCast S128x128 (View.ld (shapeCast S4x128x128 x19 shapeCasts_S2x2x128x128_S4x128x128) r2_9) shapeCasts_S1x128x128_S128x128
      = Cert.ReferenceIdeal.Stages.val_main_v63 (F := Ideal) x19 := by
  funext j
  obtain ⟨a, b, rfl⟩ : ∃ (a : Fin 128) (b : Fin 128), j = ix2 a b := ⟨j 0, j 1, eq_ix2 j⟩
  have ha : a.val < 128 := a.isLt
  have hb : b.val < 128 := b.isLt
  -- the body's side: row 0 of the argument read as [4, 128, 128] is its entry (0, 0)
  rw [shapeCast_1ab_ab_apply]
  show shapeCast S4x128x128 x19 shapeCasts_S2x2x128x128_S4x128x128 (r2_9.idx (ix3 0 a b)) = _
  refine (shapeCast_apply x19 shapeCasts_S2x2x128x128_S4x128x128 (r2_9.idx (ix3 0 a b))
    (ix4 (⟨0, by omega⟩ : Fin 2) (⟨0, by omega⟩ : Fin 2) a b) ?_).trans ?_
  · rw [Shape.rowMajor_val_four, Shape.rowMajor_val_three]
    show ((0 * 2 + 0) * 128 + a.val) * 128 + b.val = ((0 + 1 * 0) * 128 + (0 + 1 * a.val)) * 128 + (0 + 1 * b.val)
    omega
  -- the reference's side: the same entry, through its two slices and two reshapes
  rw [Cert.ReferenceIdeal.Stages.val_main_v63_apply, Cert.ReferenceIdeal.Stages.val_main_v62_apply, Cert.ReferenceIdeal.Stages.val_main_v59_apply, Cert.ReferenceIdeal.Stages.val_main_v58_apply]
  refine congrArg x19 (funext fun ax => Fin.ext ?_)
  match ax with
  | ⟨0, _⟩ => show (0 : ℕ) = 0; rfl
  | ⟨1, _⟩ => show (0 : ℕ) = (((0) * 128 + (a.val * 128 + b.val) / 128 % 128) * 128 + (a.val * 128 + b.val) % 128) / 16384 % 2; omega
  | ⟨2, _⟩ => show a.val = (((0) * 128 + (a.val * 128 + b.val) / 128 % 128) * 128 + (a.val * 128 + b.val) % 128) / 128 % 128; omega
  | ⟨3, _⟩ => show b.val = (((0) * 128 + (a.val * 128 + b.val) / 128 % 128) * 128 + (a.val * 128 + b.val) % 128) % 128; omega

/-- Row 1 of argument 19 read as `[4, 128, 128]`: its entry `(0, 1)`, as a matrix. -/
theorem wa1 (x19 : FVec Ideal S2x2x128x128 .f32) :
    shapeCast S128x128 (View.ld (shapeCast S4x128x128 x19 shapeCasts_S2x2x128x128_S4x128x128) r2_11) shapeCasts_S1x128x128_S128x128
      = Cert.ReferenceIdeal.Stages.val_main_v72 (F := Ideal) x19 := by
  funext j
  obtain ⟨a, b, rfl⟩ : ∃ (a : Fin 128) (b : Fin 128), j = ix2 a b := ⟨j 0, j 1, eq_ix2 j⟩
  have ha : a.val < 128 := a.isLt
  have hb : b.val < 128 := b.isLt
  -- the body's side: row 1 of the argument read as [4, 128, 128] is its entry (0, 1)
  rw [shapeCast_1ab_ab_apply]
  show shapeCast S4x128x128 x19 shapeCasts_S2x2x128x128_S4x128x128 (r2_11.idx (ix3 0 a b)) = _
  refine (shapeCast_apply x19 shapeCasts_S2x2x128x128_S4x128x128 (r2_11.idx (ix3 0 a b))
    (ix4 (⟨0, by omega⟩ : Fin 2) (⟨1, by omega⟩ : Fin 2) a b) ?_).trans ?_
  · rw [Shape.rowMajor_val_four, Shape.rowMajor_val_three]
    show ((0 * 2 + 1) * 128 + a.val) * 128 + b.val = ((1 + 1 * 0) * 128 + (0 + 1 * a.val)) * 128 + (0 + 1 * b.val)
    omega
  -- the reference's side: the same entry, through its two slices and two reshapes
  rw [Cert.ReferenceIdeal.Stages.val_main_v72_apply, Cert.ReferenceIdeal.Stages.val_main_v71_apply, Cert.ReferenceIdeal.Stages.val_main_v59_apply, Cert.ReferenceIdeal.Stages.val_main_v58_apply]
  refine congrArg x19 (funext fun ax => Fin.ext ?_)
  match ax with
  | ⟨0, _⟩ => show (0 : ℕ) = 0; rfl
  | ⟨1, _⟩ => show (1 : ℕ) = (((1 + 0) * 128 + (a.val * 128 + b.val) / 128 % 128) * 128 + (a.val * 128 + b.val) % 128) / 16384 % 2; omega
  | ⟨2, _⟩ => show a.val = (((1 + 0) * 128 + (a.val * 128 + b.val) / 128 % 128) * 128 + (a.val * 128 + b.val) % 128) / 128 % 128; omega
  | ⟨3, _⟩ => show b.val = (((1 + 0) * 128 + (a.val * 128 + b.val) / 128 % 128) * 128 + (a.val * 128 + b.val) % 128) % 128; omega

/-- Row 2 of argument 19 read as `[4, 128, 128]`: its entry `(1, 0)`, as a matrix. -/
theorem wa2 (x19 : FVec Ideal S2x2x128x128 .f32) :
    shapeCast S128x128 (View.ld (shapeCast S4x128x128 x19 shapeCasts_S2x2x128x128_S4x128x128) r2_13) shapeCasts_S1x128x128_S128x128
      = Cert.ReferenceIdeal.Stages.val_main_v86 (F := Ideal) x19 := by
  funext j
  obtain ⟨a, b, rfl⟩ : ∃ (a : Fin 128) (b : Fin 128), j = ix2 a b := ⟨j 0, j 1, eq_ix2 j⟩
  have ha : a.val < 128 := a.isLt
  have hb : b.val < 128 := b.isLt
  -- the body's side: row 2 of the argument read as [4, 128, 128] is its entry (1, 0)
  rw [shapeCast_1ab_ab_apply]
  show shapeCast S4x128x128 x19 shapeCasts_S2x2x128x128_S4x128x128 (r2_13.idx (ix3 0 a b)) = _
  refine (shapeCast_apply x19 shapeCasts_S2x2x128x128_S4x128x128 (r2_13.idx (ix3 0 a b))
    (ix4 (⟨1, by omega⟩ : Fin 2) (⟨0, by omega⟩ : Fin 2) a b) ?_).trans ?_
  · rw [Shape.rowMajor_val_four, Shape.rowMajor_val_three]
    show ((1 * 2 + 0) * 128 + a.val) * 128 + b.val = ((2 + 1 * 0) * 128 + (0 + 1 * a.val)) * 128 + (0 + 1 * b.val)
    omega
  -- the reference's side: the same entry, through its two slices and two reshapes
  rw [Cert.ReferenceIdeal.Stages.val_main_v86_apply, Cert.ReferenceIdeal.Stages.val_main_v85_apply, Cert.ReferenceIdeal.Stages.val_main_v82_apply, Cert.ReferenceIdeal.Stages.val_main_v81_apply]
  refine congrArg x19 (funext fun ax => Fin.ext ?_)
  match ax with
  | ⟨0, _⟩ => show (1 : ℕ) = 1 + 0; rfl
  | ⟨1, _⟩ => show (0 : ℕ) = (((0) * 128 + (a.val * 128 + b.val) / 128 % 128) * 128 + (a.val * 128 + b.val) % 128) / 16384 % 2; omega
  | ⟨2, _⟩ => show a.val = (((0) * 128 + (a.val * 128 + b.val) / 128 % 128) * 128 + (a.val * 128 + b.val) % 128) / 128 % 128; omega
  | ⟨3, _⟩ => show b.val = (((0) * 128 + (a.val * 128 + b.val) / 128 % 128) * 128 + (a.val * 128 + b.val) % 128) % 128; omega

/-- Row 3 of argument 19 read as `[4, 128, 128]`: its entry `(1, 1)`, as a matrix. -/
theorem wa3 (x19 : FVec Ideal S2x2x128x128 .f32) :
    shapeCast S128x128 (View.ld (shapeCast S4x128x128 x19 shapeCasts_S2x2x128x128_S4x128x128) r2_15) shapeCasts_S1x128x128_S128x128
      = Cert.ReferenceIdeal.Stages.val_main_v95 (F := Ideal) x19 := by
  funext j
  obtain ⟨a, b, rfl⟩ : ∃ (a : Fin 128) (b : Fin 128), j = ix2 a b := ⟨j 0, j 1, eq_ix2 j⟩
  have ha : a.val < 128 := a.isLt
  have hb : b.val < 128 := b.isLt
  -- the body's side: row 3 of the argument read as [4, 128, 128] is its entry (1, 1)
  rw [shapeCast_1ab_ab_apply]
  show shapeCast S4x128x128 x19 shapeCasts_S2x2x128x128_S4x128x128 (r2_15.idx (ix3 0 a b)) = _
  refine (shapeCast_apply x19 shapeCasts_S2x2x128x128_S4x128x128 (r2_15.idx (ix3 0 a b))
    (ix4 (⟨1, by omega⟩ : Fin 2) (⟨1, by omega⟩ : Fin 2) a b) ?_).trans ?_
  · rw [Shape.rowMajor_val_four, Shape.rowMajor_val_three]
    show ((1 * 2 + 1) * 128 + a.val) * 128 + b.val = ((3 + 1 * 0) * 128 + (0 + 1 * a.val)) * 128 + (0 + 1 * b.val)
    omega
  -- the reference's side: the same entry, through its two slices and two reshapes
  rw [Cert.ReferenceIdeal.Stages.val_main_v95_apply, Cert.ReferenceIdeal.Stages.val_main_v94_apply, Cert.ReferenceIdeal.Stages.val_main_v82_apply, Cert.ReferenceIdeal.Stages.val_main_v81_apply]
  refine congrArg x19 (funext fun ax => Fin.ext ?_)
  match ax with
  | ⟨0, _⟩ => show (1 : ℕ) = 1 + 0; rfl
  | ⟨1, _⟩ => show (1 : ℕ) = (((1 + 0) * 128 + (a.val * 128 + b.val) / 128 % 128) * 128 + (a.val * 128 + b.val) % 128) / 16384 % 2; omega
  | ⟨2, _⟩ => show a.val = (((1 + 0) * 128 + (a.val * 128 + b.val) / 128 % 128) * 128 + (a.val * 128 + b.val) % 128) / 128 % 128; omega
  | ⟨3, _⟩ => show b.val = (((1 + 0) * 128 + (a.val * 128 + b.val) / 128 % 128) * 128 + (a.val * 128 + b.val) % 128) % 128; omega

/-- Row 0 of argument 20 read as `[4, 128]`: its entry `(0, 0)`, as a vector. -/
theorem ba0 (x20 : FVec Ideal S2x2x128 .f32) :
    shapeCast S128 (View.ld (shapeCast S4x128 x20 shapeCasts_S2x2x128_S4x128) r2_10) shapeCasts_S1x128_S128
      = Cert.ReferenceIdeal.Stages.val_main_v66 (F := Ideal) x20 := by
  funext j
  obtain ⟨b, rfl⟩ : ∃ b : Fin 128, j = ix1 b := ⟨j 0, eq_ix1 j⟩
  have hb : b.val < 128 := b.isLt
  rw [shapeCast_1a_a_apply]
  show shapeCast S4x128 x20 shapeCasts_S2x2x128_S4x128 (r2_10.idx (ix2 (0 : Fin 1) b)) = _
  refine (shapeCast_apply x20 shapeCasts_S2x2x128_S4x128 (r2_10.idx (ix2 (0 : Fin 1) b))
    (ix3 (⟨0, by omega⟩ : Fin 2) (⟨0, by omega⟩ : Fin 2) b) ?_).trans ?_
  · rw [Shape.rowMajor_val_three, Shape.rowMajor_val_two]
    show (0 * 2 + 0) * 128 + b.val = (0 + 1 * 0) * 128 + (0 + 1 * b.val)
    omega
  rw [Cert.ReferenceIdeal.Stages.val_main_v66_apply, Cert.ReferenceIdeal.Stages.val_main_v65_apply, Cert.ReferenceIdeal.Stages.val_main_v61_apply, Cert.ReferenceIdeal.Stages.val_main_v60_apply]
  refine congrArg x20 (funext fun ax => Fin.ext ?_)
  match ax with
  | ⟨0, _⟩ => show (0 : ℕ) = 0; rfl
  | ⟨1, _⟩ => show (0 : ℕ) = ((0) * 128 + b.val % 128) / 128 % 2; omega
  | ⟨2, _⟩ => show b.val = ((0) * 128 + b.val % 128) % 128; omega

/-- Row 1 of argument 20 read as `[4, 128]`: its entry `(0, 1)`, as a vector. -/
theorem ba1 (x20 : FVec Ideal S2x2x128 .f32) :
    shapeCast S128 (View.ld (shapeCast S4x128 x20 shapeCasts_S2x2x128_S4x128) r2_12) shapeCasts_S1x128_S128
      = Cert.ReferenceIdeal.Stages.val_main_v75 (F := Ideal) x20 := by
  funext j
  obtain ⟨b, rfl⟩ : ∃ b : Fin 128, j = ix1 b := ⟨j 0, eq_ix1 j⟩
  have hb : b.val < 128 := b.isLt
  rw [shapeCast_1a_a_apply]
  show shapeCast S4x128 x20 shapeCasts_S2x2x128_S4x128 (r2_12.idx (ix2 (0 : Fin 1) b)) = _
  refine (shapeCast_apply x20 shapeCasts_S2x2x128_S4x128 (r2_12.idx (ix2 (0 : Fin 1) b))
    (ix3 (⟨0, by omega⟩ : Fin 2) (⟨1, by omega⟩ : Fin 2) b) ?_).trans ?_
  · rw [Shape.rowMajor_val_three, Shape.rowMajor_val_two]
    show (0 * 2 + 1) * 128 + b.val = (1 + 1 * 0) * 128 + (0 + 1 * b.val)
    omega
  rw [Cert.ReferenceIdeal.Stages.val_main_v75_apply, Cert.ReferenceIdeal.Stages.val_main_v74_apply, Cert.ReferenceIdeal.Stages.val_main_v61_apply, Cert.ReferenceIdeal.Stages.val_main_v60_apply]
  refine congrArg x20 (funext fun ax => Fin.ext ?_)
  match ax with
  | ⟨0, _⟩ => show (0 : ℕ) = 0; rfl
  | ⟨1, _⟩ => show (1 : ℕ) = ((1 + 0) * 128 + b.val % 128) / 128 % 2; omega
  | ⟨2, _⟩ => show b.val = ((1 + 0) * 128 + b.val % 128) % 128; omega

/-- Row 2 of argument 20 read as `[4, 128]`: its entry `(1, 0)`, as a vector. -/
theorem ba2 (x20 : FVec Ideal S2x2x128 .f32) :
    shapeCast S128 (View.ld (shapeCast S4x128 x20 shapeCasts_S2x2x128_S4x128) r2_14) shapeCasts_S1x128_S128
      = Cert.ReferenceIdeal.Stages.val_main_v89 (F := Ideal) x20 := by
  funext j
  obtain ⟨b, rfl⟩ : ∃ b : Fin 128, j = ix1 b := ⟨j 0, eq_ix1 j⟩
  have hb : b.val < 128 := b.isLt
  rw [shapeCast_1a_a_apply]
  show shapeCast S4x128 x20 shapeCasts_S2x2x128_S4x128 (r2_14.idx (ix2 (0 : Fin 1) b)) = _
  refine (shapeCast_apply x20 shapeCasts_S2x2x128_S4x128 (r2_14.idx (ix2 (0 : Fin 1) b))
    (ix3 (⟨1, by omega⟩ : Fin 2) (⟨0, by omega⟩ : Fin 2) b) ?_).trans ?_
  · rw [Shape.rowMajor_val_three, Shape.rowMajor_val_two]
    show (1 * 2 + 0) * 128 + b.val = (2 + 1 * 0) * 128 + (0 + 1 * b.val)
    omega
  rw [Cert.ReferenceIdeal.Stages.val_main_v89_apply, Cert.ReferenceIdeal.Stages.val_main_v88_apply, Cert.ReferenceIdeal.Stages.val_main_v84_apply, Cert.ReferenceIdeal.Stages.val_main_v83_apply]
  refine congrArg x20 (funext fun ax => Fin.ext ?_)
  match ax with
  | ⟨0, _⟩ => show (1 : ℕ) = 1 + 0; rfl
  | ⟨1, _⟩ => show (0 : ℕ) = ((0) * 128 + b.val % 128) / 128 % 2; omega
  | ⟨2, _⟩ => show b.val = ((0) * 128 + b.val % 128) % 128; omega

/-- Row 3 of argument 20 read as `[4, 128]`: its entry `(1, 1)`, as a vector. -/
theorem ba3 (x20 : FVec Ideal S2x2x128 .f32) :
    shapeCast S128 (View.ld (shapeCast S4x128 x20 shapeCasts_S2x2x128_S4x128) r2_16) shapeCasts_S1x128_S128
      = Cert.ReferenceIdeal.Stages.val_main_v98 (F := Ideal) x20 := by
  funext j
  obtain ⟨b, rfl⟩ : ∃ b : Fin 128, j = ix1 b := ⟨j 0, eq_ix1 j⟩
  have hb : b.val < 128 := b.isLt
  rw [shapeCast_1a_a_apply]
  show shapeCast S4x128 x20 shapeCasts_S2x2x128_S4x128 (r2_16.idx (ix2 (0 : Fin 1) b)) = _
  refine (shapeCast_apply x20 shapeCasts_S2x2x128_S4x128 (r2_16.idx (ix2 (0 : Fin 1) b))
    (ix3 (⟨1, by omega⟩ : Fin 2) (⟨1, by omega⟩ : Fin 2) b) ?_).trans ?_
  · rw [Shape.rowMajor_val_three, Shape.rowMajor_val_two]
    show (1 * 2 + 1) * 128 + b.val = (3 + 1 * 0) * 128 + (0 + 1 * b.val)
    omega
  rw [Cert.ReferenceIdeal.Stages.val_main_v98_apply, Cert.ReferenceIdeal.Stages.val_main_v97_apply, Cert.ReferenceIdeal.Stages.val_main_v84_apply, Cert.ReferenceIdeal.Stages.val_main_v83_apply]
  refine congrArg x20 (funext fun ax => Fin.ext ?_)
  match ax with
  | ⟨0, _⟩ => show (1 : ℕ) = 1 + 0; rfl
  | ⟨1, _⟩ => show (1 : ℕ) = ((1 + 0) * 128 + b.val % 128) / 128 % 2; omega
  | ⟨2, _⟩ => show b.val = ((1 + 0) * 128 + b.val % 128) % 128; omega

end Cert.KernelIdeal.Gen

end
-- ==== Proof.Region2Blocks.lean ====
/-
  Region 2, from blocks to the whole array.

  The region's grid has 64 points. At point `t` the aggregated messages (64 columns) and argument 0 (128 columns) are
  seen through blocks of the 4096 rows `4096 t … 4096 t + 4095`; the nine weight arrays are seen whole; the output is
  written through a block of the same 4096 rows. So the two tiled inputs' blocks are the rows `4096 t + r` of their
  arrays, and if the body's result on any selection of rows is the same selection of rows of one function `T2` of the
  whole arrays, then point `t` writes back rows `4096 t + r` of `T2` of the entry arrays; every row `i` of the output lies in
  the block of point `i / 4096`, so the output array ends holding `T2` of the entry arrays.
-/
import proofs.«400527_j63531156242866_3_alg».proof.Proof.Entry

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat Cfg Window)
open Cert.Rows Cert.Lib

/-! ## The rows a point sees -/

/-- Row `r` of a block of point `t` is row `4096 t + r` of the array. -/
private def rows2 (t : Fin cfg2.N) : Fin 4096 → Fin 262144 := fun r =>
  ⟨4096 * t.val + r.val, by have ht : t.val < 64 := N_2 ▸ t.isLt; have hr := r.isLt; omega⟩

/-- The block indices of the three windows tiled by rows, decided over the grid: block `t` of the rows, the one
    block of the columns. -/
private theorem tiled_idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_11.index t (0 : Fin 2) = t.val ∧ win2_11.index t (1 : Fin 2) = 0 :=
  (by decide +kernel : ∀ t : Fin grid2.N, _)

/-- The block of the aggregated messages at point `t`: rows `4096 t + r`. -/
private theorem blk2_0 (t : Fin cfg2.N) (A : S262144x64.Idx → EReal) :
    ((cfg2.win 0).blk t).view.read (Elt Ideal) A = rowsel (rows2 t) A := by
  obtain ⟨e0, e1, -⟩ := tiled_idx2 t
  funext y
  rw [View.read_apply]
  show A (((cfg2.win 0).blk t).view.emb y) = A (ix2 (rows2 t (y 0)) (y 1))
  congr 1
  funext a
  apply Fin.ext
  match a with
  | ⟨0, _⟩ => show win2_0.index t (0 : Fin 2) * 4096 + 1 * (y 0).val = 4096 * t.val + (y 0).val; rw [e0]; omega
  | ⟨1, _⟩ => show win2_0.index t (1 : Fin 2) * 64 + 1 * (y 1).val = (y 1).val; rw [e1]; omega

/-- The block of argument 0 at point `t`: rows `4096 t + r`. -/
private theorem blk2_1 (t : Fin cfg2.N) (A : S262144x128.Idx → EReal) :
    ((cfg2.win 1).blk t).view.read (Elt Ideal) A = rowsel (rows2 t) A := by
  obtain ⟨-, -, e0, e1, -⟩ := tiled_idx2 t
  funext y
  rw [View.read_apply]
  show A (((cfg2.win 1).blk t).view.emb y) = A (ix2 (rows2 t (y 0)) (y 1))
  congr 1
  funext a
  apply Fin.ext
  match a with
  | ⟨0, _⟩ => show win2_1.index t (0 : Fin 2) * 4096 + 1 * (y 0).val = 4096 * t.val + (y 0).val; rw [e0]; omega
  | ⟨1, _⟩ => show win2_1.index t (1 : Fin 2) * 128 + 1 * (y 1).val = (y 1).val; rw [e1]; omega

/-- The block of the output at point `t`: rows `4096 t + r`. -/
private theorem blk2_11 (t : Fin cfg2.N) (A : S262144x128.Idx → EReal) :
    ((cfg2.win 11).blk t).view.read (Elt Ideal) A = rowsel (rows2 t) A := by
  obtain ⟨-, -, -, -, e0, e1⟩ := tiled_idx2 t
  funext y
  rw [View.read_apply]
  show A (((cfg2.win 11).blk t).view.emb y) = A (ix2 (rows2 t (y 0)) (y 1))
  congr 1
  funext a
  apply Fin.ext
  match a with
  | ⟨0, _⟩ => show win2_11.index t (0 : Fin 2) * 4096 + 1 * (y 0).val = 4096 * t.val + (y 0).val; rw [e0]; omega
  | ⟨1, _⟩ => show win2_11.index t (1 : Fin 2) * 128 + 1 * (y 1).val = (y 1).val; rw [e1]; omega

/-! ## The weight arrays are seen whole -/

/-- The nine windows over the weight arrays sit at offset zero at every point (decided over the grid). -/
private theorem whole_off2 : ∀ t : Fin cfg2.N,
    ((fun a => win2_2.index t a * main_arg12.ty.shape.size a) = fun _ => 0)
    ∧ ((fun a => win2_3.index t a * main_arg13.ty.shape.size a) = fun _ => 0)
    ∧ ((fun a => win2_4.index t a * main_arg14.ty.shape.size a) = fun _ => 0)
    ∧ ((fun a => win2_5.index t a * main_v9.ty.shape.size a) = fun _ => 0)
    ∧ ((fun a => win2_6.index t a * main_v10.ty.shape.size a) = fun _ => 0)
    ∧ ((fun a => win2_7.index t a * main_arg17.ty.shape.size a) = fun _ => 0)
    ∧ ((fun a => win2_8.index t a * main_arg18.ty.shape.size a) = fun _ => 0)
    ∧ ((fun a => win2_9.index t a * main_v11.ty.shape.size a) = fun _ => 0)
    ∧ ((fun a => win2_10.index t a * main_v12.ty.shape.size a) = fun _ => 0) :=
  (by decide +kernel : ∀ t : Fin grid2.N, _)

private theorem whole2_2 (t : Fin cfg2.N) (A : S64x128.Idx → EReal) : ((cfg2.win 2).blk t).view.read (Elt Ideal) A = A :=
  have h := (whole_off2 t).1
  Memref.read_access_unit_zero (Elt Ideal) main_arg12 h (fun a => by rw [congrFun h a]; simp) A
private theorem whole2_3 (t : Fin cfg2.N) (A : S128x128.Idx → EReal) : ((cfg2.win 3).blk t).view.read (Elt Ideal) A = A :=
  have h := (whole_off2 t).2.1
  Memref.read_access_unit_zero (Elt Ideal) main_arg13 h (fun a => by rw [congrFun h a]; simp) A
private theorem whole2_4 (t : Fin cfg2.N) (A : S128.Idx → EReal) : ((cfg2.win 4).blk t).view.read (Elt Ideal) A = A :=
  have h := (whole_off2 t).2.2.1
  Memref.read_access_unit_zero (Elt Ideal) main_arg14 h (fun a => by rw [congrFun h a]; simp) A
private theorem whole2_5 (t : Fin cfg2.N) (A : S2x128x128.Idx → EReal) : ((cfg2.win 5).blk t).view.read (Elt Ideal) A = A :=
  have h := (whole_off2 t).2.2.2.1
  Memref.read_access_unit_zero (Elt Ideal) main_v9 h (fun a => by rw [congrFun h a]; simp) A
private theorem whole2_6 (t : Fin cfg2.N) (A : S2x128.Idx → EReal) : ((cfg2.win 6).blk t).view.read (Elt Ideal) A = A :=
  have h := (whole_off2 t).2.2.2.2.1
  Memref.read_access_unit_zero (Elt Ideal) main_v10 h (fun a => by rw [congrFun h a]; simp) A
private theorem whole2_7 (t : Fin cfg2.N) (A : S128x128.Idx → EReal) : ((cfg2.win 7).blk t).view.read (Elt Ideal) A = A :=
  have h := (whole_off2 t).2.2.2.2.2.1
  Memref.read_access_unit_zero (Elt Ideal) main_arg17 h (fun a => by rw [congrFun h a]; simp) A
private theorem whole2_8 (t : Fin cfg2.N) (A : S128.Idx → EReal) : ((cfg2.win 8).blk t).view.read (Elt Ideal) A = A :=
  have h := (whole_off2 t).2.2.2.2.2.2.1
  Memref.read_access_unit_zero (Elt Ideal) main_arg18 h (fun a => by rw [congrFun h a]; simp) A
private theorem whole2_9 (t : Fin cfg2.N) (A : S4x128x128.Idx → EReal) : ((cfg2.win 9).blk t).view.read (Elt Ideal) A = A :=
  have h := (whole_off2 t).2.2.2.2.2.2.2.1
  Memref.read_access_unit_zero (Elt Ideal) main_v11 h (fun a => by rw [congrFun h a]; simp) A
private theorem whole2_10 (t : Fin cfg2.N) (A : S4x128.Idx → EReal) : ((cfg2.win 10).blk t).view.read (Elt Ideal) A = A :=
  have h := (whole_off2 t).2.2.2.2.2.2.2.2
  Memref.read_access_unit_zero (Elt Ideal) main_v12 h (fun a => by rw [congrFun h a]; simp) A

/-! ## What a point writes back, and the whole array -/

section
variable (V : (c : Dev nD) → (b : Ref sig .tc) → Buf (Elt Ideal) ((c : Thread nD τ).loc b)) (c : Dev nD)
  (T2 : (S262144x64.Idx → EReal) → (S262144x128.Idx → EReal) → (S64x128.Idx → EReal) → (S128x128.Idx → EReal) → (S128.Idx → EReal) → (S2x128x128.Idx → EReal) → (S2x128.Idx → EReal) → (S128x128.Idx → EReal) → (S128.Idx → EReal) → (S4x128x128.Idx → EReal) → (S4x128.Idx → EReal) → (S262144x128.Idx → EReal))

/-- Point `t` writes back rows `4096 t + r` of `T2` of the entry arrays. -/
private theorem flushed2_11_eq
    (hpay : ∀ (s : Fin 4096 → Fin 262144) (AGG : S262144x64.Idx → EReal) (X0 : S262144x128.Idx → EReal) (x2 : S64x128.Idx → EReal) (x3 : S128x128.Idx → EReal) (x4 : S128.Idx → EReal) (x5 : S2x128x128.Idx → EReal) (x6 : S2x128.Idx → EReal) (x7 : S128x128.Idx → EReal) (x8 : S128.Idx → EReal) (x9 : S4x128x128.Idx → EReal) (x10 : S4x128.Idx → EReal),
      out2_11 (F := Ideal) (Cert.Rows.rowsel s AGG) (Cert.Rows.rowsel s X0) x2 x3 x4 x5 x6 x7 x8 x9 x10 = Cert.Rows.rowsel s (T2 AGG X0 x2 x3 x4 x5 x6 x7 x8 x9 x10))
    (t : Fin cfg2.N) :
    (dat2 V c).flushed 11 t = ((cfg2.win 11).blk t).view.read (Elt Ideal)
      (T2 (V c main_v8) (V c main_arg0) (V c main_arg12) (V c main_arg13) (V c main_arg14) (V c main_v9) (V c main_v10) (V c main_arg17) (V c main_arg18) (V c main_v11) (V c main_v12)) := by
  show (cfg2.win 11).cut (grid2.coords t) ((dat2 V c).after 11 t) = _
  rw [after2_11]
  have e0 : iblk2 V c 0 t = rowsel (rows2 t) (V c main_v8) := blk2_0 t (V c main_v8)
  have e1 : iblk2 V c 1 t = rowsel (rows2 t) (V c main_arg0) := blk2_1 t (V c main_arg0)
  have e2 : iblk2 V c 2 t = V c main_arg12 := whole2_2 t (V c main_arg12)
  have e3 : iblk2 V c 3 t = V c main_arg13 := whole2_3 t (V c main_arg13)
  have e4 : iblk2 V c 4 t = V c main_arg14 := whole2_4 t (V c main_arg14)
  have e5 : iblk2 V c 5 t = V c main_v9 := whole2_5 t (V c main_v9)
  have e6 : iblk2 V c 6 t = V c main_v10 := whole2_6 t (V c main_v10)
  have e7 : iblk2 V c 7 t = V c main_arg17 := whole2_7 t (V c main_arg17)
  have e8 : iblk2 V c 8 t = V c main_arg18 := whole2_8 t (V c main_arg18)
  have e9 : iblk2 V c 9 t = V c main_v11 := whole2_9 t (V c main_v11)
  have e10 : iblk2 V c 10 t = V c main_v12 := whole2_10 t (V c main_v12)
  rw [e0, e1, e2, e3, e4, e5, e6, e7, e8, e9, e10, hpay]
  exact (blk2_11 t _).symm

end

/-- An index of the output array is in point `t`'s block iff each coordinate is in the block's range on its axis. -/
private theorem mem_blk2_11 (t : Fin cfg2.N) (i : S262144x128.Idx) :
    i ∈ ((cfg2.win 11).blk t).view.set ↔ ∀ a : Fin 2, win2_11.index t a * S4096x128.size a ≤ (i a).val ∧ (i a).val < win2_11.index t a * S4096x128.size a + S4096x128.size a := by
  show i ∈ ((View.whole main_v13).slice (win2_11.rect t)).set ↔ _
  rw [View.set_slice_whole, Rect.mem_set_unit]
  exact Iff.rfl

/-- The blocks tile the output array: row `i` is in the block of point `i / 4096`. -/
private theorem cover2_11_rows (i : S262144x128.Idx) :
    ∃ t : Fin cfg2.N, (cfg2.win 11).flush t = true ∧ i ∈ ((cfg2.win 11).blk t).view.set := by
  have hi0 : (i 0).val < 262144 := (i 0).isLt
  have hi1 : (i 1).val < 128 := (i 1).isLt
  obtain ⟨t, ht⟩ : ∃ t : Fin cfg2.N, t.val = (i 0).val / 4096 :=
    ⟨⟨(i 0).val / 4096, Nat.lt_of_lt_of_eq (by omega) N_2.symm⟩, rfl⟩
  obtain ⟨-, -, -, -, e0, e1⟩ := tiled_idx2 t
  refine ⟨t, flush2_11 t, ?_⟩
  rw [mem_blk2_11]
  intro a
  match a with
  | ⟨0, _⟩ => show win2_11.index t (0 : Fin 2) * 4096 ≤ (i 0).val ∧ (i 0).val < win2_11.index t (0 : Fin 2) * 4096 + 4096; omega
  | ⟨1, _⟩ => show win2_11.index t (1 : Fin 2) * 128 ≤ (i 1).val ∧ (i 1).val < win2_11.index t (1 : Fin 2) * 128 + 128; omega

/-- Region 2's output array is `T2` of the arrays the region finds, for any `T2` whose selected rows are what the body
    computes from the selected rows of the two tiled inputs and the whole weight arrays. -/
theorem region2_blocks (V : (c : Dev nD) → (b : Ref sig .tc) → Buf (Elt Ideal) ((c : Thread nD τ).loc b)) (c : Dev nD)
    (T2 : (S262144x64.Idx → EReal) → (S262144x128.Idx → EReal) → (S64x128.Idx → EReal) → (S128x128.Idx → EReal) → (S128.Idx → EReal) → (S2x128x128.Idx → EReal) → (S2x128.Idx → EReal) → (S128x128.Idx → EReal) → (S128.Idx → EReal) → (S4x128x128.Idx → EReal) → (S4x128.Idx → EReal) → (S262144x128.Idx → EReal))
    (hpay : ∀ (s : Fin 4096 → Fin 262144) (AGG : S262144x64.Idx → EReal) (X0 : S262144x128.Idx → EReal) (x2 : S64x128.Idx → EReal) (x3 : S128x128.Idx → EReal) (x4 : S128.Idx → EReal) (x5 : S2x128x128.Idx → EReal) (x6 : S2x128.Idx → EReal) (x7 : S128x128.Idx → EReal) (x8 : S128.Idx → EReal) (x9 : S4x128x128.Idx → EReal) (x10 : S4x128.Idx → EReal),
      out2_11 (F := Ideal) (Cert.Rows.rowsel s AGG) (Cert.Rows.rowsel s X0) x2 x3 x4 x5 x6 x7 x8 x9 x10 = Cert.Rows.rowsel s (T2 AGG X0 x2 x3 x4 x5 x6 x7 x8 x9 x10)) :
    (dat2 V c).arrAt 11 cfg2.N = T2 (V c main_v8) (V c main_arg0) (V c main_arg12) (V c main_arg13) (V c main_arg14) (V c main_v9) (V c main_v10) (V c main_arg17) (V c main_arg18) (V c main_v11) (V c main_v12) :=
  (dat2 V c).arrAt_eq_of_cover 11 _ (fun t _ => flushed2_11_eq V c T2 hpay t) cover2_11_rows

end Cert.KernelIdeal.Gen

end
-- ==== Proof.Region2.lean ====
/-
  Region 2: the up-projection, the recomputed edge layer, the residual layers and the skip, block by block.

  At grid point `t` the body sees rows `4096 t … 4096 t + 4095` of the aggregated messages and of argument 0, and the
  whole weight arrays; every operation acts row by row, so what it stores is those rows of the same operations of
  the whole arrays, which are the reference's stages from the up-projection to its result; the blocks tile the
  output.
-/
import proofs.«400527_j63531156242866_3_alg».proof.Proof.Entry
import proofs.«400527_j63531156242866_3_alg».proof.Proof.Region2Pay
import proofs.«400527_j63531156242866_3_alg».proof.Proof.Region2W
import proofs.«400527_j63531156242866_3_alg».proof.Proof.Region2Blocks

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat Cfg Window)
open Cert.Rows Cert.Lib

variable (m : (ℓ : Loc nD τ sig) → Buf (Elt Ideal) ℓ) (ρ : Dev nD → PrngReg)

/-- The node update of the reference's aggregate, of argument 0 and of the weight arguments, the stacked ones as the
    region finds them, is the reference's result stage: each row of a stack is the reference's slice of it, and the
    stages are the node update's operations in order. -/
private theorem node_update_stages
    (x0 : FVec Ideal S262144x128 .f32) (x1 : FVec Ideal S262144x6 .f32) (x2 : FVec Ideal S2097152x42 .f32) (x3 x4 : IVec S2097152 32)
    (x5 : FVec Ideal S128x128 .f32) (x6 : FVec Ideal S128 .f32) (x7 : FVec Ideal S6x8 .f32) (x8 : FVec Ideal S8x128 .f32)
    (x9 : FVec Ideal S42x8 .f32) (x10 : FVec Ideal S8x64 .f32) (x11 : FVec Ideal S128x64 .f32) (x12 : FVec Ideal S64x128 .f32)
    (x13 : FVec Ideal S128x128 .f32) (x14 : FVec Ideal S128 .f32) (x15 : FVec Ideal S1x2x128x128 .f32) (x16 : FVec Ideal S1x2x128 .f32)
    (x17 : FVec Ideal S128x128 .f32) (x18 : FVec Ideal S128 .f32) (x19 : FVec Ideal S2x2x128x128 .f32) (x20 : FVec Ideal S2x2x128 .f32) :
    T2 (Cert.ReferenceIdeal.Stages.val_main_v22 (F := Ideal) x0 x1 x2 x3 x4 x5 x6 x7 x8 x9 x10 x11) x0 x12 x13 x14
        (Cert.ReferenceIdeal.Stages.val_main_v31 (F := Ideal) x15) (Cert.ReferenceIdeal.Stages.val_main_v32 (F := Ideal) x16) x17 x18
        (shapeCast S4x128x128 x19 shapeCasts_S2x2x128x128_S4x128x128) (shapeCast S4x128 x20 shapeCasts_S2x2x128_S4x128)
      = Cert.ReferenceIdeal.Stages.val_main_v103 (F := Ideal) x0 x1 x2 x3 x4 x5 x6 x7 x8 x9 x10 x11 x12 x13 x14 x15 x16 x17 x18 x19 x20 := by
  unfold T2
  -- each row of a stack, as the body reads it, is the reference's slice of it
  rw [wb0, bb0, wb1, bb1, wa0, ba0, wa1, ba1, wa2, ba2, wa3, ba3]
  -- the reference's stages, innermost first
  rw [Cert.NodeUpdate.merged_stage, Cert.NodeUpdate.resid_before, Cert.NodeUpdate.skip_stage, Cert.NodeUpdate.resid_after₁,
    Cert.NodeUpdate.resid_after₂]

/-- Region 2's output array is the reference's result stage. -/
theorem region2_value (c : Dev nD)
    (hagg : W5 m ρ c (Proc.devRef .tc main_v8) = Cert.ReferenceIdeal.Stages.val_main_v22 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :
    W6 m ρ c (Proc.devRef .tc main_v13) = Cert.ReferenceIdeal.Stages.val_main_v103 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  -- the array is what the pipeline leaves: the node update of the arrays the region finds
  rw [show W6 m ρ c (Proc.devRef .tc main_v13) = (dat2 (V5 m ρ) c).arrAt 11 cfg2.N from W6_arr m ρ c 11,
    region2_blocks (V5 m ρ) c T2 out2_rowsel]
  show T2 (W5 m ρ c (Proc.devRef .tc main_v8)) (W5 m ρ c (Proc.devRef .tc main_arg0)) (W5 m ρ c (Proc.devRef .tc main_arg12))
      (W5 m ρ c (Proc.devRef .tc main_arg13)) (W5 m ρ c (Proc.devRef .tc main_arg14)) (W5 m ρ c (Proc.devRef .tc main_v9))
      (W5 m ρ c (Proc.devRef .tc main_v10)) (W5 m ρ c (Proc.devRef .tc main_arg17)) (W5 m ρ c (Proc.devRef .tc main_arg18))
      (W5 m ρ c (Proc.devRef .tc main_v11)) (W5 m ρ c (Proc.devRef .tc main_v12)) = _
  -- what the region finds: the aggregate, the arguments, the reshaped stacks of weights
  rw [hagg, w5_arg0, w5_arg12, w5_arg13, w5_arg14, w5_v9, w5_v10, w5_arg17, w5_arg18, w5_v11, w5_v12]
  exact node_update_stages _ _ _ _ _ _ _ _ _ _ _ _ _ _ _ _ _ _ _ _ _

end Cert.KernelIdeal.Gen

end
-- ==== Proof.RefRunOps.lean ====
/- Tables only. The reference's 195 operations, copied from its printed operation list and cut into five stretches after the
   operations that write main_v30, main_v51, main_v57 and main_v80; per stretch the list of the buffers it writes, and per
   operation: that it touches TensorCore buffers only, that it determines its result, that it writes inside that list. -/
import proofs.«400527_j63531156242866_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- An operation that writes one buffer, a member of a list, writes inside the list. -/
theorem writes_sub_of_mem {W : List (Ref sig .tc)} {op : HloOp τ sig (Elt F)} (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map.mpr ⟨y, hy, rfl⟩

/-- Stretch A of the reference's operations (66 of them), ending at the one that writes `main_v30`. -/
def opsA : List (HloOp τ sig (Elt F)) :=
  [ binary main_arg0 main_arg5 main_v0 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg6 main_v1 (broadcastInDim S1x128 ![1] bcast_S128_S1x128_1 : (⟨S128, .f32⟩ : BufTy).Contents (Elt F) → (⟨S1x128, .f32⟩ : BufTy).Contents (Elt F)),
    unary main_v1 main_v2 (broadcastInDim S262144x128 ![0, 1] bcast_S1x128_S262144x128_0_1 : (⟨S1x128, .f32⟩ : BufTy).Contents (Elt F) → (⟨S262144x128, .f32⟩ : BufTy).Contents (Elt F)),
    binary main_v0 main_v2 main_v3 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v3) (TRef.of (T := ⟨S262144x128, .f32⟩) main_call0_v0) Host.negf,
    TRef.unary (TRef.of (T := ⟨S262144x128, .f32⟩) main_call0_v0) (TRef.of (T := ⟨S262144x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S262144x128, .f32⟩) main_call0_v2) (broadcastInDim S262144x128 ![] bcast_S_S262144x128),
    TRef.binary (TRef.of (T := ⟨S262144x128, .f32⟩) main_call0_v2) (TRef.of (T := ⟨S262144x128, .f32⟩) main_call0_v1) (TRef.of (T := ⟨S262144x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S262144x128, .f32⟩) main_call0_v4) (broadcastInDim S262144x128 ![] bcast_S_S262144x128),
    TRef.binary (TRef.of (T := ⟨S262144x128, .f32⟩) main_call0_v4) (TRef.of (T := ⟨S262144x128, .f32⟩) main_call0_v3) (TRef.of (T := ⟨S262144x128, .f32⟩) main_call0_v5) Host.divf,
    TRef.binary (TRef.of (T := ⟨S262144x128, .f32⟩) main_v3) (TRef.of (T := ⟨S262144x128, .f32⟩) main_call0_v5) (TRef.of (T := ⟨S262144x128, .f32⟩) main_v4) mulf,
    binary main_arg1 main_arg7 main_v5 ((fun l r => Host.dotGeneral dot_S262144x6_S6x8_S262144x8_1_0_0_1_n_n none l r) : (⟨S262144x6, .f32⟩ : BufTy).Contents (Elt F) → (⟨S6x8, .f32⟩ : BufTy).Contents (Elt F) → (⟨S262144x8, .f32⟩ : BufTy).Contents (Elt F)),
    binary main_v5 main_arg8 main_v6 ((fun l r => Host.dotGeneral dot_S262144x8_S8x128_S262144x128_1_0_0_1_n_n none l r) : (⟨S262144x8, .f32⟩ : BufTy).Contents (Elt F) → (⟨S8x128, .f32⟩ : BufTy).Contents (Elt F) → (⟨S262144x128, .f32⟩ : BufTy).Contents (Elt F)),
    binary main_v4 main_v6 main_v7 (mulf : (⟨S262144x128, .f32⟩ : BufTy).Contents (Elt F) → (⟨S262144x128, .f32⟩ : BufTy).Contents (Elt F) → (⟨S262144x128, .f32⟩ : BufTy).Contents (Elt F)),
    binary main_v7 main_arg11 main_v8 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F)),
    TRef.unary (TRef.of (T := ⟨S262144x64, .f32⟩) main_v8) (TRef.of (T := ⟨S262144x64, .f32⟩) main_call1_v0) Host.negf,
    TRef.unary (TRef.of (T := ⟨S262144x64, .f32⟩) main_call1_v0) (TRef.of (T := ⟨S262144x64, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S262144x64, .f32⟩) main_call1_v2) (broadcastInDim S262144x64 ![] bcast_S_S262144x64),
    TRef.binary (TRef.of (T := ⟨S262144x64, .f32⟩) main_call1_v2) (TRef.of (T := ⟨S262144x64, .f32⟩) main_call1_v1) (TRef.of (T := ⟨S262144x64, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S262144x64, .f32⟩) main_call1_v4) (broadcastInDim S262144x64 ![] bcast_S_S262144x64),
    TRef.binary (TRef.of (T := ⟨S262144x64, .f32⟩) main_call1_v4) (TRef.of (T := ⟨S262144x64, .f32⟩) main_call1_v3) (TRef.of (T := ⟨S262144x64, .f32⟩) main_call1_v5) Host.divf,
    TRef.binary (TRef.of (T := ⟨S262144x64, .f32⟩) main_v8) (TRef.of (T := ⟨S262144x64, .f32⟩) main_call1_v5) (TRef.of (T := ⟨S262144x64, .f32⟩) main_v9) mulf,
    nullary main_c (constantI S_ 32 0#32),
    unary main_c main_v10 (broadcastInDim S2097152 ![] bcast_S_S2097152 : (⟨S_, .i32⟩ : BufTy).Contents (Elt F) → (⟨S2097152, .i32⟩ : BufTy).Contents (Elt F)),
    binary main_arg4 main_v10 main_v11 (cmpi .slt : (⟨S2097152, .i32⟩ : BufTy).Contents (Elt F) → (⟨S2097152, .i32⟩ : BufTy).Contents (Elt F) → (⟨S2097152, .i1⟩ : BufTy).Contents (Elt F)),
    nullary main_c_0 (constantI S_ 32 262144#32),
    unary main_c_0 main_v12 (broadcastInDim S2097152 ![] bcast_S_S2097152 : (⟨S_, .i32⟩ : BufTy).Contents (Elt F) → (⟨S2097152, .i32⟩ : BufTy).Contents (Elt F)),
    binary main_arg4 main_v12 main_v13 (addi : (⟨S2097152, .i32⟩ : BufTy).Contents (Elt F) → (⟨S2097152, .i32⟩ : BufTy).Contents (Elt F) → (⟨S2097152, .i32⟩ : BufTy).Contents (Elt F)),
    ternary main_v11 main_v13 main_arg4 main_v14 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v14 main_v15 (broadcastInDim S2097152x1 ![0] bcast_S2097152_S2097152x1_0 : (⟨S2097152, .i32⟩ : BufTy).Contents (Elt F) → (⟨S2097152x1, .i32⟩ : BufTy).Contents (Elt F)),
    binary main_v9 main_v15 main_v16 ((fun x i => Host.gather gather_S262144x64_S2097152x1_S2097152x64_1_0_n_n_0_1_164 x i) : (⟨S262144x64, .f32⟩ : BufTy).Contents (Elt F) → (⟨S2097152x1, .i32⟩ : BufTy).Contents (Elt F) → (⟨S2097152x64, .f32⟩ : BufTy).Contents (Elt F)),
    binary main_arg2 main_arg9 main_v17 ((fun l r => Host.dotGeneral dot_S2097152x42_S42x8_S2097152x8_1_0_0_1_n_n none l r) : (⟨S2097152x42, .f32⟩ : BufTy).Contents (Elt F) → (⟨S42x8, .f32⟩ : BufTy).Contents (Elt F) → (⟨S2097152x8, .f32⟩ : BufTy).Contents (Elt F)),
    binary main_v17 main_arg10 main_v18 ((fun l r => Host.dotGeneral dot_S2097152x8_S8x64_S2097152x64_1_0_0_1_n_n none l r) : (⟨S2097152x8, .f32⟩ : BufTy).Contents (Elt F) → (⟨S8x64, .f32⟩ : BufTy).Contents (Elt F) → (⟨S2097152x64, .f32⟩ : BufTy).Contents (Elt F)),
    binary main_v16 main_v18 main_v19 (mulf : (⟨S2097152x64, .f32⟩ : BufTy).Contents (Elt F) → (⟨S2097152x64, .f32⟩ : BufTy).Contents (Elt F) → (⟨S2097152x64, .f32⟩ : BufTy).Contents (Elt F)),
    nullary main_cst (constant S_ .f32 0x00000000#32),
    unary main_cst main_v20 (broadcastInDim S262144x64 ![] bcast_S_S262144x64 : (⟨S_, .f32⟩ : BufTy).Contents (Elt F) → (⟨S262144x64, .f32⟩ : BufTy).Contents (Elt F)),
    unary main_arg3 main_v21 (broadcastInDim S2097152x1 ![0] bcast_S2097152_S2097152x1_0 : (⟨S2097152, .i32⟩ : BufTy).Contents (Elt F) → (⟨S2097152x1, .i32⟩ : BufTy).Contents (Elt F)),
    ternary main_v20 main_v21 main_v19 main_v22 ((fun x i u => Host.scatterAdd scatter_S262144x64_S2097152x1_S2097152x64_1_0_0_1 x i u) : (⟨S262144x64, .f32⟩ : BufTy).Contents (Elt F) → (⟨S2097152x1, .i32⟩ : BufTy).Contents (Elt F) → (⟨S2097152x64, .f32⟩ : BufTy).Contents (Elt F) → (⟨S262144x64, .f32⟩ : BufTy).Contents (Elt F)),
    binary main_v22 main_arg12 main_v23 ((fun l r => Host.dotGeneral dot_S262144x64_S64x128_S262144x128_1_0_0_1_n_n none l r) : (⟨S262144x64, .f32⟩ : BufTy).Contents (Elt F) → (⟨S64x128, .f32⟩ : BufTy).Contents (Elt F) → (⟨S262144x128, .f32⟩ : BufTy).Contents (Elt F)),
    TRef.unary (TRef.of (T := ⟨S262144x128, .f32⟩) main_v23) (TRef.of (T := ⟨S262144x128, .f32⟩) main_call2_v0) Host.negf,
    TRef.unary (TRef.of (T := ⟨S262144x128, .f32⟩) main_call2_v0) (TRef.of (T := ⟨S262144x128, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S262144x128, .f32⟩) main_call2_v2) (broadcastInDim S262144x128 ![] bcast_S_S262144x128),
    TRef.binary (TRef.of (T := ⟨S262144x128, .f32⟩) main_call2_v2) (TRef.of (T := ⟨S262144x128, .f32⟩) main_call2_v1) (TRef.of (T := ⟨S262144x128, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S262144x128, .f32⟩) main_call2_v4) (broadcastInDim S262144x128 ![] bcast_S_S262144x128),
    TRef.binary (TRef.of (T := ⟨S262144x128, .f32⟩) main_call2_v4) (TRef.of (T := ⟨S262144x128, .f32⟩) main_call2_v3) (TRef.of (T := ⟨S262144x128, .f32⟩) main_call2_v5) Host.divf,
    TRef.binary (TRef.of (T := ⟨S262144x128, .f32⟩) main_v23) (TRef.of (T := ⟨S262144x128, .f32⟩) main_call2_v5) (TRef.of (T := ⟨S262144x128, .f32⟩) main_v24) mulf,
    binary main_arg0 main_arg13 main_v25 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg14 main_v26 (broadcastInDim S1x128 ![1] bcast_S128_S1x128_1 : (⟨S128, .f32⟩ : BufTy).Contents (Elt F) → (⟨S1x128, .f32⟩ : BufTy).Contents (Elt F)),
    unary main_v26 main_v27 (broadcastInDim S262144x128 ![0, 1] bcast_S1x128_S262144x128_0_1 : (⟨S1x128, .f32⟩ : BufTy).Contents (Elt F) → (⟨S262144x128, .f32⟩ : BufTy).Contents (Elt F)),
    binary main_v25 main_v27 main_v28 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v28) (TRef.of (T := ⟨S262144x128, .f32⟩) main_call3_v0) Host.negf,
    TRef.unary (TRef.of (T := ⟨S262144x128, .f32⟩) main_call3_v0) (TRef.of (T := ⟨S262144x128, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S262144x128, .f32⟩) main_call3_v2) (broadcastInDim S262144x128 ![] bcast_S_S262144x128),
    TRef.binary (TRef.of (T := ⟨S262144x128, .f32⟩) main_call3_v2) (TRef.of (T := ⟨S262144x128, .f32⟩) main_call3_v1) (TRef.of (T := ⟨S262144x128, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S262144x128, .f32⟩) main_call3_v4) (broadcastInDim S262144x128 ![] bcast_S_S262144x128),
    TRef.binary (TRef.of (T := ⟨S262144x128, .f32⟩) main_call3_v4) (TRef.of (T := ⟨S262144x128, .f32⟩) main_call3_v3) (TRef.of (T := ⟨S262144x128, .f32⟩) main_call3_v5) Host.divf,
    TRef.binary (TRef.of (T := ⟨S262144x128, .f32⟩) main_v28) (TRef.of (T := ⟨S262144x128, .f32⟩) main_call3_v5) (TRef.of (T := ⟨S262144x128, .f32⟩) main_v29) mulf,
    binary main_v29 main_v24 main_v30 (addf : (⟨S262144x128, .f32⟩ : BufTy).Contents (Elt F) → (⟨S262144x128, .f32⟩ : BufTy).Contents (Elt F) → (⟨S262144x128, .f32⟩ : BufTy).Contents (Elt F)) ]
/-- The buffers stretch A writes, in order. -/
def WA : List (Ref sig .tc) :=
  [main_v0, main_v1, main_v2, main_v3, main_call0_v0, main_call0_v1, main_call0_cst, main_call0_v2, main_call0_v3, main_call0_cst_0, main_call0_v4, main_call0_v5, main_v4, main_v5, main_v6, main_v7, main_v8, main_call1_v0, main_call1_v1, main_call1_cst, main_call1_v2, main_call1_v3, main_call1_cst_0, main_call1_v4, main_call1_v5, main_v9, main_c, main_v10, main_v11, main_c_0, main_v12, main_v13, main_v14, main_v15, main_v16, main_v17, main_v18, main_v19, main_cst, main_v20, main_v21, main_v22, main_v23, main_call2_v0, main_call2_v1, main_call2_cst, main_call2_v2, main_call2_v3, main_call2_cst_0, main_call2_v4, main_call2_v5, main_v24, main_v25, main_v26, main_v27, main_v28, main_call3_v0, main_call3_v1, main_call3_cst, main_call3_v2, main_call3_v3, main_call3_cst_0, main_call3_v4, main_call3_v5, main_v29, main_v30]
theorem opsA_sub : (opsA : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., nullary_bufs_sub .., unary_bufs_sub .., unary_bufs_sub .., ternary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsA_writes : (opsA : List (HloOp τ sig (Elt F))).Forall fun op => op.writes ⊆ (WA.map (Proc.devRef (τ := τ) .tc)).toFinset :=
  ⟨writes_sub_of_mem main_v0 rfl (by decide),
   writes_sub_of_mem main_v1 rfl (by decide),
   writes_sub_of_mem main_v2 rfl (by decide),
   writes_sub_of_mem main_v3 rfl (by decide),
   writes_sub_of_mem main_call0_v0 rfl (by decide),
   writes_sub_of_mem main_call0_v1 rfl (by decide),
   writes_sub_of_mem main_call0_cst rfl (by decide),
   writes_sub_of_mem main_call0_v2 rfl (by decide),
   writes_sub_of_mem main_call0_v3 rfl (by decide),
   writes_sub_of_mem main_call0_cst_0 rfl (by decide),
   writes_sub_of_mem main_call0_v4 rfl (by decide),
   writes_sub_of_mem main_call0_v5 rfl (by decide),
   writes_sub_of_mem main_v4 rfl (by decide),
   writes_sub_of_mem main_v5 rfl (by decide),
   writes_sub_of_mem main_v6 rfl (by decide),
   writes_sub_of_mem main_v7 rfl (by decide),
   writes_sub_of_mem main_v8 rfl (by decide),
   writes_sub_of_mem main_call1_v0 rfl (by decide),
   writes_sub_of_mem main_call1_v1 rfl (by decide),
   writes_sub_of_mem main_call1_cst rfl (by decide),
   writes_sub_of_mem main_call1_v2 rfl (by decide),
   writes_sub_of_mem main_call1_v3 rfl (by decide),
   writes_sub_of_mem main_call1_cst_0 rfl (by decide),
   writes_sub_of_mem main_call1_v4 rfl (by decide),
   writes_sub_of_mem main_call1_v5 rfl (by decide),
   writes_sub_of_mem main_v9 rfl (by decide),
   writes_sub_of_mem main_c rfl (by decide),
   writes_sub_of_mem main_v10 rfl (by decide),
   writes_sub_of_mem main_v11 rfl (by decide),
   writes_sub_of_mem main_c_0 rfl (by decide),
   writes_sub_of_mem main_v12 rfl (by decide),
   writes_sub_of_mem main_v13 rfl (by decide),
   writes_sub_of_mem main_v14 rfl (by decide),
   writes_sub_of_mem main_v15 rfl (by decide),
   writes_sub_of_mem main_v16 rfl (by decide),
   writes_sub_of_mem main_v17 rfl (by decide),
   writes_sub_of_mem main_v18 rfl (by decide),
   writes_sub_of_mem main_v19 rfl (by decide),
   writes_sub_of_mem main_cst rfl (by decide),
   writes_sub_of_mem main_v20 rfl (by decide),
   writes_sub_of_mem main_v21 rfl (by decide),
   writes_sub_of_mem main_v22 rfl (by decide),
   writes_sub_of_mem main_v23 rfl (by decide),
   writes_sub_of_mem main_call2_v0 rfl (by decide),
   writes_sub_of_mem main_call2_v1 rfl (by decide),
   writes_sub_of_mem main_call2_cst rfl (by decide),
   writes_sub_of_mem main_call2_v2 rfl (by decide),
   writes_sub_of_mem main_call2_v3 rfl (by decide),
   writes_sub_of_mem main_call2_cst_0 rfl (by decide),
   writes_sub_of_mem main_call2_v4 rfl (by decide),
   writes_sub_of_mem main_call2_v5 rfl (by decide),
   writes_sub_of_mem main_v24 rfl (by decide),
   writes_sub_of_mem main_v25 rfl (by decide),
   writes_sub_of_mem main_v26 rfl (by decide),
   writes_sub_of_mem main_v27 rfl (by decide),
   writes_sub_of_mem main_v28 rfl (by decide),
   writes_sub_of_mem main_call3_v0 rfl (by decide),
   writes_sub_of_mem main_call3_v1 rfl (by decide),
   writes_sub_of_mem main_call3_cst rfl (by decide),
   writes_sub_of_mem main_call3_v2 rfl (by decide),
   writes_sub_of_mem main_call3_v3 rfl (by decide),
   writes_sub_of_mem main_call3_cst_0 rfl (by decide),
   writes_sub_of_mem main_call3_v4 rfl (by decide),
   writes_sub_of_mem main_call3_v5 rfl (by decide),
   writes_sub_of_mem main_v29 rfl (by decide),
   writes_sub_of_mem main_v30 rfl (by decide)⟩

/-- Stretch B of the reference's operations (37 of them), ending at the one that writes `main_v51`. -/
def opsB : List (HloOp τ sig (Elt F)) :=
  [ reshape main_arg15 main_v31 rfl shapeCasts_S1x2x128x128_S2x128x128,
    reshape main_arg16 main_v32 rfl shapeCasts_S1x2x128_S2x128,
    unary main_v31 main_v33 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v33 main_v34 rfl shapeCasts_S1x128x128_S128x128,
    binary main_v30 main_v34 main_v35 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_v32 main_v36 ((extractStridedSlice S1x128 ![0, 0] · slices_S2x128_S1x128_0_0) : (⟨S2x128, .f32⟩ : BufTy).Contents (Elt F) → (⟨S1x128, .f32⟩ : BufTy).Contents (Elt F)),
    reshape main_v36 main_v37 rfl shapeCasts_S1x128_S128,
    unary main_v37 main_v38 (broadcastInDim S1x128 ![1] bcast_S128_S1x128_1 : (⟨S128, .f32⟩ : BufTy).Contents (Elt F) → (⟨S1x128, .f32⟩ : BufTy).Contents (Elt F)),
    unary main_v38 main_v39 (broadcastInDim S262144x128 ![0, 1] bcast_S1x128_S262144x128_0_1 : (⟨S1x128, .f32⟩ : BufTy).Contents (Elt F) → (⟨S262144x128, .f32⟩ : BufTy).Contents (Elt F)),
    binary main_v35 main_v39 main_v40 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v40) (TRef.of (T := ⟨S262144x128, .f32⟩) main_call4_v0) Host.negf,
    TRef.unary (TRef.of (T := ⟨S262144x128, .f32⟩) main_call4_v0) (TRef.of (T := ⟨S262144x128, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S262144x128, .f32⟩) main_call4_v2) (broadcastInDim S262144x128 ![] bcast_S_S262144x128),
    TRef.binary (TRef.of (T := ⟨S262144x128, .f32⟩) main_call4_v2) (TRef.of (T := ⟨S262144x128, .f32⟩) main_call4_v1) (TRef.of (T := ⟨S262144x128, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S262144x128, .f32⟩) main_call4_v4) (broadcastInDim S262144x128 ![] bcast_S_S262144x128),
    TRef.binary (TRef.of (T := ⟨S262144x128, .f32⟩) main_call4_v4) (TRef.of (T := ⟨S262144x128, .f32⟩) main_call4_v3) (TRef.of (T := ⟨S262144x128, .f32⟩) main_call4_v5) Host.divf,
    TRef.binary (TRef.of (T := ⟨S262144x128, .f32⟩) main_v40) (TRef.of (T := ⟨S262144x128, .f32⟩) main_call4_v5) (TRef.of (T := ⟨S262144x128, .f32⟩) main_v41) mulf,
    unary main_v31 main_v42 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v42 main_v43 rfl shapeCasts_S1x128x128_S128x128,
    binary main_v41 main_v43 main_v44 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_v32 main_v45 ((extractStridedSlice S1x128 ![1, 0] · slices_S2x128_S1x128_1_0) : (⟨S2x128, .f32⟩ : BufTy).Contents (Elt F) → (⟨S1x128, .f32⟩ : BufTy).Contents (Elt F)),
    reshape main_v45 main_v46 rfl shapeCasts_S1x128_S128,
    unary main_v46 main_v47 (broadcastInDim S1x128 ![1] bcast_S128_S1x128_1 : (⟨S128, .f32⟩ : BufTy).Contents (Elt F) → (⟨S1x128, .f32⟩ : BufTy).Contents (Elt F)),
    unary main_v47 main_v48 (broadcastInDim S262144x128 ![0, 1] bcast_S1x128_S262144x128_0_1 : (⟨S1x128, .f32⟩ : BufTy).Contents (Elt F) → (⟨S262144x128, .f32⟩ : BufTy).Contents (Elt F)),
    binary main_v44 main_v48 main_v49 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v49) (TRef.of (T := ⟨S262144x128, .f32⟩) main_call5_v0) Host.negf,
    TRef.unary (TRef.of (T := ⟨S262144x128, .f32⟩) main_call5_v0) (TRef.of (T := ⟨S262144x128, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S262144x128, .f32⟩) main_call5_v2) (broadcastInDim S262144x128 ![] bcast_S_S262144x128),
    TRef.binary (TRef.of (T := ⟨S262144x128, .f32⟩) main_call5_v2) (TRef.of (T := ⟨S262144x128, .f32⟩) main_call5_v1) (TRef.of (T := ⟨S262144x128, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S262144x128, .f32⟩) main_call5_v4) (broadcastInDim S262144x128 ![] bcast_S_S262144x128),
    TRef.binary (TRef.of (T := ⟨S262144x128, .f32⟩) main_call5_v4) (TRef.of (T := ⟨S262144x128, .f32⟩) main_call5_v3) (TRef.of (T := ⟨S262144x128, .f32⟩) main_call5_v5) Host.divf,
    TRef.binary (TRef.of (T := ⟨S262144x128, .f32⟩) main_v49) (TRef.of (T := ⟨S262144x128, .f32⟩) main_call5_v5) (TRef.of (T := ⟨S262144x128, .f32⟩) main_v50) mulf,
    binary main_v30 main_v50 main_v51 (addf : (⟨S262144x128, .f32⟩ : BufTy).Contents (Elt F) → (⟨S262144x128, .f32⟩ : BufTy).Contents (Elt F) → (⟨S262144x128, .f32⟩ : BufTy).Contents (Elt F)) ]
/-- The buffers stretch B writes, in order. -/
def WB : List (Ref sig .tc) :=
  [main_v31, main_v32, main_v33, main_v34, main_v35, main_v36, main_v37, main_v38, main_v39, main_v40, main_call4_v0, main_call4_v1, main_call4_cst, main_call4_v2, main_call4_v3, main_call4_cst_0, main_call4_v4, main_call4_v5, main_v41, main_v42, main_v43, main_v44, main_v45, main_v46, main_v47, main_v48, main_v49, main_call5_v0, main_call5_v1, main_call5_cst, main_call5_v2, main_call5_v3, main_call5_cst_0, main_call5_v4, main_call5_v5, main_v50, main_v51]
theorem opsB_sub : (opsB : List (HloOp τ sig (Elt F))).Forall fun op => op.bufs ⊆ tcRefs τ sig :=
  ⟨reshape_bufs_sub .., reshape_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsB_writes : (opsB : List (HloOp τ sig (Elt F))).Forall fun op => op.writes ⊆ (WB.map (Proc.devRef (τ := τ) .tc)).toFinset :=
  ⟨writes_sub_of_mem main_v31 rfl (by decide),
   writes_sub_of_mem main_v32 rfl (by decide),
   writes_sub_of_mem main_v33 rfl (by decide),
   writes_sub_of_mem main_v34 rfl (by decide),
   writes_sub_of_mem main_v35 rfl (by decide),
   writes_sub_of_mem main_v36 rfl (by decide),
   writes_sub_of_mem main_v37 rfl (by decide),
   writes_sub_of_mem main_v38 rfl (by decide),
   writes_sub_of_mem main_v39 rfl (by decide),
   writes_sub_of_mem main_v40 rfl (by decide),
   writes_sub_of_mem main_call4_v0 rfl (by decide),
   writes_sub_of_mem main_call4_v1 rfl (by decide),
   writes_sub_of_mem main_call4_cst rfl (by decide),
   writes_sub_of_mem main_call4_v2 rfl (by decide),
   writes_sub_of_mem main_call4_v3 rfl (by decide),
   writes_sub_of_mem main_call4_cst_0 rfl (by decide),
   writes_sub_of_mem main_call4_v4 rfl (by decide),
   writes_sub_of_mem main_call4_v5 rfl (by decide),
   writes_sub_of_mem main_v41 rfl (by decide),
   writes_sub_of_mem main_v42 rfl (by decide),
   writes_sub_of_mem main_v43 rfl (by decide),
   writes_sub_of_mem main_v44 rfl (by decide),
   writes_sub_of_mem main_v45 rfl (by decide),
   writes_sub_of_mem main_v46 rfl (by decide),
   writes_sub_of_mem main_v47 rfl (by decide),
   writes_sub_of_mem main_v48 rfl (by decide),
   writes_sub_of_mem main_v49 rfl (by decide),
   writes_sub_of_mem main_call5_v0 rfl (by decide),
   writes_sub_of_mem main_call5_v1 rfl (by decide),
   writes_sub_of_mem main_call5_cst rfl (by decide),
   writes_sub_of_mem main_call5_v2 rfl (by decide),
   writes_sub_of_mem main_call5_v3 rfl (by decide),
   writes_sub_of_mem main_call5_cst_0 rfl (by decide),
   writes_sub_of_mem main_call5_v4 rfl (by decide),
   writes_sub_of_mem main_call5_v5 rfl (by decide),
   writes_sub_of_mem main_v50 rfl (by decide),
   writes_sub_of_mem main_v51 rfl (by decide)⟩

/-- Stretch C of the reference's operations (14 of them), ending at the one that writes `main_v57`. -/
def opsC : List (HloOp τ sig (Elt F)) :=
  [ binary main_v51 main_arg17 main_v52 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg18 main_v53 (broadcastInDim S1x128 ![1] bcast_S128_S1x128_1 : (⟨S128, .f32⟩ : BufTy).Contents (Elt F) → (⟨S1x128, .f32⟩ : BufTy).Contents (Elt F)),
    unary main_v53 main_v54 (broadcastInDim S262144x128 ![0, 1] bcast_S1x128_S262144x128_0_1 : (⟨S1x128, .f32⟩ : BufTy).Contents (Elt F) → (⟨S262144x128, .f32⟩ : BufTy).Contents (Elt F)),
    binary main_v52 main_v54 main_v55 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v55) (TRef.of (T := ⟨S262144x128, .f32⟩) main_call6_v0) Host.negf,
    TRef.unary (TRef.of (T := ⟨S262144x128, .f32⟩) main_call6_v0) (TRef.of (T := ⟨S262144x128, .f32⟩) main_call6_v1) Host.exp,
    TRef.nullary (TRef.of (T := ⟨S_, .f32⟩) main_call6_cst) (constant S_ .f32 0x3F800000#32),
    TRef.unary (TRef.of (T := ⟨S_, .f32⟩) main_call6_cst) (TRef.of (T := ⟨S262144x128, .f32⟩) main_call6_v2) (broadcastInDim S262144x128 ![] bcast_S_S262144x128),
    TRef.binary (TRef.of (T := ⟨S262144x128, .f32⟩) main_call6_v2) (TRef.of (T := ⟨S262144x128, .f32⟩) main_call6_v1) (TRef.of (T := ⟨S262144x128, .f32⟩) main_call6_v3) addf,
    TRef.nullary (TRef.of (T := ⟨S_, .f32⟩) main_call6_cst_0) (constant S_ .f32 0x3F800000#32),
    TRef.unary (TRef.of (T := ⟨S_, .f32⟩) main_call6_cst_0) (TRef.of (T := ⟨S262144x128, .f32⟩) main_call6_v4) (broadcastInDim S262144x128 ![] bcast_S_S262144x128),
    TRef.binary (TRef.of (T := ⟨S262144x128, .f32⟩) main_call6_v4) (TRef.of (T := ⟨S262144x128, .f32⟩) main_call6_v3) (TRef.of (T := ⟨S262144x128, .f32⟩) main_call6_v5) Host.divf,
    TRef.binary (TRef.of (T := ⟨S262144x128, .f32⟩) main_v55) (TRef.of (T := ⟨S262144x128, .f32⟩) main_call6_v5) (TRef.of (T := ⟨S262144x128, .f32⟩) main_v56) mulf,
    binary main_v56 main_arg0 main_v57 (addf : (⟨S262144x128, .f32⟩ : BufTy).Contents (Elt F) → (⟨S262144x128, .f32⟩ : BufTy).Contents (Elt F) → (⟨S262144x128, .f32⟩ : BufTy).Contents (Elt F)) ]
/-- The buffers stretch C writes, in order. -/
def WC : List (Ref sig .tc) :=
  [main_v52, main_v53, main_v54, main_v55, main_call6_v0, main_call6_v1, main_call6_cst, main_call6_v2, main_call6_v3, main_call6_cst_0, main_call6_v4, main_call6_v5, main_v56, main_v57]
theorem opsC_sub : (opsC : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩
theorem opsC_fresh : (opsC : List (HloOp τ sig (Elt F))).Forall fun op => op.fresh = ∅ :=
  ⟨rfl, rfl, rfl, rfl, rfl, rfl, rfl, rfl, rfl, rfl, rfl, rfl, rfl, rfl⟩
theorem opsC_writes : (opsC : List (HloOp τ sig (Elt F))).Forall fun op => op.writes ⊆ (WC.map (Proc.devRef (τ := τ) .tc)).toFinset :=
  ⟨writes_sub_of_mem main_v52 rfl (by decide),
   writes_sub_of_mem main_v53 rfl (by decide),
   writes_sub_of_mem main_v54 rfl (by decide),
   writes_sub_of_mem main_v55 rfl (by decide),
   writes_sub_of_mem main_call6_v0 rfl (by decide),
   writes_sub_of_mem main_call6_v1 rfl (by decide),
   writes_sub_of_mem main_call6_cst rfl (by decide),
   writes_sub_of_mem main_call6_v2 rfl (by decide),
   writes_sub_of_mem main_call6_v3 rfl (by decide),
   writes_sub_of_mem main_call6_cst_0 rfl (by decide),
   writes_sub_of_mem main_call6_v4 rfl (by decide),
   writes_sub_of_mem main_call6_v5 rfl (by decide),
   writes_sub_of_mem main_v56 rfl (by decide),
   writes_sub_of_mem main_v57 rfl (by decide)⟩

/-- Stretch D of the reference's operations (39 of them), ending at the one that writes `main_v80`. -/
def opsD : List (HloOp τ sig (Elt F)) :=
  [ unary main_arg19 main_v58 ((extractStridedSlice S1x2x128x128 ![0, 0, 0, 0] · slices_S2x2x128x128_S1x2x128x128_0_0_0_0) : (⟨S2x2x128x128, .f32⟩ : BufTy).Contents (Elt F) → (⟨S1x2x128x128, .f32⟩ : BufTy).Contents (Elt F)),
    reshape main_v58 main_v59 rfl shapeCasts_S1x2x128x128_S2x128x128,
    unary main_arg20 main_v60 ((extractStridedSlice S1x2x128 ![0, 0, 0] · slices_S2x2x128_S1x2x128_0_0_0) : (⟨S2x2x128, .f32⟩ : BufTy).Contents (Elt F) → (⟨S1x2x128, .f32⟩ : BufTy).Contents (Elt F)),
    reshape main_v60 main_v61 rfl shapeCasts_S1x2x128_S2x128,
    unary main_v59 main_v62 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v62 main_v63 rfl shapeCasts_S1x128x128_S128x128,
    binary main_v57 main_v63 main_v64 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_v61 main_v65 ((extractStridedSlice S1x128 ![0, 0] · slices_S2x128_S1x128_0_0) : (⟨S2x128, .f32⟩ : BufTy).Contents (Elt F) → (⟨S1x128, .f32⟩ : BufTy).Contents (Elt F)),
    reshape main_v65 main_v66 rfl shapeCasts_S1x128_S128,
    unary main_v66 main_v67 (broadcastInDim S1x128 ![1] bcast_S128_S1x128_1 : (⟨S128, .f32⟩ : BufTy).Contents (Elt F) → (⟨S1x128, .f32⟩ : BufTy).Contents (Elt F)),
    unary main_v67 main_v68 (broadcastInDim S262144x128 ![0, 1] bcast_S1x128_S262144x128_0_1 : (⟨S1x128, .f32⟩ : BufTy).Contents (Elt F) → (⟨S262144x128, .f32⟩ : BufTy).Contents (Elt F)),
    binary main_v64 main_v68 main_v69 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v69) (TRef.of (T := ⟨S262144x128, .f32⟩) main_call7_v0) Host.negf,
    TRef.unary (TRef.of (T := ⟨S262144x128, .f32⟩) main_call7_v0) (TRef.of (T := ⟨S262144x128, .f32⟩) main_call7_v1) Host.exp,
    TRef.nullary (TRef.of (T := ⟨S_, .f32⟩) main_call7_cst) (constant S_ .f32 0x3F800000#32),
    TRef.unary (TRef.of (T := ⟨S_, .f32⟩) main_call7_cst) (TRef.of (T := ⟨S262144x128, .f32⟩) main_call7_v2) (broadcastInDim S262144x128 ![] bcast_S_S262144x128),
    TRef.binary (TRef.of (T := ⟨S262144x128, .f32⟩) main_call7_v2) (TRef.of (T := ⟨S262144x128, .f32⟩) main_call7_v1) (TRef.of (T := ⟨S262144x128, .f32⟩) main_call7_v3) addf,
    TRef.nullary (TRef.of (T := ⟨S_, .f32⟩) main_call7_cst_0) (constant S_ .f32 0x3F800000#32),
    TRef.unary (TRef.of (T := ⟨S_, .f32⟩) main_call7_cst_0) (TRef.of (T := ⟨S262144x128, .f32⟩) main_call7_v4) (broadcastInDim S262144x128 ![] bcast_S_S262144x128),
    TRef.binary (TRef.of (T := ⟨S262144x128, .f32⟩) main_call7_v4) (TRef.of (T := ⟨S262144x128, .f32⟩) main_call7_v3) (TRef.of (T := ⟨S262144x128, .f32⟩) main_call7_v5) Host.divf,
    TRef.binary (TRef.of (T := ⟨S262144x128, .f32⟩) main_v69) (TRef.of (T := ⟨S262144x128, .f32⟩) main_call7_v5) (TRef.of (T := ⟨S262144x128, .f32⟩) main_v70) mulf,
    unary main_v59 main_v71 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v71 main_v72 rfl shapeCasts_S1x128x128_S128x128,
    binary main_v70 main_v72 main_v73 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_v61 main_v74 ((extractStridedSlice S1x128 ![1, 0] · slices_S2x128_S1x128_1_0) : (⟨S2x128, .f32⟩ : BufTy).Contents (Elt F) → (⟨S1x128, .f32⟩ : BufTy).Contents (Elt F)),
    reshape main_v74 main_v75 rfl shapeCasts_S1x128_S128,
    unary main_v75 main_v76 (broadcastInDim S1x128 ![1] bcast_S128_S1x128_1 : (⟨S128, .f32⟩ : BufTy).Contents (Elt F) → (⟨S1x128, .f32⟩ : BufTy).Contents (Elt F)),
    unary main_v76 main_v77 (broadcastInDim S262144x128 ![0, 1] bcast_S1x128_S262144x128_0_1 : (⟨S1x128, .f32⟩ : BufTy).Contents (Elt F) → (⟨S262144x128, .f32⟩ : BufTy).Contents (Elt F)),
    binary main_v73 main_v77 main_v78 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v78) (TRef.of (T := ⟨S262144x128, .f32⟩) main_call8_v0) Host.negf,
    TRef.unary (TRef.of (T := ⟨S262144x128, .f32⟩) main_call8_v0) (TRef.of (T := ⟨S262144x128, .f32⟩) main_call8_v1) Host.exp,
    TRef.nullary (TRef.of (T := ⟨S_, .f32⟩) main_call8_cst) (constant S_ .f32 0x3F800000#32),
    TRef.unary (TRef.of (T := ⟨S_, .f32⟩) main_call8_cst) (TRef.of (T := ⟨S262144x128, .f32⟩) main_call8_v2) (broadcastInDim S262144x128 ![] bcast_S_S262144x128),
    TRef.binary (TRef.of (T := ⟨S262144x128, .f32⟩) main_call8_v2) (TRef.of (T := ⟨S262144x128, .f32⟩) main_call8_v1) (TRef.of (T := ⟨S262144x128, .f32⟩) main_call8_v3) addf,
    TRef.nullary (TRef.of (T := ⟨S_, .f32⟩) main_call8_cst_0) (constant S_ .f32 0x3F800000#32),
    TRef.unary (TRef.of (T := ⟨S_, .f32⟩) main_call8_cst_0) (TRef.of (T := ⟨S262144x128, .f32⟩) main_call8_v4) (broadcastInDim S262144x128 ![] bcast_S_S262144x128),
    TRef.binary (TRef.of (T := ⟨S262144x128, .f32⟩) main_call8_v4) (TRef.of (T := ⟨S262144x128, .f32⟩) main_call8_v3) (TRef.of (T := ⟨S262144x128, .f32⟩) main_call8_v5) Host.divf,
    TRef.binary (TRef.of (T := ⟨S262144x128, .f32⟩) main_v78) (TRef.of (T := ⟨S262144x128, .f32⟩) main_call8_v5) (TRef.of (T := ⟨S262144x128, .f32⟩) main_v79) mulf,
    binary main_v57 main_v79 main_v80 (addf : (⟨S262144x128, .f32⟩ : BufTy).Contents (Elt F) → (⟨S262144x128, .f32⟩ : BufTy).Contents (Elt F) → (⟨S262144x128, .f32⟩ : BufTy).Contents (Elt F)) ]
/-- The buffers stretch D writes, in order. -/
def WD : List (Ref sig .tc) :=
  [main_v58, main_v59, main_v60, main_v61, main_v62, main_v63, main_v64, main_v65, main_v66, main_v67, main_v68, main_v69, main_call7_v0, main_call7_v1, main_call7_cst, main_call7_v2, main_call7_v3, main_call7_cst_0, main_call7_v4, main_call7_v5, main_v70, main_v71, main_v72, main_v73, main_v74, main_v75, main_v76, main_v77, main_v78, main_call8_v0, main_call8_v1, main_call8_cst, main_call8_v2, main_call8_v3, main_call8_cst_0, main_call8_v4, main_call8_v5, main_v79, main_v80]
theorem opsD_sub : (opsD : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩
theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsD_writes : (opsD : List (HloOp τ sig (Elt F))).Forall fun op => op.writes ⊆ (WD.map (Proc.devRef (τ := τ) .tc)).toFinset :=
  ⟨writes_sub_of_mem main_v58 rfl (by decide),
   writes_sub_of_mem main_v59 rfl (by decide),
   writes_sub_of_mem main_v60 rfl (by decide),
   writes_sub_of_mem main_v61 rfl (by decide),
   writes_sub_of_mem main_v62 rfl (by decide),
   writes_sub_of_mem main_v63 rfl (by decide),
   writes_sub_of_mem main_v64 rfl (by decide),
   writes_sub_of_mem main_v65 rfl (by decide),
   writes_sub_of_mem main_v66 rfl (by decide),
   writes_sub_of_mem main_v67 rfl (by decide),
   writes_sub_of_mem main_v68 rfl (by decide),
   writes_sub_of_mem main_v69 rfl (by decide),
   writes_sub_of_mem main_call7_v0 rfl (by decide),
   writes_sub_of_mem main_call7_v1 rfl (by decide),
   writes_sub_of_mem main_call7_cst rfl (by decide),
   writes_sub_of_mem main_call7_v2 rfl (by decide),
   writes_sub_of_mem main_call7_v3 rfl (by decide),
   writes_sub_of_mem main_call7_cst_0 rfl (by decide),
   writes_sub_of_mem main_call7_v4 rfl (by decide),
   writes_sub_of_mem main_call7_v5 rfl (by decide),
   writes_sub_of_mem main_v70 rfl (by decide),
   writes_sub_of_mem main_v71 rfl (by decide),
   writes_sub_of_mem main_v72 rfl (by decide),
   writes_sub_of_mem main_v73 rfl (by decide),
   writes_sub_of_mem main_v74 rfl (by decide),
   writes_sub_of_mem main_v75 rfl (by decide),
   writes_sub_of_mem main_v76 rfl (by decide),
   writes_sub_of_mem main_v77 rfl (by decide),
   writes_sub_of_mem main_v78 rfl (by decide),
   writes_sub_of_mem main_call8_v0 rfl (by decide),
   writes_sub_of_mem main_call8_v1 rfl (by decide),
   writes_sub_of_mem main_call8_cst rfl (by decide),
   writes_sub_of_mem main_call8_v2 rfl (by decide),
   writes_sub_of_mem main_call8_v3 rfl (by decide),
   writes_sub_of_mem main_call8_cst_0 rfl (by decide),
   writes_sub_of_mem main_call8_v4 rfl (by decide),
   writes_sub_of_mem main_call8_v5 rfl (by decide),
   writes_sub_of_mem main_v79 rfl (by decide),
   writes_sub_of_mem main_v80 rfl (by decide)⟩

/-- Stretch E of the reference's operations (39 of them), ending at the one that writes `main_v103`. -/
def opsE : List (HloOp τ sig (Elt F)) :=
  [ unary main_arg19 main_v81 ((extractStridedSlice S1x2x128x128 ![1, 0, 0, 0] · slices_S2x2x128x128_S1x2x128x128_1_0_0_0) : (⟨S2x2x128x128, .f32⟩ : BufTy).Contents (Elt F) → (⟨S1x2x128x128, .f32⟩ : BufTy).Contents (Elt F)),
    reshape main_v81 main_v82 rfl shapeCasts_S1x2x128x128_S2x128x128,
    unary main_arg20 main_v83 ((extractStridedSlice S1x2x128 ![1, 0, 0] · slices_S2x2x128_S1x2x128_1_0_0) : (⟨S2x2x128, .f32⟩ : BufTy).Contents (Elt F) → (⟨S1x2x128, .f32⟩ : BufTy).Contents (Elt F)),
    reshape main_v83 main_v84 rfl shapeCasts_S1x2x128_S2x128,
    unary main_v82 main_v85 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v85 main_v86 rfl shapeCasts_S1x128x128_S128x128,
    binary main_v80 main_v86 main_v87 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_v84 main_v88 ((extractStridedSlice S1x128 ![0, 0] · slices_S2x128_S1x128_0_0) : (⟨S2x128, .f32⟩ : BufTy).Contents (Elt F) → (⟨S1x128, .f32⟩ : BufTy).Contents (Elt F)),
    reshape main_v88 main_v89 rfl shapeCasts_S1x128_S128,
    unary main_v89 main_v90 (broadcastInDim S1x128 ![1] bcast_S128_S1x128_1 : (⟨S128, .f32⟩ : BufTy).Contents (Elt F) → (⟨S1x128, .f32⟩ : BufTy).Contents (Elt F)),
    unary main_v90 main_v91 (broadcastInDim S262144x128 ![0, 1] bcast_S1x128_S262144x128_0_1 : (⟨S1x128, .f32⟩ : BufTy).Contents (Elt F) → (⟨S262144x128, .f32⟩ : BufTy).Contents (Elt F)),
    binary main_v87 main_v91 main_v92 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v92) (TRef.of (T := ⟨S262144x128, .f32⟩) main_call9_v0) Host.negf,
    TRef.unary (TRef.of (T := ⟨S262144x128, .f32⟩) main_call9_v0) (TRef.of (T := ⟨S262144x128, .f32⟩) main_call9_v1) Host.exp,
    TRef.nullary (TRef.of (T := ⟨S_, .f32⟩) main_call9_cst) (constant S_ .f32 0x3F800000#32),
    TRef.unary (TRef.of (T := ⟨S_, .f32⟩) main_call9_cst) (TRef.of (T := ⟨S262144x128, .f32⟩) main_call9_v2) (broadcastInDim S262144x128 ![] bcast_S_S262144x128),
    TRef.binary (TRef.of (T := ⟨S262144x128, .f32⟩) main_call9_v2) (TRef.of (T := ⟨S262144x128, .f32⟩) main_call9_v1) (TRef.of (T := ⟨S262144x128, .f32⟩) main_call9_v3) addf,
    TRef.nullary (TRef.of (T := ⟨S_, .f32⟩) main_call9_cst_0) (constant S_ .f32 0x3F800000#32),
    TRef.unary (TRef.of (T := ⟨S_, .f32⟩) main_call9_cst_0) (TRef.of (T := ⟨S262144x128, .f32⟩) main_call9_v4) (broadcastInDim S262144x128 ![] bcast_S_S262144x128),
    TRef.binary (TRef.of (T := ⟨S262144x128, .f32⟩) main_call9_v4) (TRef.of (T := ⟨S262144x128, .f32⟩) main_call9_v3) (TRef.of (T := ⟨S262144x128, .f32⟩) main_call9_v5) Host.divf,
    TRef.binary (TRef.of (T := ⟨S262144x128, .f32⟩) main_v92) (TRef.of (T := ⟨S262144x128, .f32⟩) main_call9_v5) (TRef.of (T := ⟨S262144x128, .f32⟩) main_v93) mulf,
    unary main_v82 main_v94 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v94 main_v95 rfl shapeCasts_S1x128x128_S128x128,
    binary main_v93 main_v95 main_v96 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_v84 main_v97 ((extractStridedSlice S1x128 ![1, 0] · slices_S2x128_S1x128_1_0) : (⟨S2x128, .f32⟩ : BufTy).Contents (Elt F) → (⟨S1x128, .f32⟩ : BufTy).Contents (Elt F)),
    reshape main_v97 main_v98 rfl shapeCasts_S1x128_S128,
    unary main_v98 main_v99 (broadcastInDim S1x128 ![1] bcast_S128_S1x128_1 : (⟨S128, .f32⟩ : BufTy).Contents (Elt F) → (⟨S1x128, .f32⟩ : BufTy).Contents (Elt F)),
    unary main_v99 main_v100 (broadcastInDim S262144x128 ![0, 1] bcast_S1x128_S262144x128_0_1 : (⟨S1x128, .f32⟩ : BufTy).Contents (Elt F) → (⟨S262144x128, .f32⟩ : BufTy).Contents (Elt F)),
    binary main_v96 main_v100 main_v101 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v101) (TRef.of (T := ⟨S262144x128, .f32⟩) main_call10_v0) Host.negf,
    TRef.unary (TRef.of (T := ⟨S262144x128, .f32⟩) main_call10_v0) (TRef.of (T := ⟨S262144x128, .f32⟩) main_call10_v1) Host.exp,
    TRef.nullary (TRef.of (T := ⟨S_, .f32⟩) main_call10_cst) (constant S_ .f32 0x3F800000#32),
    TRef.unary (TRef.of (T := ⟨S_, .f32⟩) main_call10_cst) (TRef.of (T := ⟨S262144x128, .f32⟩) main_call10_v2) (broadcastInDim S262144x128 ![] bcast_S_S262144x128),
    TRef.binary (TRef.of (T := ⟨S262144x128, .f32⟩) main_call10_v2) (TRef.of (T := ⟨S262144x128, .f32⟩) main_call10_v1) (TRef.of (T := ⟨S262144x128, .f32⟩) main_call10_v3) addf,
    TRef.nullary (TRef.of (T := ⟨S_, .f32⟩) main_call10_cst_0) (constant S_ .f32 0x3F800000#32),
    TRef.unary (TRef.of (T := ⟨S_, .f32⟩) main_call10_cst_0) (TRef.of (T := ⟨S262144x128, .f32⟩) main_call10_v4) (broadcastInDim S262144x128 ![] bcast_S_S262144x128),
    TRef.binary (TRef.of (T := ⟨S262144x128, .f32⟩) main_call10_v4) (TRef.of (T := ⟨S262144x128, .f32⟩) main_call10_v3) (TRef.of (T := ⟨S262144x128, .f32⟩) main_call10_v5) Host.divf,
    TRef.binary (TRef.of (T := ⟨S262144x128, .f32⟩) main_v101) (TRef.of (T := ⟨S262144x128, .f32⟩) main_call10_v5) (TRef.of (T := ⟨S262144x128, .f32⟩) main_v102) mulf,
    binary main_v80 main_v102 main_v103 (addf : (⟨S262144x128, .f32⟩ : BufTy).Contents (Elt F) → (⟨S262144x128, .f32⟩ : BufTy).Contents (Elt F) → (⟨S262144x128, .f32⟩ : BufTy).Contents (Elt F)) ]
/-- The buffers stretch E writes, in order. -/
def WE : List (Ref sig .tc) :=
  [main_v81, main_v82, main_v83, main_v84, main_v85, main_v86, main_v87, main_v88, main_v89, main_v90, main_v91, main_v92, main_call9_v0, main_call9_v1, main_call9_cst, main_call9_v2, main_call9_v3, main_call9_cst_0, main_call9_v4, main_call9_v5, main_v93, main_v94, main_v95, main_v96, main_v97, main_v98, main_v99, main_v100, main_v101, main_call10_v0, main_call10_v1, main_call10_cst, main_call10_v2, main_call10_v3, main_call10_cst_0, main_call10_v4, main_call10_v5, main_v102, main_v103]
theorem opsE_sub : (opsE : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩
theorem opsE_fresh : (opsE : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsE_writes : (opsE : List (HloOp τ sig (Elt F))).Forall fun op => op.writes ⊆ (WE.map (Proc.devRef (τ := τ) .tc)).toFinset :=
  ⟨writes_sub_of_mem main_v81 rfl (by decide),
   writes_sub_of_mem main_v82 rfl (by decide),
   writes_sub_of_mem main_v83 rfl (by decide),
   writes_sub_of_mem main_v84 rfl (by decide),
   writes_sub_of_mem main_v85 rfl (by decide),
   writes_sub_of_mem main_v86 rfl (by decide),
   writes_sub_of_mem main_v87 rfl (by decide),
   writes_sub_of_mem main_v88 rfl (by decide),
   writes_sub_of_mem main_v89 rfl (by decide),
   writes_sub_of_mem main_v90 rfl (by decide),
   writes_sub_of_mem main_v91 rfl (by decide),
   writes_sub_of_mem main_v92 rfl (by decide),
   writes_sub_of_mem main_call9_v0 rfl (by decide),
   writes_sub_of_mem main_call9_v1 rfl (by decide),
   writes_sub_of_mem main_call9_cst rfl (by decide),
   writes_sub_of_mem main_call9_v2 rfl (by decide),
   writes_sub_of_mem main_call9_v3 rfl (by decide),
   writes_sub_of_mem main_call9_cst_0 rfl (by decide),
   writes_sub_of_mem main_call9_v4 rfl (by decide),
   writes_sub_of_mem main_call9_v5 rfl (by decide),
   writes_sub_of_mem main_v93 rfl (by decide),
   writes_sub_of_mem main_v94 rfl (by decide),
   writes_sub_of_mem main_v95 rfl (by decide),
   writes_sub_of_mem main_v96 rfl (by decide),
   writes_sub_of_mem main_v97 rfl (by decide),
   writes_sub_of_mem main_v98 rfl (by decide),
   writes_sub_of_mem main_v99 rfl (by decide),
   writes_sub_of_mem main_v100 rfl (by decide),
   writes_sub_of_mem main_v101 rfl (by decide),
   writes_sub_of_mem main_call10_v0 rfl (by decide),
   writes_sub_of_mem main_call10_v1 rfl (by decide),
   writes_sub_of_mem main_call10_cst rfl (by decide),
   writes_sub_of_mem main_call10_v2 rfl (by decide),
   writes_sub_of_mem main_call10_v3 rfl (by decide),
   writes_sub_of_mem main_call10_cst_0 rfl (by decide),
   writes_sub_of_mem main_call10_v4 rfl (by decide),
   writes_sub_of_mem main_call10_v5 rfl (by decide),
   writes_sub_of_mem main_v102 rfl (by decide),
   writes_sub_of_mem main_v103 rfl (by decide)⟩

end Cert.ReferenceIdeal.RefRun

end
-- ==== Proof.RefRun.lean ====
/-
  The reference program's run, read stage by stage.

  The reference is a straight line of host operations. Every weakly fair execution of it terminates with each buffer at
  the fold of the operations' results over the launch contents. Here that fold is read at the result buffer: the line is
  cut where a value is used more than once (the input of each residual layer, the skip), each stretch is read over the
  contents the one before leaves, and the stretches are joined; the result is the last stage of the reference as a
  function of the arguments, which are never written.
-/
import proofs.«400527_j63531156242866_3_alg».proof.Proof.Gen.ReferenceIdeal
import proofs.«400527_j63531156242866_3_alg».proof.Proof.RefRead
import proofs.«400527_j63531156242866_3_alg».proof.Proof.RefRunOps
import Idealize.ShloMosaic.Lib.StableHlo.Run
import Idealize.ShloMosaic.Lib.Pipeline.Frame
import Mathlib.Data.List.Basic

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The line of operations

The five stretches in a row. A called function's operations stand in its call's place. The cuts fall after the operations
that write `main_v30`, `main_v51`, `main_v57` and `main_v80`: the values later operations read more than once. -/

/-- The reference's 195 operations, in order. -/
def ops : List (HloOp τ sig (Elt F)) := opsA ++ opsB ++ opsC ++ opsD ++ opsE

set_option maxRecDepth 8192 in
set_option maxHeartbeats 4000000 in
/-- The reference's @main is the straight line of its operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- What holds of every operation of each stretch holds of every operation of the line. -/
private theorem forall_ops {p : HloOp τ sig (Elt F) → Prop} (hA : (opsA : List (HloOp τ sig (Elt F))).Forall p)
    (hB : (opsB : List (HloOp τ sig (Elt F))).Forall p) (hC : (opsC : List (HloOp τ sig (Elt F))).Forall p)
    (hD : (opsD : List (HloOp τ sig (Elt F))).Forall p) (hE : (opsE : List (HloOp τ sig (Elt F))).Forall p) :
    (ops : List (HloOp τ sig (Elt F))).Forall p :=
  List.forall_append.mpr ⟨List.forall_append.mpr ⟨List.forall_append.mpr ⟨List.forall_append.mpr ⟨hA, hB⟩, hC⟩, hD⟩, hE⟩

theorem ops_sub : (ops : List (HloOp τ sig (Elt F))).Forall fun op => op.bufs ⊆ tcRefs τ sig :=
  forall_ops opsA_sub opsB_sub opsC_sub opsD_sub opsE_sub
theorem ops_fresh : (ops : List (HloOp τ sig (Elt F))).Forall fun op => op.fresh = ∅ :=
  forall_ops opsA_fresh opsB_fresh opsC_fresh opsD_fresh opsE_fresh

section Read

variable (V : Valuation τ sig (Elt F))

/-! ## A stretch leaves every buffer it does not write as it was -/

theorem frameA {r : Ref sig .tc} (hr : r ∉ WA) : after opsA V (Proc.devRef .tc r) = V (Proc.devRef .tc r) :=
  after_of_writes_sub opsA V opsA_writes hr
theorem frameB {r : Ref sig .tc} (hr : r ∉ WB) : after opsB V (Proc.devRef .tc r) = V (Proc.devRef .tc r) :=
  after_of_writes_sub opsB V opsB_writes hr
theorem frameC {r : Ref sig .tc} (hr : r ∉ WC) : after opsC V (Proc.devRef .tc r) = V (Proc.devRef .tc r) :=
  after_of_writes_sub opsC V opsC_writes hr
theorem frameD {r : Ref sig .tc} (hr : r ∉ WD) : after opsD V (Proc.devRef .tc r) = V (Proc.devRef .tc r) :=
  after_of_writes_sub opsD V opsD_writes hr
theorem frameE {r : Ref sig .tc} (hr : r ∉ WE) : after opsE V (Proc.devRef .tc r) = V (Proc.devRef .tc r) :=
  after_of_writes_sub opsE V opsE_writes hr

/-- The whole line leaves a buffer none of its stretches writes as it was. -/
theorem frameAll {r : Ref sig .tc} (hA : r ∉ WA) (hB : r ∉ WB) (hC : r ∉ WC) (hD : r ∉ WD) (hE : r ∉ WE) :
    after ops V (Proc.devRef .tc r) = V (Proc.devRef .tc r) := by
  unfold ops
  rw [after_append, after_append, after_append, after_append, frameE _ hE, frameD _ hD, frameC _ hC, frameB _ hB, frameA _ hA]

/-! ## Each stretch read at its last buffer

Over ANY contents `V` that hold, at the buffers the stretch reads from before it, the stages of the arguments `x0 … x20`:
the fold of the stretch's results at its last buffer is that buffer's stage. Inside a stretch a value read twice is
written out twice; across stretches it is the one hypothesis. -/

variable (x0 : (⟨S262144x128, .f32⟩ : BufTy).Contents (Elt F)) (x1 : (⟨S262144x6, .f32⟩ : BufTy).Contents (Elt F))
  (x2 : (⟨S2097152x42, .f32⟩ : BufTy).Contents (Elt F)) (x3 : (⟨S2097152, .i32⟩ : BufTy).Contents (Elt F))
  (x4 : (⟨S2097152, .i32⟩ : BufTy).Contents (Elt F)) (x5 : (⟨S128x128, .f32⟩ : BufTy).Contents (Elt F))
  (x6 : (⟨S128, .f32⟩ : BufTy).Contents (Elt F)) (x7 : (⟨S6x8, .f32⟩ : BufTy).Contents (Elt F))
  (x8 : (⟨S8x128, .f32⟩ : BufTy).Contents (Elt F)) (x9 : (⟨S42x8, .f32⟩ : BufTy).Contents (Elt F))
  (x10 : (⟨S8x64, .f32⟩ : BufTy).Contents (Elt F)) (x11 : (⟨S128x64, .f32⟩ : BufTy).Contents (Elt F))
  (x12 : (⟨S64x128, .f32⟩ : BufTy).Contents (Elt F)) (x13 : (⟨S128x128, .f32⟩ : BufTy).Contents (Elt F))
  (x14 : (⟨S128, .f32⟩ : BufTy).Contents (Elt F)) (x15 : (⟨S1x2x128x128, .f32⟩ : BufTy).Contents (Elt F))
  (x16 : (⟨S1x2x128, .f32⟩ : BufTy).Contents (Elt F)) (x17 : (⟨S128x128, .f32⟩ : BufTy).Contents (Elt F))
  (x18 : (⟨S128, .f32⟩ : BufTy).Contents (Elt F)) (x19 : (⟨S2x2x128x128, .f32⟩ : BufTy).Contents (Elt F))
  (x20 : (⟨S2x2x128, .f32⟩ : BufTy).Contents (Elt F))

set_option maxRecDepth 8192 in
set_option maxHeartbeats 4000000 in
/-- Stretch A reads the arguments only: at `main_v30` it is that buffer's stage. -/
theorem stretchA (h0 : V (Proc.devRef .tc main_arg0) = x0) (h1 : V (Proc.devRef .tc main_arg1) = x1)
    (h2 : V (Proc.devRef .tc main_arg2) = x2) (h3 : V (Proc.devRef .tc main_arg3) = x3)
    (h4 : V (Proc.devRef .tc main_arg4) = x4) (h5 : V (Proc.devRef .tc main_arg5) = x5)
    (h6 : V (Proc.devRef .tc main_arg6) = x6) (h7 : V (Proc.devRef .tc main_arg7) = x7)
    (h8 : V (Proc.devRef .tc main_arg8) = x8) (h9 : V (Proc.devRef .tc main_arg9) = x9)
    (h10 : V (Proc.devRef .tc main_arg10) = x10) (h11 : V (Proc.devRef .tc main_arg11) = x11)
    (h12 : V (Proc.devRef .tc main_arg12) = x12) (h13 : V (Proc.devRef .tc main_arg13) = x13)
    (h14 : V (Proc.devRef .tc main_arg14) = x14) :
    after opsA V (Proc.devRef .tc main_v30)
      = Stages.val_main_v30 (F := F) x0 x1 x2 x3 x4 x5 x6 x7 x8 x9 x10 x11 x12 x13 x14 := by
  unfold opsA
  after_results_simp
  rw [h0, h1, h2, h3, h4, h5, h6, h7, h8, h9, h10, h11, h12, h13, h14]
  rfl

set_option maxRecDepth 8192 in
set_option maxHeartbeats 4000000 in
/-- Stretch B (the first residual layer) reads `main_v30` and the arguments 15 and 16. -/
theorem stretchB
    (hv30 : V (Proc.devRef .tc main_v30) = Stages.val_main_v30 (F := F) x0 x1 x2 x3 x4 x5 x6 x7 x8 x9 x10 x11 x12 x13 x14)
    (h15 : V (Proc.devRef .tc main_arg15) = x15) (h16 : V (Proc.devRef .tc main_arg16) = x16) :
    after opsB V (Proc.devRef .tc main_v51)
      = Stages.val_main_v51 (F := F) x0 x1 x2 x3 x4 x5 x6 x7 x8 x9 x10 x11 x12 x13 x14 x15 x16 := by
  unfold opsB
  after_results_simp
  rw [hv30, h15, h16]
  rfl

set_option maxRecDepth 8192 in
set_option maxHeartbeats 4000000 in
/-- Stretch C (the last dense layer and the skip) reads `main_v51` and the arguments 17, 18 and 0. -/
theorem stretchC
    (hv51 : V (Proc.devRef .tc main_v51) = Stages.val_main_v51 (F := F) x0 x1 x2 x3 x4 x5 x6 x7 x8 x9 x10 x11 x12 x13 x14 x15 x16)
    (h17 : V (Proc.devRef .tc main_arg17) = x17) (h18 : V (Proc.devRef .tc main_arg18) = x18)
    (h0 : V (Proc.devRef .tc main_arg0) = x0) :
    after opsC V (Proc.devRef .tc main_v57)
      = Stages.val_main_v57 (F := F) x0 x1 x2 x3 x4 x5 x6 x7 x8 x9 x10 x11 x12 x13 x14 x15 x16 x17 x18 := by
  unfold opsC
  after_results_simp
  rw [hv51, h17, h18, h0]
  rfl

set_option maxRecDepth 8192 in
set_option maxHeartbeats 4000000 in
/-- Stretch D (the second residual layer) reads `main_v57` and the arguments 19 and 20. -/
theorem stretchD
    (hv57 : V (Proc.devRef .tc main_v57) = Stages.val_main_v57 (F := F) x0 x1 x2 x3 x4 x5 x6 x7 x8 x9 x10 x11 x12 x13 x14 x15 x16 x17 x18)
    (h19 : V (Proc.devRef .tc main_arg19) = x19) (h20 : V (Proc.devRef .tc main_arg20) = x20) :
    after opsD V (Proc.devRef .tc main_v80)
      = Stages.val_main_v80 (F := F) x0 x1 x2 x3 x4 x5 x6 x7 x8 x9 x10 x11 x12 x13 x14 x15 x16 x17 x18 x19 x20 := by
  unfold opsD
  after_results_simp
  rw [hv57, h19, h20]
  rfl

set_option maxRecDepth 8192 in
set_option maxHeartbeats 4000000 in
/-- Stretch E (the third residual layer) reads `main_v80` and the arguments 19 and 20. -/
theorem stretchE
    (hv80 : V (Proc.devRef .tc main_v80) = Stages.val_main_v80 (F := F) x0 x1 x2 x3 x4 x5 x6 x7 x8 x9 x10 x11 x12 x13 x14 x15 x16 x17 x18 x19 x20)
    (h19 : V (Proc.devRef .tc main_arg19) = x19) (h20 : V (Proc.devRef .tc main_arg20) = x20) :
    after opsE V (Proc.devRef .tc main_v103)
      = Stages.val_main_v103 (F := F) x0 x1 x2 x3 x4 x5 x6 x7 x8 x9 x10 x11 x12 x13 x14 x15 x16 x17 x18 x19 x20 := by
  unfold opsE
  after_results_simp
  rw [hv80, h19, h20]
  rfl

/-! ## The stretches joined -/

/-- The whole line read at its result: each stretch over the contents the one before leaves, an argument a later
    stretch reads carried through the stretches before it, none of which writes it. -/
theorem res (h0 : V (Proc.devRef .tc main_arg0) = x0) (h1 : V (Proc.devRef .tc main_arg1) = x1)
    (h2 : V (Proc.devRef .tc main_arg2) = x2) (h3 : V (Proc.devRef .tc main_arg3) = x3)
    (h4 : V (Proc.devRef .tc main_arg4) = x4) (h5 : V (Proc.devRef .tc main_arg5) = x5)
    (h6 : V (Proc.devRef .tc main_arg6) = x6) (h7 : V (Proc.devRef .tc main_arg7) = x7)
    (h8 : V (Proc.devRef .tc main_arg8) = x8) (h9 : V (Proc.devRef .tc main_arg9) = x9)
    (h10 : V (Proc.devRef .tc main_arg10) = x10) (h11 : V (Proc.devRef .tc main_arg11) = x11)
    (h12 : V (Proc.devRef .tc main_arg12) = x12) (h13 : V (Proc.devRef .tc main_arg13) = x13)
    (h14 : V (Proc.devRef .tc main_arg14) = x14) (h15 : V (Proc.devRef .tc main_arg15) = x15)
    (h16 : V (Proc.devRef .tc main_arg16) = x16) (h17 : V (Proc.devRef .tc main_arg17) = x17)
    (h18 : V (Proc.devRef .tc main_arg18) = x18) (h19 : V (Proc.devRef .tc main_arg19) = x19)
    (h20 : V (Proc.devRef .tc main_arg20) = x20) :
    after ops V (Proc.devRef .tc main_v103)
      = Stages.val_main_v103 (F := F) x0 x1 x2 x3 x4 x5 x6 x7 x8 x9 x10 x11 x12 x13 x14 x15 x16 x17 x18 x19 x20 := by
  -- the contents after each stretch
  have hA := stretchA V x0 x1 x2 x3 x4 x5 x6 x7 x8 x9 x10 x11 x12 x13 x14 h0 h1 h2 h3 h4 h5 h6 h7 h8 h9 h10 h11 h12 h13 h14
  have hB := stretchB (after opsA V) x0 x1 x2 x3 x4 x5 x6 x7 x8 x9 x10 x11 x12 x13 x14 x15 x16 hA
    ((frameA V (r := main_arg15) (by decide)).trans h15)
    ((frameA V (r := main_arg16) (by decide)).trans h16)
  have hC := stretchC (after opsB (after opsA V)) x0 x1 x2 x3 x4 x5 x6 x7 x8 x9 x10 x11 x12 x13 x14 x15 x16 x17 x18 hB
    ((frameB (after opsA V) (r := main_arg17) (by decide)).trans ((frameA V (r := main_arg17) (by decide)).trans h17))
    ((frameB (after opsA V) (r := main_arg18) (by decide)).trans ((frameA V (r := main_arg18) (by decide)).trans h18))
    ((frameB (after opsA V) (r := main_arg0) (by decide)).trans ((frameA V (r := main_arg0) (by decide)).trans h0))
  have h19C : after opsC (after opsB (after opsA V)) (Proc.devRef .tc main_arg19) = x19 :=
    (frameC (after opsB (after opsA V)) (r := main_arg19) (by decide)).trans
      ((frameB (after opsA V) (r := main_arg19) (by decide)).trans ((frameA V (r := main_arg19) (by decide)).trans h19))
  have h20C : after opsC (after opsB (after opsA V)) (Proc.devRef .tc main_arg20) = x20 :=
    (frameC (after opsB (after opsA V)) (r := main_arg20) (by decide)).trans
      ((frameB (after opsA V) (r := main_arg20) (by decide)).trans ((frameA V (r := main_arg20) (by decide)).trans h20))
  have hD := stretchD (after opsC (after opsB (after opsA V))) x0 x1 x2 x3 x4 x5 x6 x7 x8 x9 x10 x11 x12 x13 x14 x15 x16 x17 x18
    x19 x20 hC h19C h20C
  have hE := stretchE (after opsD (after opsC (after opsB (after opsA V)))) x0 x1 x2 x3 x4 x5 x6 x7 x8 x9 x10 x11 x12 x13 x14
    x15 x16 x17 x18 x19 x20 hD
    ((frameD (after opsC (after opsB (after opsA V))) (r := main_arg19) (by decide)).trans h19C)
    ((frameD (after opsC (after opsB (after opsA V))) (r := main_arg20) (by decide)).trans h20C)
  unfold ops
  rw [after_append, after_append, after_append, after_append]
  exact hE

end Read

/-- Every weakly fair execution of the reference terminates, its result buffer at the last stage's function of the
    arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v103) = Cert.ReferenceIdeal.Stages.val_main_v103 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v103).trans (res (launchContents m c) _ _ _ _ _ _ _ _ _ _ _ _ _ _ _ _ _ _ _ _ _
        rfl rfl rfl rfl rfl rfl rfl rfl rfl rfl rfl rfl rfl rfl rfl rfl rfl rfl rfl rfl rfl),
      (h c main_arg0).trans (frameAll (launchContents m c) (r := main_arg0) (by decide) (by decide) (by decide) (by decide) (by decide)),
      (h c main_arg1).trans (frameAll (launchContents m c) (r := main_arg1) (by decide) (by decide) (by decide) (by decide) (by decide)),
      (h c main_arg2).trans (frameAll (launchContents m c) (r := main_arg2) (by decide) (by decide) (by decide) (by decide) (by decide)),
      (h c main_arg3).trans (frameAll (launchContents m c) (r := main_arg3) (by decide) (by decide) (by decide) (by decide) (by decide)),
      (h c main_arg4).trans (frameAll (launchContents m c) (r := main_arg4) (by decide) (by decide) (by decide) (by decide) (by decide)),
      (h c main_arg5).trans (frameAll (launchContents m c) (r := main_arg5) (by decide) (by decide) (by decide) (by decide) (by decide)),
      (h c main_arg6).trans (frameAll (launchContents m c) (r := main_arg6) (by decide) (by decide) (by decide) (by decide) (by decide)),
      (h c main_arg7).trans (frameAll (launchContents m c) (r := main_arg7) (by decide) (by decide) (by decide) (by decide) (by decide)),
      (h c main_arg8).trans (frameAll (launchContents m c) (r := main_arg8) (by decide) (by decide) (by decide) (by decide) (by decide)),
      (h c main_arg9).trans (frameAll (launchContents m c) (r := main_arg9) (by decide) (by decide) (by decide) (by decide) (by decide)),
      (h c main_arg10).trans (frameAll (launchContents m c) (r := main_arg10) (by decide) (by decide) (by decide) (by decide) (by decide)),
      (h c main_arg11).trans (frameAll (launchContents m c) (r := main_arg11) (by decide) (by decide) (by decide) (by decide) (by decide)),
      (h c main_arg12).trans (frameAll (launchContents m c) (r := main_arg12) (by decide) (by decide) (by decide) (by decide) (by decide)),
      (h c main_arg13).trans (frameAll (launchContents m c) (r := main_arg13) (by decide) (by decide) (by decide) (by decide) (by decide)),
      (h c main_arg14).trans (frameAll (launchContents m c) (r := main_arg14) (by decide) (by decide) (by decide) (by decide) (by decide)),
      (h c main_arg15).trans (frameAll (launchContents m c) (r := main_arg15) (by decide) (by decide) (by decide) (by decide) (by decide)),
      (h c main_arg16).trans (frameAll (launchContents m c) (r := main_arg16) (by decide) (by decide) (by decide) (by decide) (by decide)),
      (h c main_arg17).trans (frameAll (launchContents m c) (r := main_arg17) (by decide) (by decide) (by decide) (by decide) (by decide)),
      (h c main_arg18).trans (frameAll (launchContents m c) (r := main_arg18) (by decide) (by decide) (by decide) (by decide) (by decide)),
      (h c main_arg19).trans (frameAll (launchContents m c) (r := main_arg19) (by decide) (by decide) (by decide) (by decide) (by decide)),
      (h c main_arg20).trans (frameAll (launchContents m c) (r := main_arg20) (by decide) (by decide) (by decide) (by decide) (by decide))⟩)
    (run_seq scopedRefs_eq scopedSems_eq defs main (fun _ => ops) main_eq (fun _ => ops_sub) m ρ
      (fun _ => List.forall_iff_forall_mem.mp ops_fresh))

end Cert.ReferenceIdeal.RefRun

end
-- ==== Proof.lean ====
/-
  The certificate: the three frames, the idealization, and the equivalence over the extended reals.

  The kernel's program is three row-tiled regions around a gather, an entrywise product and a scatter-add; the
  reference is the same network as whole-array operations. Two laws join them. The kernel multiplies the two
  factors of each basis projection together first, the reference multiplies the data by them one after the other:
  equal for real matrices, which the precondition's finiteness gives. The kernel's gather fills rows whose index is
  out of range, the reference's clamps: equal when every index is a row number of the table, which the precondition's
  range conjunct gives. Everything else is the same operation applied to a block of rows and to the whole array.
  The kernel's run names its result at the contents its last region leaves; the reference's run is read stage by
  stage; both results are the reference's last stage of the arguments.
-/
import proofs.«400527_j63531156242866_3_alg».proof.Defs
import proofs.«400527_j63531156242866_3_alg».proof.Proof.Gen.Kernel
import proofs.«400527_j63531156242866_3_alg».proof.Proof.Gen.Kernel.Frame
import proofs.«400527_j63531156242866_3_alg».proof.Proof.Gen.KernelIdeal
import proofs.«400527_j63531156242866_3_alg».proof.Proof.Gen.KernelIdeal.Frame
import proofs.«400527_j63531156242866_3_alg».proof.Proof.Gen.ReferenceIdeal
import proofs.«400527_j63531156242866_3_alg».proof.Proof.Gen.Pre_finite_inputs
import proofs.«400527_j63531156242866_3_alg».proof.Proof.ValRun
import proofs.«400527_j63531156242866_3_alg».proof.Proof.PreFacts
import proofs.«400527_j63531156242866_3_alg».proof.Proof.Region0
import proofs.«400527_j63531156242866_3_alg».proof.Proof.Region1
import proofs.«400527_j63531156242866_3_alg».proof.Proof.Agg
import proofs.«400527_j63531156242866_3_alg».proof.Proof.Region2
import proofs.«400527_j63531156242866_3_alg».proof.Proof.RefRun
import Idealize.ShloMosaic.Adequacy
import Idealize.ShloMosaic.Init

noncomputable section

namespace Cert.Proof

open Idealize.ShloMosaic Idealize.ShloMosaic.TcCoe Idealize.SL.Sem

/-- Under the precondition the kernel's result array, as its last region leaves it, is the reference's last stage of the
    arguments: the precondition read back, then region 0, region 1, the aggregation and region 2 in turn. -/
theorem kernel_value (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    Cert.KernelIdeal.Gen.W6 m ρ c (Proc.devRef .tc Cert.KernelIdeal.main_v13)
      = Cert.ReferenceIdeal.Stages.val_main_v103 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) := by
  obtain ⟨h1, h2, h7, h8, h9, h10, hr⟩ := Cert.PreFacts.of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (hpre c)
  have hA := Cert.KernelIdeal.Gen.region0_value m ρ c h1 h7 h8
  have hS := Cert.KernelIdeal.Gen.region1_value m ρ c h2 h9 h10
  exact Cert.KernelIdeal.Gen.region2_value m ρ c (Cert.KernelIdeal.Gen.agg_value m ρ c ((Cert.KernelIdeal.Gen.w3_v2 m ρ c).trans hA) hS hr)

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end at the reference's last stage of arguments that agree. -/
theorem algebraic : Cert.algebraic_KernelIdeal_ReferenceIdeal := by
  intro m ρ m' ρ' hpre hagree
  refine ⟨fun c => Cert.ReferenceIdeal.Stages.val_main_v103 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · exact (θ_run Cert.KernelIdeal.defs _ _).mono (fun r h c => ⟨(h c).1.trans (kernel_value m ρ hpre c), (h c).2⟩)
      (Cert.KernelIdeal.Gen.run_val m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9, e10, e11, e12, e13, e14, e15, e16, e17, e18, e19, e20⟩ := hagree c
    rw [e0, e1, e2, e3, e4, e5, e6, e7, e8, e9, e10, e11, e12, e13, e14, e15, e16, e17, e18, e19, e20]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
